-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S800000x2 : Shape := ⟨2, ![800000, 2]⟩
abbrev S800000 : Shape := ⟨1, ![800000]⟩
abbrev S259x128 : Shape := ⟨2, ![259, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S800000x2 : S_.BroadcastsInDim S800000x2 (![] : Fin 0 → Fin S800000x2.rank)
  reducesTo_S800000x2_S_d0_1 : S800000x2.ReducesTo [0, 1] S_
  bcast_S_S259x128 : S_.BroadcastsInDim S259x128 (![] : Fin 0 → Fin S259x128.rank)
  reducesTo_S259x128_S_d0_1 : S259x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S800000 : S_.BroadcastsInDim S800000 (![] : Fin 0 → Fin S800000.rank)
  reducesTo_S800000_S_d0 : S800000.ReducesTo [0] S_

variable [Facts]

def fn_part4 {F : FTy → Type} [FloatOps F] (main_arg3 : IVec S800000 32) (main_v63 : IVec S_ 1) (main_v67 : IVec S_ 1) : IVec S_ 1 :=
  let main_v68 : IVec S_ 1 := andi main_v63 main_v67
  let main_c_26 : IVec S_ 32 := constantI S_ 32 0#32
  let main_v69 : IVec S800000 32 := broadcastInDim S800000 ![] bcast_S_S800000 main_c_26
  let main_v70 : IVec S800000 1 := cmpi .sge main_arg3 main_v69
  let main_c_27 : IVec S_ 1 := constantI S_ 1 1#1
  let main_v71 : IVec S_ 1 := (fun x v => Host.reduce IntOp.andi x v reducesTo_S800000_S_d0 h_S_) main_v70 main_c_27
  let main_v72 : IVec S_ 1 := andi main_v68 main_v71
  main_v72

def fn_part3 {F : FTy → Type} [FloatOps F] (main_arg3 : IVec S800000 32) (main_arg13 : FVec F S128x128 .f32) (main_arg14 : FVec F S128 .f32) (main_arg15 : FVec F S128x1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg3 main_v63 main_v67

def fn_part2 {F : FTy → Type} [FloatOps F] (main_arg3 : IVec S800000 32) (main_arg9 : FVec F S256x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_arg13 main_arg14 main_arg15 main_v48 main_v49 main_v50

def fn_part1 {F : FTy → Type} [FloatOps F] (main_arg3 : IVec S800000 32) (main_arg6 : FVec F S128 .f32) (main_arg7 : FVec F S128x128 .f32) (main_arg8 : FVec F S128 .f32) (main_arg9 : FVec F S256x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) (main_v13 : IVec S_ 1) (main_v16 : IVec S259x128 1) : IVec S_ 1 :=
  let main_c_5 : IVec S_ 1 := constantI S_ 1 1#1
  let main_v17 : IVec S_ 1 := (fun x v => Host.reduce IntOp.andi x v reducesTo_S259x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg9 main_arg10 main_arg11 main_arg12 main_arg13 main_arg14 main_arg15 main_v33

def fn {F : FTy → Type} [FloatOps F] (main_arg0 : FVec F S50000x128 .f32) (main_arg1 : FVec F S50000x3 .f32) (main_arg2 : FVec F S800000x2 .f32) (main_arg3 : IVec S800000 32) (main_arg4 : IVec S800000 32) (main_arg5 : FVec F S259x128 .f32) (main_arg6 : FVec F S128 .f32) (main_arg7 : FVec F S128x128 .f32) (main_arg8 : FVec F S128 .f32) (main_arg9 : FVec F S256x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S800000x2 .f32 := Host.absf main_arg2
  let main_cst_2 : FVec F S_ .f32 := constant S_ .f32 0x7F800000#32
  let main_v10 : FVec F S800000x2 .f32 := broadcastInDim S800000x2 ![] bcast_S_S800000x2 main_cst_2
  let main_v11 : IVec S800000x2 1 := cmpf .olt main_v9 main_v10
  let main_c_3 : IVec S_ 1 := constantI S_ 1 1#1
  let main_v12 : IVec S_ 1 := (fun x v => Host.reduce IntOp.andi x v reducesTo_S800000x2_S_d0_1 h_S_) main_v11 main_c_3
  let main_v13 : IVec S_ 1 := andi main_v8 main_v12
  let main_v14 : FVec F S259x128 .f32 := Host.absf main_arg5
  let main_cst_4 : FVec F S_ .f32 := constant S_ .f32 0x7F800000#32
  let main_v15 : FVec F S259x128 .f32 := broadcastInDim S259x128 ![] bcast_S_S259x128 main_cst_4
  let main_v16 : IVec S259x128 1 := cmpf .olt main_v14 main_v15
  fn_part1 (F := F) main_arg3 main_arg6 main_arg7 main_arg8 main_arg9 main_arg10 main_arg11 main_arg12 main_arg13 main_arg14 main_arg15 main_v13 main_v16
-- ==== Kernel.lean ====
abbrev S50000x128 : Shape := ⟨2, ![50000, 128]⟩
abbrev S50000x3 : Shape := ⟨2, ![50000, 3]⟩
abbrev S800000x2 : Shape := ⟨2, ![800000, 2]⟩
abbrev S800000 : Shape := ⟨1, ![800000]⟩
abbrev S259x128 : Shape := ⟨2, ![259, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S800000x1 : Shape := ⟨2, ![800000, 1]⟩
abbrev S800000x128 : Shape := ⟨2, ![800000, 128]⟩
abbrev S800000x3 : Shape := ⟨2, ![800000, 3]⟩
abbrev S_ : Shape := ⟨0, ![]⟩
abbrev S800000x6 : Shape := ⟨2, ![800000, 6]⟩
abbrev S3x128 : Shape := ⟨2, ![3, 128]⟩
abbrev S802816x128 : Shape := ⟨2, ![802816, 128]⟩
abbrev S802816x6 : Shape := ⟨2, ![802816, 6]⟩
abbrev S802816x3 : Shape := ⟨2, ![802816, 3]⟩
abbrev S4096x128 : Shape := ⟨2, ![4096, 128]⟩
abbrev S4096x6 : Shape := ⟨2, ![4096, 6]⟩
abbrev S4096x3 : Shape := ⟨2, ![4096, 3]⟩
abbrev S1x128 : Shape := ⟨2, ![1, 128]⟩
abbrev S4096x1 : Shape := ⟨2, ![4096, 1]⟩
abbrev S802816 : Shape := ⟨1, ![802816]⟩
abbrev S802816x1 : Shape := ⟨2, ![802816, 1]⟩
abbrev S50000 : Shape := ⟨1, ![50000]⟩
abbrev S50000x1 : Shape := ⟨2, ![50000, 1]⟩
abbrev S5000x128 : Shape := ⟨2, ![5000, 128]⟩
abbrev S5000x256 : Shape := ⟨2, ![5000, 256]⟩

abbrev nBuf : Space → Nat
  | .hbm => 76
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S800000x2, .f32⟩
  | .hbm, ⟨3, _⟩ => ⟨S800000, .i32⟩
  | .hbm, ⟨4, _⟩ => ⟨S800000, .i32⟩
  | .hbm, ⟨5, _⟩ => ⟨S259x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x1, .f32⟩
  | .hbm, ⟨16, _⟩ => ⟨S50000x128, .bf16⟩
  | .hbm, ⟨17, _⟩ => ⟨S800000x1, .i32⟩
  | .hbm, ⟨18, _⟩ => ⟨S800000x128, .bf16⟩
  | .hbm, ⟨19, _⟩ => ⟨S800000x1, .i32⟩
  | .hbm, ⟨20, _⟩ => ⟨S800000x128, .bf16⟩
  | .hbm, ⟨21, _⟩ => ⟨S800000x1, .i32⟩
  | .hbm, ⟨22, _⟩ => ⟨S800000x3, .f32⟩
  | .hbm, ⟨23, _⟩ => ⟨S800000x1, .i32⟩
  | .hbm, ⟨24, _⟩ => ⟨S800000x3, .f32⟩
  | .hbm, ⟨25, _⟩ => ⟨S800000x3, .f32⟩
  | .hbm, ⟨26, _⟩ => ⟨S800000x3, .f32⟩
  | .hbm, ⟨27, _⟩ => ⟨S_, .f32⟩
  | .hbm, ⟨28, _⟩ => ⟨S800000, .f32⟩
  | .hbm, ⟨29, _⟩ => ⟨S800000x1, .f32⟩
  | .hbm, ⟨30, _⟩ => ⟨S800000x1, .f32⟩
  | .hbm, ⟨31, _⟩ => ⟨S_, .f32⟩
  | .hbm, ⟨32, _⟩ => ⟨S800000x1, .f32⟩
  | .hbm, ⟨33, _⟩ => ⟨S800000x1, .f32⟩
  | .hbm, ⟨34, _⟩ => ⟨S800000x3, .f32⟩
  | .hbm, ⟨35, _⟩ => ⟨S800000x3, .f32⟩
  | .hbm, ⟨36, _⟩ => ⟨S800000x6, .f32⟩
  | .hbm, ⟨37, _⟩ => ⟨S128x128, .f32⟩
  | .hbm, ⟨38, _⟩ => ⟨S128x128, .f32⟩
  | .hbm, ⟨39, _⟩ => ⟨S3x128, .f32⟩
  | .hbm, ⟨40, _⟩ => ⟨S_, .i32⟩
  | .hbm, ⟨41, _⟩ => ⟨S_, .bf16⟩
  | .hbm, ⟨42, _⟩ => ⟨S802816x128, .bf16⟩
  | .hbm, ⟨43, _⟩ => ⟨S_, .i32⟩
  | .hbm, ⟨44, _⟩ => ⟨S_, .bf16⟩
  | .hbm, ⟨45, _⟩ => ⟨S802816x128, .bf16⟩
  | .hbm, ⟨46, _⟩ => ⟨S_, .i32⟩
  | .hbm, ⟨47, _⟩ => ⟨S_, .f32⟩
  | .hbm, ⟨48, _⟩ => ⟨S802816x6, .f32⟩
  | .hbm, ⟨49, _⟩ => ⟨S802816x128, .f32⟩
  | .hbm, ⟨50, _⟩ => ⟨S802816x3, .f32⟩
  | .hbm, ⟨51, _⟩ => ⟨S_, .i32⟩
  | .hbm, ⟨52, _⟩ => ⟨S_, .i32⟩
  | .hbm, ⟨53, _⟩ => ⟨S802816, .i32⟩
  | .hbm, ⟨54, _⟩ => ⟨S_, .f32⟩
  | .hbm, ⟨55, _⟩ => ⟨S802816, .f32⟩
  | .hbm, ⟨56, _⟩ => ⟨S_, .f32⟩
  | .hbm, ⟨57, _⟩ => ⟨S50000x128, .f32⟩
  | .hbm, ⟨58, _⟩ => ⟨S802816x1, .i32⟩
  | .hbm, ⟨59, _⟩ => ⟨S50000x128, .f32⟩
  | .hbm, ⟨60, _⟩ => ⟨S_, .f32⟩
  | .hbm, ⟨61, _⟩ => ⟨S50000x3, .f32⟩
  | .hbm, ⟨62, _⟩ => ⟨S802816x1, .i32⟩
  | .hbm, ⟨63, _⟩ => ⟨S50000x3, .f32⟩
  | .hbm, ⟨64, _⟩ => ⟨S_, .f32⟩
  | .hbm, ⟨65, _⟩ => ⟨S50000, .f32⟩
  | .hbm, ⟨66, _⟩ => ⟨S802816x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x3, .f32⟩
  | .hbm, ⟨73, _⟩ => ⟨S50000x3, .f32⟩
  | .hbm, ⟨74, _⟩ => ⟨S50000x128, .f32⟩
  | .hbm, ⟨75, _⟩ => ⟨S50000x3, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x6, .f32⟩
  | .local _ .vmem, ⟨5, _⟩ => ⟨S4096x6, .f32⟩
  | .local _ .vmem, ⟨6, _⟩ => ⟨S128x128, .f32⟩
  | .local _ .vmem, ⟨7, _⟩ => ⟨S128x128, .f32⟩
  | .local _ .vmem, ⟨8, _⟩ => ⟨S3x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128x1, .f32⟩
  | .local _ .vmem, ⟨15, _⟩ => ⟨S4096x128, .f32⟩
  | .local _ .vmem, ⟨16, _⟩ => ⟨S4096x128, .f32⟩
  | .local _ .vmem, ⟨17, _⟩ => ⟨S4096x3, .f32⟩
  | .local _ .vmem, ⟨18, _⟩ => ⟨S4096x3, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S256x128, .f32⟩
  | .local _ .vmem, ⟨24, _⟩ => ⟨S128, .f32⟩
  | .local _ .vmem, ⟨25, _⟩ => ⟨S128x128, .f32⟩
  | .local _ .vmem, ⟨26, _⟩ => ⟨S128, .f32⟩
  | .local _ .vmem, ⟨27, _⟩ => ⟨S5000x128, .f32⟩
  | .local _ .vmem, ⟨28, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_call0_v0 : Ref sig .tc := ⟨.hbm, 17, rfl⟩
abbrev main_v1 : Ref sig .tc := ⟨.hbm, 18, rfl⟩
abbrev main_call1_v0 : Ref sig .tc := ⟨.hbm, 19, rfl⟩
abbrev main_v2 : Ref sig .tc := ⟨.hbm, 20, rfl⟩
abbrev main_call2_v0 : Ref sig .tc := ⟨.hbm, 21, rfl⟩
abbrev main_v3 : Ref sig .tc := ⟨.hbm, 22, rfl⟩
abbrev main_call3_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_call4_v0 : Ref sig .tc := ⟨.hbm, 41, rfl⟩
abbrev main_v18 : Ref sig .tc := ⟨.hbm, 42, rfl⟩
abbrev main_c_1 : Ref sig .tc := ⟨.hbm, 43, rfl⟩
abbrev main_call5_v0 : Ref sig .tc := ⟨.hbm, 44, rfl⟩
abbrev main_v19 : Ref sig .tc := ⟨.hbm, 45, rfl⟩
abbrev main_c_2 : Ref sig .tc := ⟨.hbm, 46, rfl⟩
abbrev main_call6_v0 : Ref sig .tc := ⟨.hbm, 47, rfl⟩
abbrev main_v20 : Ref sig .tc := ⟨.hbm, 48, rfl⟩
abbrev main_v21_0 : Ref sig .tc := ⟨.hbm, 49, rfl⟩
abbrev main_v21_1 : Ref sig .tc := ⟨.hbm, 50, rfl⟩
abbrev main_c_3 : Ref sig .tc := ⟨.hbm, 51, rfl⟩
abbrev main_call7_v0 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_cst_5 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_7 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_8 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem6_1 : DmaSem sig := 28

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  bcast_S800000_S800000x1_0 : S800000.BroadcastsInDim S800000x1 (![0] : Fin 1 → Fin S800000x1.rank)
  reducesTo_S800000x3_S800000_d1 : S800000x3.ReducesTo [1] S800000
  h_S_ : 0 < S_.numel
  bcast_S_S800000x1 : S_.BroadcastsInDim S800000x1 (![] : Fin 0 → Fin S800000x1.rank)
  bcast_S800000x1_S800000x3_0_1 : S800000x1.BroadcastsInDim S800000x3 (![0, 1] : Fin 2 → Fin S800000x3.rank)
  concatenates_S800000x1_S800000x2_S800000x3_S800000x6_d1 : Shape.Concatenates [S800000x1, S800000x2, S800000x3] S800000x6 1
  slices_S259x128_S128x128_0_0 : S259x128.Slices ![0, 0] S128x128
  slices_S259x128_S128x128_128_0 : S259x128.Slices ![128, 0] S128x128
  slices_S259x128_S3x128_256_0 : S259x128.Slices ![256, 0] S3x128
  pads_S800000x128_S802816x128_028160_000 : S800000x128.Pads (![0, 0] : Fin 2 → Nat) ![2816, 0] ![0, 0] S802816x128
  pads_S800000x6_S802816x6_028160_000 : S800000x6.Pads (![0, 0] : Fin 2 → Nat) ![2816, 0] ![0, 0] S802816x6
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x6_S4096x6_0_0 : ∀ a, (![0, 0] : Fin 2 → Nat) a + S4096x6.size a ≤ S4096x6.size a
  h_S4096x6 : 0 < S4096x6.numel
  shapeCasts_S4096x6_S4096x6 : S4096x6.ShapeCasts S4096x6
  slices_S4096x6_o0_0_S4096x3 : S4096x6.Slices ![0, 0] S4096x3
  slices_S4096x6_o0_3_S4096x3 : S4096x6.Slices ![0, 3] S4096x3
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x1_S128x1_0_0 : ∀ a, (![0, 0] : Fin 2 → Nat) a + S128x1.size a ≤ S128x1.size a
  h_S128x1 : 0 < S128x1.numel
  broadcasts_S4096x1_S4096x3 : S4096x1.Broadcasts S4096x3
  inb_S4096x3_S4096x3_0_0 : ∀ a, (![0, 0] : Fin 2 → Nat) a + S4096x3.size a ≤ S4096x3.size a
  h_S4096x3 : 0 < S4096x3.numel
  pads_S800000_S802816_028160 : S800000.Pads (![0] : Fin 1 → Nat) ![2816] ![0] S802816
  bcast_S_S802816 : S_.BroadcastsInDim S802816 (![] : Fin 0 → Fin S802816.rank)
  bcast_S_S50000x128 : S_.BroadcastsInDim S50000x128 (![] : Fin 0 → Fin S50000x128.rank)
  bcast_S802816_S802816x1_0 : S802816.BroadcastsInDim S802816x1 (![0] : Fin 1 → Fin S802816x1.rank)
  bcast_S_S50000x3 : S_.BroadcastsInDim S50000x3 (![] : Fin 0 → Fin S50000x3.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S4096x128_S128x128_S4096x128_1_0_0_1_n_n_wf : DotDims.WF S4096x128 S128x128 S4096x128 [1] [0] [0] [1] [] []
  dot_S4096x3_S3x128_S4096x128_1_0_0_1_n_n_wf : DotDims.WF S4096x3 S3x128 S4096x128 [1] [0] [0] [1] [] []
  dot_S4096x128_S128x1_S4096x1_1_0_0_1_n_n_wf : DotDims.WF S4096x128 S128x1 S4096x1 [1] [0] [0] [1] [] []
  scatter_S50000x128_S802816x1_S802816x128_1_0_0_1_wf : ScatterDims.WF S50000x128 S802816x1 S802816x128 [1] [0] [0] 1
  scatter_S50000x3_S802816x1_S802816x3_1_0_0_1_wf : ScatterDims.WF S50000x3 S802816x1 S802816x3 [1] [0] [0] 1
  scatter_S50000_S802816x1_S802816_n_0_0_1_wf : ScatterDims.WF S50000 S802816x1 S802816 [] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S802816x128.size a
  hwx0_0 : ∀ i : grid0.Coords, EltTy.bits .bf16 = 32 ∨ (Rect.block (s := S802816x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S802816x128.size a
  hwx0_1 : ∀ i : grid0.Coords, EltTy.bits .bf16 = 32 ∨ (Rect.block (s := S802816x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x6.size a ≤ S802816x6.size a
  hwx0_2 : ∀ i : grid0.Coords, EltTy.bits .f32 = 32 ∨ (Rect.block (s := S802816x6) S4096x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x128.size a ≤ S802816x128.size a
  hwx0_12 : ∀ i : grid0.Coords, EltTy.bits .f32 = 32 ∨ (Rect.block (s := S802816x128) S4096x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096x3.size a ≤ S802816x3.size a
  hwx0_13 : ∀ i : grid0.Coords, EltTy.bits .f32 = 32 ∨ (Rect.block (s := S802816x3) S4096x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x3_S3x128_S4096x128_1_0_0_1_n_n : DotDims S4096x3 S3x128 S4096x128 where
  lhsContracting := [1]
  rhsContracting := [0]
  lhsNonContracting := [0]
  rhsNonContracting := [1]
  lhsBatch := []
  rhsBatch := []
  wf := dot_S4096x3_S3x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def scatter_S50000x128_S802816x1_S802816x128_1_0_0_1 : ScatterDims S50000x128 S802816x1 S802816x128 where
  updateWindowDims := [1]
  insertedWindowDims := [0]
  scatterDimsToOperandDims := [0]
  indexVectorDim := 1
  wf := scatter_S50000x128_S802816x1_S802816x128_1_0_0_1_wf
def scatter_S50000x3_S802816x1_S802816x3_1_0_0_1 : ScatterDims S50000x3 S802816x1 S802816x3 where
  updateWindowDims := [1]
  insertedWindowDims := [0]
  scatterDimsToOperandDims := [0]
  indexVectorDim := 1
  wf := scatter_S50000x3_S802816x1_S802816x3_1_0_0_1_wf
def scatter_S50000_S802816x1_S802816_n_0_0_1 : ScatterDims S50000 S802816x1 S802816 where
  updateWindowDims := []
  insertedWindowDims := [0]
  scatterDimsToOperandDims := [0]
  indexVectorDim := 1
  wf := scatter_S50000_S802816x1_S802816_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4096x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21_0) S4096x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v21_1) S4096x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S800000x2 : Shape := ⟨2, ![800000, 2]⟩
abbrev S800000 : Shape := ⟨1, ![800000]⟩
abbrev S259x128 : Shape := ⟨2, ![259, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S800000x259 : Shape := ⟨2, ![800000, 259]⟩
abbrev S1x128 : Shape := ⟨2, ![1, 128]⟩
abbrev S50000 : Shape := ⟨1, ![50000]⟩
abbrev S50000x1 : Shape := ⟨2, ![50000, 1]⟩
abbrev S50000x256 : Shape := ⟨2, ![50000, 256]⟩

abbrev nBuf : Space → Nat
  | .hbm => 145
  | .vmem => 0
  | .smem => 0
  | _ => 0

abbrev hbmTy0_0 (i : Nat) : BufTy := match i % 128 with
  | 0 => ⟨S50000x128, .f32⟩
  | 1 => ⟨S50000x3, .f32⟩
  | 2 => ⟨S800000x2, .f32⟩
  | 3 => ⟨S800000, .i32⟩
  | 4 => ⟨S800000, .i32⟩
  | 5 => ⟨S259x128, .f32⟩
  | 6 => ⟨S128, .f32⟩
  | 7 => ⟨S128x128, .f32⟩
  | 8 => ⟨S128, .f32⟩
  | 9 => ⟨S256x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x3, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x3, .f32⟩
  | 52 => ⟨S800000x3, .f32⟩
  | 53 => ⟨S800000x3, .f32⟩
  | 54 => ⟨S_, .f32⟩
  | 55 => ⟨S800000, .f32⟩
  | 56 => ⟨S800000x1, .f32⟩
  | 57 => ⟨S800000x1, .f32⟩
  | 58 => ⟨S_, .f32⟩
  | 59 => ⟨S800000x1, .f32⟩
  | 60 => ⟨S800000x1, .f32⟩
  | 61 => ⟨S800000x3, .f32⟩
  | 62 => ⟨S800000x3, .f32⟩
  | 63 => ⟨S800000x259, .f32⟩
  | 64 => ⟨S800000x128, .f32⟩
  | 65 => ⟨S1x128, .f32⟩
  | 66 => ⟨S800000x128, .f32⟩
  | 67 => ⟨S800000x128, .f32⟩
  | 68 => ⟨S800000x128, .f32⟩
  | 69 => ⟨S800000x128, .f32⟩
  | 70 => ⟨S_, .f32⟩
  | 71 => ⟨S800000x128, .f32⟩
  | 72 => ⟨S800000x128, .f32⟩
  | 73 => ⟨S_, .f32⟩
  | 74 => ⟨S800000x128, .f32⟩
  | 75 => ⟨S800000x128, .f32⟩
  | 76 => ⟨S800000x128, .f32⟩
  | 77 => ⟨S800000x128, .f32⟩
  | 78 => ⟨S1x128, .f32⟩
  | 79 => ⟨S800000x128, .f32⟩
  | 80 => ⟨S800000x128, .f32⟩
  | 81 => ⟨S800000x128, .f32⟩
  | 82 => ⟨S800000x128, .f32⟩
  | 83 => ⟨S_, .f32⟩
  | 84 => ⟨S800000x128, .f32⟩
  | 85 => ⟨S800000x128, .f32⟩
  | 86 => ⟨S_, .f32⟩
  | 87 => ⟨S800000x128, .f32⟩
  | 88 => ⟨S800000x128, .f32⟩
  | 89 => ⟨S800000x128, .f32⟩
  | 90 => ⟨S800000x128, .f32⟩
  | 91 => ⟨S1x128, .f32⟩
  | 92 => ⟨S800000x128, .f32⟩
  | 93 => ⟨S800000x128, .f32⟩
  | 94 => ⟨S800000x128, .f32⟩
  | 95 => ⟨S800000x128, .f32⟩
  | 96 => ⟨S_, .f32⟩
  | 97 => ⟨S800000x128, .f32⟩
  | 98 => ⟨S800000x128, .f32⟩
  | 99 => ⟨S_, .f32⟩
  | 100 => ⟨S800000x128, .f32⟩
  | 101 => ⟨S800000x128, .f32⟩
  | 102 => ⟨S800000x128, .f32⟩
  | 103 => ⟨S800000x1, .f32⟩
  | 104 => ⟨S800000x3, .f32⟩
  | 105 => ⟨S800000x3, .f32⟩
  | 106 => ⟨S_, .f32⟩
  | 107 => ⟨S50000x128, .f32⟩
  | 108 => ⟨S800000x1, .i32⟩
  | 109 => ⟨S50000x128, .f32⟩
  | 110 => ⟨S_, .f32⟩
  | 111 => ⟨S50000x3, .f32⟩
  | 112 => ⟨S800000x1, .i32⟩
  | 113 => ⟨S50000x3, .f32⟩
  | 114 => ⟨S_, .f32⟩
  | 115 => ⟨S800000, .f32⟩
  | 116 => ⟨S_, .f32⟩
  | 117 => ⟨S50000, .f32⟩
  | 118 => ⟨S800000x1, .i32⟩
  | 119 => ⟨S50000, .f32⟩
  | 120 => ⟨S_, .f32⟩
  | 121 => ⟨S50000, .f32⟩
  | 122 => ⟨S50000, .f32⟩
  | 123 => ⟨S50000x1, .f32⟩
  | 124 => ⟨S50000x3, .f32⟩
  | 125 => ⟨S50000x3, .f32⟩
  | 126 => ⟨S50000x256, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_8 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_9 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_10 : Ref sig .tc := ⟨.hbm, 114, rfl⟩
abbrev main_v62 : Ref sig .tc := ⟨.hbm, 115, rfl⟩
abbrev main_cst_11 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_12 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_call3_v0 : Ref sig .tc := ⟨.hbm, 131, rfl⟩
abbrev main_call3_v1 : Ref sig .tc := ⟨.hbm, 132, rfl⟩
abbrev main_call3_cst : Ref sig .tc := ⟨.hbm, 133, rfl⟩
abbrev main_call3_v2 : Ref sig .tc := ⟨.hbm, 134, rfl⟩
abbrev main_call3_v3 : Ref sig .tc := ⟨.hbm, 135, rfl⟩
abbrev main_call3_cst_0 : Ref sig .tc := ⟨.hbm, 136, rfl⟩
abbrev main_call3_v4 : Ref sig .tc := ⟨.hbm, 137, rfl⟩
abbrev main_call3_v5 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  bcast_S_S800000x1 : S_.BroadcastsInDim S800000x1 (![] : Fin 0 → Fin S800000x1.rank)
  bcast_S800000x1_S800000x3_0_1 : S800000x1.BroadcastsInDim S800000x3 (![0, 1] : Fin 2 → Fin S800000x3.rank)
  concatenates_S800000x128_S800000x128_S800000x1_S800000x2_S800000x259_d1 : Shape.Concatenates [S800000x128, S800000x128, S800000x1, S800000x2] S800000x259 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000x3 : S_.BroadcastsInDim S50000x3 (![] : Fin 0 → Fin S50000x3.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S800000x259_S259x128_S800000x128_1_0_0_1_n_n_wf : DotDims.WF S800000x259 S259x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x128_S800000x1_S800000x128_1_0_0_1_wf : ScatterDims.WF S50000x128 S800000x1 S800000x128 [1] [0] [0] 1
  scatter_S50000x3_S800000x1_S800000x3_1_0_0_1_wf : ScatterDims.WF S50000x3 S800000x1 S800000x3 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S800000x259_S259x128_S800000x128_1_0_0_1_n_n : DotDims S800000x259 S259x128 S800000x128 where
  lhsContracting := [1]
  rhsContracting := [0]
  lhsNonContracting := [0]
  rhsNonContracting := [1]
  lhsBatch := []
  rhsBatch := []
  wf := dot_S800000x259_S259x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelEdge.lean ====
/-
  The edge region: one grid point takes 4096 edge rows — the gathered source and destination features, and the
  six per-edge scalars (squared distance, two edge features, the normalised coordinate difference) — with the
  three slices of the first edge layer's weight and the remaining weights and biases whole.  The body reads its
  twelve input blocks, computes two pure values of them (the 4096×128 message block and the 4096×3 coordinate
  message block), and overwrites the two output blocks whole.  This module states what the two output buffers
  hold after the body, runs the body, and packages the result as the pipeline's proof data.
-/
import proofs.«425882_j23055384445177_3_alg».proof.Proof.Gen.Kernel.Launch
import proofs.«425882_j23055384445177_3_alg».proof.Proof.Gen.Kernel.Skeleton
import proofs.«425882_j23055384445177_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the point fetches it or keeps the
    block of the point before (the weights and biases are fetched once: their block index never moves). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V c (Pipeline.arrRef spec0 10))
    (hafter : ∀ t, dat.after 10 t = iblk V c 10 t) (t : Fin cfg0.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V c (Pipeline.arrRef spec0 11))
    (hafter : ∀ t, dat.after 11 t = iblk V c 11 t) (t : Fin cfg0.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- The whole message block and the whole coordinate-message block: the rectangles of the two stores. -/
abbrev rMsg : Rect S4096x128 := Rect.unit (s := S4096x128) ![0, 0] S4096x128.size inb_S4096x128_S4096x128_0_0
abbrev rCoord : Rect S4096x3 := Rect.unit (s := S4096x3) ![0, 0] S4096x3.size inb_S4096x3_S4096x3_0_0

/-- The message block after the body: two SiLU layers over the split first-layer product, a pure function of
    nine loads. -/
def outMsg (x0 : Vec F S4096x128 .bf16) (x1 : Vec F S4096x128 .bf16) (x2 : Vec F S4096x6 .f32) (x3 : Vec F S128x128 .f32) (x4 : Vec F S128x128 .f32) (x5 : Vec F S3x128 .f32) (x6 : Vec F S128 .f32) (x7 : Vec F S128x128 .f32) (x8 : Vec F S128 .f32) : Vec F S4096x128 .f32 :=
  View.canon [⟨rMsg, k0_pay4 (View.ld x0 (Rect.unit (s := S4096x128) ![0, 0] S4096x128.size inb_S4096x128_S4096x128_0_0)) (View.ld x1 (Rect.unit (s := S4096x128) ![0, 0] S4096x128.size inb_S4096x128_S4096x128_0_0)) (View.ld x2 (Rect.unit (s := S4096x6) ![0, 0] S4096x6.size inb_S4096x6_S4096x6_0_0)) (View.ld x3 (Rect.unit (s := S128x128) ![0, 0] S128x128.size inb_S128x128_S128x128_0_0)) (View.ld x4 (Rect.unit (s := S128x128) ![0, 0] S128x128.size inb_S128x128_S128x128_0_0)) (View.ld x5 (Rect.unit (s := S3x128) ![0, 0] S3x128.size inb_S3x128_S3x128_0_0)) (View.ld x6 (Rect.unit (s := S128) ![0] S128.size inb_S128_S128_0)) (View.ld x7 (Rect.unit (s := S128x128) ![0, 0] S128x128.size inb_S128x128_S128x128_0_0)) (View.ld x8 (Rect.unit (s := S128) ![0] S128.size inb_S128_S128_0))⟩]

/-- The coordinate-message block after the body: the coordinate layer's scalar per edge times the normalised
    difference, a pure function of the twelve loads. -/
def outCoord (x0 : Vec F S4096x128 .bf16) (x1 : Vec F S4096x128 .bf16) (x2 : Vec F S4096x6 .f32) (x3 : Vec F S128x128 .f32) (x4 : Vec F S128x128 .f32) (x5 : Vec F S3x128 .f32) (x6 : Vec F S128 .f32) (x7 : Vec F S128x128 .f32) (x8 : Vec F S128 .f32) (x9 : Vec F S128x128 .f32) (x10 : Vec F S128 .f32) (x11 : Vec F S128x1 .f32) : Vec F S4096x3 .f32 :=
  View.canon [⟨rCoord, k0_pay1 (k0_pay3 (View.ld x2 (Rect.unit (s := S4096x6) ![0, 0] S4096x6.size inb_S4096x6_S4096x6_0_0))) (k0_pay4 (View.ld x0 (Rect.unit (s := S4096x128) ![0, 0] S4096x128.size inb_S4096x128_S4096x128_0_0)) (View.ld x1 (Rect.unit (s := S4096x128) ![0, 0] S4096x128.size inb_S4096x128_S4096x128_0_0)) (View.ld x2 (Rect.unit (s := S4096x6) ![0, 0] S4096x6.size inb_S4096x6_S4096x6_0_0)) (View.ld x3 (Rect.unit (s := S128x128) ![0, 0] S128x128.size inb_S128x128_S128x128_0_0)) (View.ld x4 (Rect.unit (s := S128x128) ![0, 0] S128x128.size inb_S128x128_S128x128_0_0)) (View.ld x5 (Rect.unit (s := S3x128) ![0, 0] S3x128.size inb_S3x128_S3x128_0_0)) (View.ld x6 (Rect.unit (s := S128) ![0] S128.size inb_S128_S128_0)) (View.ld x7 (Rect.unit (s := S128x128) ![0, 0] S128x128.size inb_S128x128_S128x128_0_0)) (View.ld x8 (Rect.unit (s := S128) ![0] S128.size inb_S128_S128_0))) (View.ld x9 (Rect.unit (s := S128x128) ![0, 0] S128x128.size inb_S128x128_S128x128_0_0)) (View.ld x10 (Rect.unit (s := S128) ![0] S128.size inb_S128_S128_0)) (View.ld x11 (Rect.unit (s := S128x1) ![0, 0] S128x1.size inb_S128x1_S128x1_0_0))⟩]

theorem coverMsg (p0 : Vec F S4096x128 .f32) (y : S4096x128.Idx) :
    ∃ pc ∈ ([⟨rMsg, p0⟩] : List (View.Piece (Elt F) S4096x128 .f32)), y ∈ pc.1.set :=
  View.cover_of_tiled [⟨rMsg, p0⟩] S4096x128.size (by rfl) y
theorem coverCoord (p0 : Vec F S4096x3 .f32) (y : S4096x3.Idx) :
    ∃ pc ∈ ([⟨rCoord, p0⟩] : List (View.Piece (Elt F) S4096x3 .f32)), y ∈ pc.1.set :=
  View.cover_of_tiled [⟨rCoord, p0⟩] S4096x3.size (by rfl) y

set_option maxHeartbeats 8000000 in
/-- The body on whole staging buffers: the inputs keep their contents, the two outputs end at `outMsg` and
    `outCoord` of them. -/
theorem sound_kernel (c : Dev nD) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x6 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S3x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x1 .f32) (harg12 : arg12.IsWhole) (arg13 : Memref sig .tc .vmem S4096x128 .f32) (harg13 : arg13.IsWhole) (arg14 : Memref sig .tc .vmem S4096x3 .f32) (harg14 : arg14.IsWhole)
    (x0 : Vec F S4096x128 .bf16) (x1 : Vec F S4096x128 .bf16) (x2 : Vec F S4096x6 .f32) (x3 : Vec F S128x128 .f32) (x4 : Vec F S128x128 .f32) (x5 : Vec F S3x128 .f32) (x6 : Vec F S128 .f32) (x7 : Vec F S128x128 .f32) (x8 : Vec F S128 .f32) (x9 : Vec F S128x128 .f32) (x10 : Vec F S128 .f32) (x11 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outMsg x0 x1 x2 x3 x4 x5 x6 x7 x8)
            ∗ owns (c : Thread nD τ) arg14 fullShare (outCoord x0 x1 x2 x3 x4 x5 x6 x7 x8 x9 x10 x11)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0
  subst hf1
  subst hf2
  subst hf3
  subst hf4
  subst hf5
  subst hf6
  subst hf7
  subst hf8
  subst hf9
  subst hf10
  subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (coverMsg _)
  iexists _; isplitr
  swap; · iexact H13
  ipureintro
  exact View.read_writes_eq_canon _ _ _ (coverCoord _)

/-- The pipeline's proof data on core `c`: arrays as found at entry; after the body each input buffer at its
    block and the two output buffers at `outMsg`, `outCoord` of the input blocks; nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => outMsg (iblk V c 0 t) (iblk V c 1 t) (iblk V c 2 t) (iblk V c 3 t) (iblk V c 4 t) (iblk V c 5 t) (iblk V c 6 t) (iblk V c 7 t) (iblk V c 8 t)
    | ⟨13, _⟩ => outCoord (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = iblk V c 10 t := by dsimp only [dat]
theorem after_11 (c : Dev nD) (t : Fin cfg0.N) : (dat V c).after 11 t = iblk V c 11 t := by dsimp only [dat]
theorem after_12 (c : Dev nD) (t : Fin cfg0.N) : (dat V c).after 12 t = outMsg (iblk V c 0 t) (iblk V c 1 t) (iblk V c 2 t) (iblk V c 3 t) (iblk V c 4 t) (iblk V c 5 t) (iblk V c 6 t) (iblk V c 7 t) (iblk V c 8 t) := by dsimp only [dat]
theorem after_13 (c : Dev nD) (t : Fin cfg0.N) : (dat V c).after 13 t = outCoord (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d
theorem before_8 (c : Dev nD) (t : Fin cfg0.N) (d) : (dat V c).before 8 t d = iblk V c 8 t :=
  before_8_of V (dat V c) (A_eq V c 8) (after_8 V c) t d
theorem before_9 (c : Dev nD) (t : Fin cfg0.N) (d) : (dat V c).before 9 t d = iblk V c 9 t :=
  before_9_of V (dat V c) (A_eq V c 9) (after_9 V c) t d
theorem before_10 (c : Dev nD) (t : Fin cfg0.N) (d) : (dat V c).before 10 t d = iblk V c 10 t :=
  before_10_of V (dat V c) (A_eq V c 10) (after_10 V c) t d
theorem before_11 (c : Dev nD) (t : Fin cfg0.N) (d) : (dat V c).before 11 t d = iblk V c 11 t :=
  before_11_of V (dat V c) (A_eq V c 11) (after_11 V c) t d

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d))
    ∗ (∃ d, owns (c : Thread nD τ) (st0_13 t) fullShare ((dat V c).before 13 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t)
    ∗ owns (c : Thread nD τ) (st0_12 t) fullShare ((dat V c).after 12 t)
    ∗ owns (c : Thread nD τ) (st0_13 t) fullShare ((dat V c).after 13 t))

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9, before_10, before_11]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation at every grid point. -/
theorem body_obligation (c : Dev nD) : BodyObligation (dat (F := F) V c) (defs₀ (F := F)) Variants.none () Set.univ := fun t => by
  rw [bigSep_W0, bigSep_W0]
  exact sound_body V c t

end Cert.Kernel.Edge

end
-- ==== Proof.KernelNode.lean ====
/-
  The node-update region: one grid point takes a block of 5000 node rows, their aggregated messages, and the
  two layers' weights and biases whole, and stores the block's 5000 output rows.  The body reads its six input
  blocks, computes one pure value of them, and overwrites the output block whole; this module states what the
  output buffer holds after the body, runs the body, and packages the result as the pipeline's proof data.
-/
import proofs.«425882_j23055384445177_3_alg».proof.Proof.Gen.Kernel.Launch
import proofs.«425882_j23055384445177_3_alg».proof.Proof.Gen.Kernel.Skeleton
import proofs.«425882_j23055384445177_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Node

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the point fetches it or keeps the
    block of the point before (the weights and biases are fetched once: their block index never moves). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The whole output block, the one rectangle the body stores through. -/
abbrev rOut : Rect S5000x128 := Rect.unit (s := S5000x128) ![0, 0] S5000x128.size inb_S5000x128_S5000x128_0_0

/-- What the output buffer holds after the body: the one store's value, a pure function of the six loads. -/
def out (x0 : Vec F S5000x128 .f32) (x1 : Vec F S5000x128 .f32) (x2 : Vec F S256x128 .f32) (x3 : Vec F S128 .f32) (x4 : Vec F S128x128 .f32) (x5 : Vec F S128 .f32) : Vec F S5000x128 .f32 :=
  View.canon [⟨rOut, k1_pay1 (View.ld x0 (Rect.unit (s := S5000x128) ![0, 0] S5000x128.size inb_S5000x128_S5000x128_0_0)) (View.ld x1 (Rect.unit (s := S5000x128) ![0, 0] S5000x128.size inb_S5000x128_S5000x128_0_0)) (View.ld x2 (Rect.unit (s := S256x128) ![0, 0] S256x128.size inb_S256x128_S256x128_0_0)) (View.ld x3 (Rect.unit (s := S128) ![0] S128.size inb_S128_S128_0)) (View.ld x4 (Rect.unit (s := S128x128) ![0, 0] S128x128.size inb_S128x128_S128x128_0_0)) (View.ld x5 (Rect.unit (s := S128) ![0] S128.size inb_S128_S128_0))⟩]

/-- The one store covers the buffer. -/
theorem cover (p0 : Vec F S5000x128 .f32) (y : S5000x128.Idx) :
    ∃ pc ∈ ([⟨rOut, p0⟩] : List (View.Piece (Elt F) S5000x128 .f32)), y ∈ pc.1.set :=
  View.cover_of_tiled [⟨rOut, p0⟩] S5000x128.size (by rfl) y

set_option maxHeartbeats 4000000 in
/-- The body on whole staging buffers: the inputs keep their contents, the output ends at `out` of them. -/
theorem sound_kernel (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 : Vec F S5000x128 .f32) (x1 : Vec F S5000x128 .f32) (x2 : Vec F S256x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out x0 x1 x2 x3 x4 x5)) -∗ K ⟨⟩))
      ⊢ wp frame (wpE (defs₀ (F := F)) Variants.none c none) E (cc1__node_kernel i arg1 harg1 arg2 harg2 arg3 harg3 arg4 harg4 arg5 harg5 arg6 harg6 arg7 harg7) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover _)

/-- The pipeline's proof data on core `c`: arrays as found at entry; after the body each input buffer at its
    block and the output buffer at `out` of the input blocks; nothing owed, full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = out (iblk V c 0 t) (iblk V c 1 t) (iblk V c 2 t) (iblk V c 3 t) (iblk V c 4 t) (iblk V c 5 t) := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation (c : Dev nD) : BodyObligation (dat (F := F) V c) (defs₀ (F := F)) Variants.none () Set.univ := fun t => by
  rw [bigSep_W1, bigSep_W1]
  exact sound_body V c t

end Cert.Kernel.Node

end
-- ==== Proof.KernelRun.lean ====
/-
  The program is seventeen items: eleven stretches of host operations, Pallas call 0, three stretches, Pallas call 1,
  one last stretch.  Host stretches are pure functions of buffers written before them; a Pallas call changes only its
  two (respectively one) output arrays, to what its write-backs leave.  So the contents of every buffer between two
  items is a fold from the launch memory, once the outputs of the two calls are named: call 0's two arrays and call
  1's array at the pipeline's final contents.  With these names each call is a segment from the fold's valuation
  before it to the one after it, the chain closes, and every execution terminates with the arguments unchanged.
-/
import proofs.«425882_j23055384445177_3_alg».proof.Proof.Gen.Kernel.Launch
import proofs.«425882_j23055384445177_3_alg».proof.Proof.Gen.Kernel.Skeleton
import proofs.«425882_j23055384445177_3_alg».proof.Proof.Gen.Kernel.Points
import proofs.«425882_j23055384445177_3_alg».proof.Proof.Gen.Kernel.Regions
import proofs.«425882_j23055384445177_3_alg».proof.Proof.KernelEdge
import proofs.«425882_j23055384445177_3_alg».proof.Proof.KernelNode
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The outputs of the two calls, named -/

/-- Core `c`'s buffers when call 0 is entered, at the core's own references. -/
abbrev En0 : (c : Dev nD) → (b : Ref sig .tc) → Buf (Elt F) ((c : Thread nD τ).loc b) := fun c b => V11 m c b
/-- The buffers when call 0 is left: its arrays at the pipeline's final contents, the rest as entered. -/
def X0 (c : Dev nD) : Valuation τ sig (Elt F) :=
  Pipeline.withArrays spec0 c (V11 m c) fun w => (Edge.dat (En0 m) c).arrAt w cfg0.N
/-- Call 0's outputs, and nothing yet for call 1. -/
def outs0 : Outs (F := F) := fun _ r c => X0 m c r
/-- The buffers when call 1 is entered. -/
abbrev En1 : (c : Dev nD) → (b : Ref sig .tc) → Buf (Elt F) ((c : Thread nD τ).loc b) := fun c b => V15 m (outs0 m) c b
/-- The buffers when call 1 is left. -/
def X1 (c : Dev nD) : Valuation τ sig (Elt F) :=
  Pipeline.withArrays spec1 c (V15 m (outs0 m) c) fun w => (Node.dat (En1 m) c).arrAt w cfg1.N
/-- What the two calls leave: after item 15 (call 1) its exit contents, before that call 0's. -/
def outs : Outs (F := F) := fun j r c => match j with
  | 16 => X1 m c r
  | _ => X0 m c r

theorem outs_12 (r : Ref sig .tc) (c : Dev nD) : outs m 12 r c = X0 m c r := rfl
theorem outs_16 (r : Ref sig .tc) (c : Dev nD) : outs m 16 r c = X1 m c r := rfl
/-- Call 1 is entered from the same buffers whichever of the two namings is used: only call 0's outputs are read. -/
theorem V15_outs (c : Dev nD) : V15 m (outs m) c = V15 m (outs0 m) c := rfl

/-- The buffers when each call is left, at the core's own references. -/
abbrev Ex0 : (c : Dev nD) → (b : Ref sig .tc) → Buf (Elt F) ((c : Thread nD τ).loc b) := fun c b => V12 m (outs m) c b
abbrev Ex1 : (c : Dev nD) → (b : Ref sig .tc) → Buf (Elt F) ((c : Thread nD τ).loc b) := fun c b => V16 m (outs m) c b

/-- At call 0's exit each of its arrays holds the pipeline's final contents: an input array is unchanged and was
    not renamed, an output array was named so. -/
theorem hF0 (c : Dev nD) (w : Fin cfg0.W) : (Edge.dat (En0 m) c).arrAt w cfg0.N = Ex0 m c (Pipeline.arrRef spec0 w) := by
  have hout : ∀ w : Fin cfg0.W, X0 m c (Proc.devRef .tc (Pipeline.arrRef spec0 w)) = (Edge.dat (En0 m) c).arrAt w cfg0.N :=
    fun w => by unfold X0; exact Pipeline.withArrays_arr spec0 launch0.win.arr_inj c _ _ w
  fin_cases w
  case «12» =>
    show _ = V12 m (outs m) c (Proc.devRef .tc main_v21_0)
    simp only [V12, Function.update_of_ne (StableHlo.devRef_ne_of_ne (by decide : (main_v21_0 : Ref sig .tc) ≠ main_v21_1) : (Proc.devRef .tc main_v21_0 : DevRef τ sig) ≠ Proc.devRef .tc main_v21_1), Function.update_self]
    exact (hout 12).symm
  case «13» =>
    show _ = V12 m (outs m) c (Proc.devRef .tc main_v21_1)
    simp only [V12, Function.update_self]
    exact (hout 13).symm
  all_goals
    refine ((Edge.dat (En0 m) c).arrAt_in _ rfl _).trans ((Edge.A_eq (En0 m) c _).trans ?_)
    exact (V12_of m (outs m) c _ (by decide)).symm
/-- Every buffer that is none of call 0's arrays is as entered. -/
theorem hrest0 (c : Dev nD) : ∀ b, b ∉ Finset.univ.image (Pipeline.arrRef spec0) → Ex0 m c b = En0 m c b := fun b hb =>
  V12_of m (outs m) c b (by
    intro h
    rcases List.mem_cons.mp h with rfl | h
    · exact hb (Finset.mem_image.mpr ⟨12, Finset.mem_univ _, rfl⟩)
    rcases List.mem_cons.mp h with rfl | h
    · exact hb (Finset.mem_image.mpr ⟨13, Finset.mem_univ _, rfl⟩)
    exact absurd h (List.not_mem_nil))

theorem hF1 (c : Dev nD) (w : Fin cfg1.W) : (Node.dat (En1 m) c).arrAt w cfg1.N = Ex1 m c (Pipeline.arrRef spec1 w) := by
  have hout : ∀ w : Fin cfg1.W, X1 m c (Proc.devRef .tc (Pipeline.arrRef spec1 w)) = (Node.dat (En1 m) c).arrAt w cfg1.N :=
    fun w => by unfold X1; exact Pipeline.withArrays_arr spec1 launch1.win.arr_inj c _ _ w
  fin_cases w
  case «6» =>
    show _ = V16 m (outs m) c (Proc.devRef .tc main_v38)
    simp only [V16, Function.update_self]
    exact (hout 6).symm
  all_goals
    refine ((Node.dat (En1 m) c).arrAt_in _ rfl _).trans ((Node.A_eq (En1 m) c _).trans ?_)
    exact (V16_of m (outs m) c _ (by decide)).symm
theorem hrest1 (c : Dev nD) : ∀ b, b ∉ Finset.univ.image (Pipeline.arrRef spec1) → Ex1 m c b = En1 m c b := fun b hb =>
  V16_of m (outs m) c b (by
    intro h
    rcases List.mem_cons.mp h with rfl | h
    · exact hb (Finset.mem_image.mpr ⟨6, Finset.mem_univ _, rfl⟩)
    exact absurd h (List.not_mem_nil))

/-! ## The proof data family and the thread state -/

/-- Each pipeline's proof data at its call's entry contents. -/
def pdats : (p : Fin 2) → (c : Dev nD) → Dat τ (Elt F) Unit ℕ (UR sig nD τ) ℕ (cfgs p) c
  | ⟨0, _⟩ => fun c => Edge.dat (En0 m) c
  | ⟨1, _⟩ => fun c => Node.dat (En1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- Pallas call 0 as a segment of the program: entered with every unscoped buffer at the contents the host
    operations before it leave, left with its arrays at what the pipeline's write-backs leave and every other
    buffer untouched; the generator register and the core's (empty) dues ride along. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (En0 m) c).loose
  hwaits := Pipeline.hwaits_of_owed_zero _ _ _ _ L lv 0 fun _ _ => rfl
  pre c := iprop(StableHlo.held (c : Thread nD τ) (Pipeline.ucRefs τ sig) (V11 m c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (Ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment of the program: entered with every unscoped buffer at the contents the host
    operations before it leave, left with its arrays at what the pipeline's write-backs leave and every other
    buffer untouched; the generator register and the core's (empty) dues ride along. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (En1 m) c).loose
  hwaits := Pipeline.hwaits_of_owed_zero _ _ _ _ L lv 1 fun _ _ => rfl
  pre c := iprop(StableHlo.held (c : Thread nD τ) (Pipeline.ucRefs τ sig) (V15 m (outs0 m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (Ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Call 1's segment is stated from the first naming; the fold reaches it under the second, which reads the same. -/
theorem hpre1 (c : Dev nD) : iprop(StableHlo.held (c : Thread nD τ) (Pipeline.ucRefs τ sig) (V15 m (outs m) c) ∗ R c) ⊢ (reg1 m).pre c := by
  rw [V15_outs m c]; exact .rfl

/-! ## The launch -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : R c ⊢ (iprop(∃ W, owes (c : Thread nD τ) (0 : CellTallies nD τ sig Unit) W) : sProp 𝕄) := by
  iintro ⟨-, HO⟩; iexact HO

/-- THE FRAME: every weakly fair execution from memory `m` with zero counters terminates, nothing faulting, and every
    final memory holds each argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_cond m emb₁ () 𝒱₀ L lv (fun _ _ => rfl) ρ (outs m) (pdats m) (fun _ => 0) (fun _ => iprop(emp))
    (initOf (Pipeline.cells cfgs cellOf_inj) (Pipeline.launchToks cfgs cellOf_inj)) hu₀
    (fun _ c => R c) (hE0 ρ) hE2 (reg0 m) (fun _ => .rfl) (fun _ => .rfl) (reg1 m) (hpre1 m) (fun _ => .rfl)

-- the launch theorem's implicit arguments are found by unifying its conclusion with this one
set_option backward.isDefEq.respectTransparency.types false in
/-- THE RUN WITH ITS VALUES: every weakly fair execution from memory `m` with zero counters terminates, and every
    final memory holds each unscoped buffer at the last valuation `V17` — in particular the two results. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V17 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m))
    (fun c Q => by
      rewrite [main_chain c, Seg.run_eq_chain,
        show (segs m (outs m) 𝒱₀ L lv (fun _ c => R c) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ R c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, hpre1 m c, .rfl, sep_mono .rfl (hE2 c)⟩)
    (hinit := ?_) (QY := fun c s => ∀ b ∈ Pipeline.ucRefs τ sig, s.mem ((c : Thread nD τ).1, b) = V17 m (outs m) c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    simp only [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V17 m (outs m) c) s') $$ [Hh HSI]
    · isplitl [Hh] <;> iassumption
    icases Hr with ⟨%h, HSI⟩
    imodintro
    isplitr
    · ipureintro; exact h
    · iexact HSI

end Cert.Kernel.Run

end
-- ==== Proof.KernelIdealEdge.lean ====
/-
  The edge region: one grid point takes 4096 edge rows — the gathered source and destination features, and the
  six per-edge scalars (squared distance, two edge features, the normalised coordinate difference) — with the
  three slices of the first edge layer's weight and the remaining weights and biases whole.  The body reads its
  twelve input blocks, computes two pure values of them (the 4096×128 message block and the 4096×3 coordinate
  message block), and overwrites the two output blocks whole.  This module states what the two output buffers
  hold after the body, runs the body, and packages the result as the pipeline's proof data.
-/
import proofs.«425882_j23055384445177_3_alg».proof.Proof.Gen.KernelIdeal.Launch
import proofs.«425882_j23055384445177_3_alg».proof.Proof.Gen.KernelIdeal.Skeleton
import proofs.«425882_j23055384445177_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the point fetches it or keeps the
    block of the point before (the weights and biases are fetched once: their block index never moves). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V c (Pipeline.arrRef spec0 10))
    (hafter : ∀ t, dat.after 10 t = iblk V c 10 t) (t : Fin cfg0.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V c (Pipeline.arrRef spec0 11))
    (hafter : ∀ t, dat.after 11 t = iblk V c 11 t) (t : Fin cfg0.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- The whole message block and the whole coordinate-message block: the rectangles of the two stores. -/
abbrev rMsg : Rect S4096x128 := Rect.unit (s := S4096x128) ![0, 0] S4096x128.size inb_S4096x128_S4096x128_0_0
abbrev rCoord : Rect S4096x3 := Rect.unit (s := S4096x3) ![0, 0] S4096x3.size inb_S4096x3_S4096x3_0_0

/-- The message block after the body: two SiLU layers over the split first-layer product, a pure function of
    nine loads. -/
def outMsg (x0 : Vec F S4096x128 .bf16) (x1 : Vec F S4096x128 .bf16) (x2 : Vec F S4096x6 .f32) (x3 : Vec F S128x128 .f32) (x4 : Vec F S128x128 .f32) (x5 : Vec F S3x128 .f32) (x6 : Vec F S128 .f32) (x7 : Vec F S128x128 .f32) (x8 : Vec F S128 .f32) : Vec F S4096x128 .f32 :=
  View.canon [⟨rMsg, k0_pay4 (View.ld x0 (Rect.unit (s := S4096x128) ![0, 0] S4096x128.size inb_S4096x128_S4096x128_0_0)) (View.ld x1 (Rect.unit (s := S4096x128) ![0, 0] S4096x128.size inb_S4096x128_S4096x128_0_0)) (View.ld x2 (Rect.unit (s := S4096x6) ![0, 0] S4096x6.size inb_S4096x6_S4096x6_0_0)) (View.ld x3 (Rect.unit (s := S128x128) ![0, 0] S128x128.size inb_S128x128_S128x128_0_0)) (View.ld x4 (Rect.unit (s := S128x128) ![0, 0] S128x128.size inb_S128x128_S128x128_0_0)) (View.ld x5 (Rect.unit (s := S3x128) ![0, 0] S3x128.size inb_S3x128_S3x128_0_0)) (View.ld x6 (Rect.unit (s := S128) ![0] S128.size inb_S128_S128_0)) (View.ld x7 (Rect.unit (s := S128x128) ![0, 0] S128x128.size inb_S128x128_S128x128_0_0)) (View.ld x8 (Rect.unit (s := S128) ![0] S128.size inb_S128_S128_0))⟩]

/-- The coordinate-message block after the body: the coordinate layer's scalar per edge times the normalised
    difference, a pure function of the twelve loads. -/
def outCoord (x0 : Vec F S4096x128 .bf16) (x1 : Vec F S4096x128 .bf16) (x2 : Vec F S4096x6 .f32) (x3 : Vec F S128x128 .f32) (x4 : Vec F S128x128 .f32) (x5 : Vec F S3x128 .f32) (x6 : Vec F S128 .f32) (x7 : Vec F S128x128 .f32) (x8 : Vec F S128 .f32) (x9 : Vec F S128x128 .f32) (x10 : Vec F S128 .f32) (x11 : Vec F S128x1 .f32) : Vec F S4096x3 .f32 :=
  View.canon [⟨rCoord, k0_pay1 (k0_pay3 (View.ld x2 (Rect.unit (s := S4096x6) ![0, 0] S4096x6.size inb_S4096x6_S4096x6_0_0))) (k0_pay4 (View.ld x0 (Rect.unit (s := S4096x128) ![0, 0] S4096x128.size inb_S4096x128_S4096x128_0_0)) (View.ld x1 (Rect.unit (s := S4096x128) ![0, 0] S4096x128.size inb_S4096x128_S4096x128_0_0)) (View.ld x2 (Rect.unit (s := S4096x6) ![0, 0] S4096x6.size inb_S4096x6_S4096x6_0_0)) (View.ld x3 (Rect.unit (s := S128x128) ![0, 0] S128x128.size inb_S128x128_S128x128_0_0)) (View.ld x4 (Rect.unit (s := S128x128) ![0, 0] S128x128.size inb_S128x128_S128x128_0_0)) (View.ld x5 (Rect.unit (s := S3x128) ![0, 0] S3x128.size inb_S3x128_S3x128_0_0)) (View.ld x6 (Rect.unit (s := S128) ![0] S128.size inb_S128_S128_0)) (View.ld x7 (Rect.unit (s := S128x128) ![0, 0] S128x128.size inb_S128x128_S128x128_0_0)) (View.ld x8 (Rect.unit (s := S128) ![0] S128.size inb_S128_S128_0))) (View.ld x9 (Rect.unit (s := S128x128) ![0, 0] S128x128.size inb_S128x128_S128x128_0_0)) (View.ld x10 (Rect.unit (s := S128) ![0] S128.size inb_S128_S128_0)) (View.ld x11 (Rect.unit (s := S128x1) ![0, 0] S128x1.size inb_S128x1_S128x1_0_0))⟩]

theorem coverMsg (p0 : Vec F S4096x128 .f32) (y : S4096x128.Idx) :
    ∃ pc ∈ ([⟨rMsg, p0⟩] : List (View.Piece (Elt F) S4096x128 .f32)), y ∈ pc.1.set :=
  View.cover_of_tiled [⟨rMsg, p0⟩] S4096x128.size (by rfl) y
theorem coverCoord (p0 : Vec F S4096x3 .f32) (y : S4096x3.Idx) :
    ∃ pc ∈ ([⟨rCoord, p0⟩] : List (View.Piece (Elt F) S4096x3 .f32)), y ∈ pc.1.set :=
  View.cover_of_tiled [⟨rCoord, p0⟩] S4096x3.size (by rfl) y

set_option maxHeartbeats 8000000 in
/-- The body on whole staging buffers: the inputs keep their contents, the two outputs end at `outMsg` and
    `outCoord` of them. -/
theorem sound_kernel (c : Dev nD) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x6 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S3x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x1 .f32) (harg12 : arg12.IsWhole) (arg13 : Memref sig .tc .vmem S4096x128 .f32) (harg13 : arg13.IsWhole) (arg14 : Memref sig .tc .vmem S4096x3 .f32) (harg14 : arg14.IsWhole)
    (x0 : Vec F S4096x128 .bf16) (x1 : Vec F S4096x128 .bf16) (x2 : Vec F S4096x6 .f32) (x3 : Vec F S128x128 .f32) (x4 : Vec F S128x128 .f32) (x5 : Vec F S3x128 .f32) (x6 : Vec F S128 .f32) (x7 : Vec F S128x128 .f32) (x8 : Vec F S128 .f32) (x9 : Vec F S128x128 .f32) (x10 : Vec F S128 .f32) (x11 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outMsg x0 x1 x2 x3 x4 x5 x6 x7 x8)
            ∗ owns (c : Thread nD τ) arg14 fullShare (outCoord x0 x1 x2 x3 x4 x5 x6 x7 x8 x9 x10 x11)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0
  subst hf1
  subst hf2
  subst hf3
  subst hf4
  subst hf5
  subst hf6
  subst hf7
  subst hf8
  subst hf9
  subst hf10
  subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (coverMsg _)
  iexists _; isplitr
  swap; · iexact H13
  ipureintro
  exact View.read_writes_eq_canon _ _ _ (coverCoord _)

/-- The pipeline's proof data on core `c`: arrays as found at entry; after the body each input buffer at its
    block and the two output buffers at `outMsg`, `outCoord` of the input blocks; nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => outMsg (iblk V c 0 t) (iblk V c 1 t) (iblk V c 2 t) (iblk V c 3 t) (iblk V c 4 t) (iblk V c 5 t) (iblk V c 6 t) (iblk V c 7 t) (iblk V c 8 t)
    | ⟨13, _⟩ => outCoord (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = iblk V c 10 t := by dsimp only [dat]
theorem after_11 (c : Dev nD) (t : Fin cfg0.N) : (dat V c).after 11 t = iblk V c 11 t := by dsimp only [dat]
theorem after_12 (c : Dev nD) (t : Fin cfg0.N) : (dat V c).after 12 t = outMsg (iblk V c 0 t) (iblk V c 1 t) (iblk V c 2 t) (iblk V c 3 t) (iblk V c 4 t) (iblk V c 5 t) (iblk V c 6 t) (iblk V c 7 t) (iblk V c 8 t) := by dsimp only [dat]
theorem after_13 (c : Dev nD) (t : Fin cfg0.N) : (dat V c).after 13 t = outCoord (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d
theorem before_8 (c : Dev nD) (t : Fin cfg0.N) (d) : (dat V c).before 8 t d = iblk V c 8 t :=
  before_8_of V (dat V c) (A_eq V c 8) (after_8 V c) t d
theorem before_9 (c : Dev nD) (t : Fin cfg0.N) (d) : (dat V c).before 9 t d = iblk V c 9 t :=
  before_9_of V (dat V c) (A_eq V c 9) (after_9 V c) t d
theorem before_10 (c : Dev nD) (t : Fin cfg0.N) (d) : (dat V c).before 10 t d = iblk V c 10 t :=
  before_10_of V (dat V c) (A_eq V c 10) (after_10 V c) t d
theorem before_11 (c : Dev nD) (t : Fin cfg0.N) (d) : (dat V c).before 11 t d = iblk V c 11 t :=
  before_11_of V (dat V c) (A_eq V c 11) (after_11 V c) t d

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d))
    ∗ (∃ d, owns (c : Thread nD τ) (st0_13 t) fullShare ((dat V c).before 13 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t)
    ∗ owns (c : Thread nD τ) (st0_12 t) fullShare ((dat V c).after 12 t)
    ∗ owns (c : Thread nD τ) (st0_13 t) fullShare ((dat V c).after 13 t))

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9, before_10, before_11]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation at every grid point. -/
theorem body_obligation (c : Dev nD) : BodyObligation (dat (F := F) V c) (defs₀ (F := F)) Variants.none () Set.univ := fun t => by
  rw [bigSep_W0, bigSep_W0]
  exact sound_body V c t

end Cert.KernelIdeal.Edge

end
-- ==== Proof.KernelIdealNode.lean ====
/-
  The node-update region: one grid point takes a block of 5000 node rows, their aggregated messages, and the
  two layers' weights and biases whole, and stores the block's 5000 output rows.  The body reads its six input
  blocks, computes one pure value of them, and overwrites the output block whole; this module states what the
  output buffer holds after the body, runs the body, and packages the result as the pipeline's proof data.
-/
import proofs.«425882_j23055384445177_3_alg».proof.Proof.Gen.KernelIdeal.Launch
import proofs.«425882_j23055384445177_3_alg».proof.Proof.Gen.KernelIdeal.Skeleton
import proofs.«425882_j23055384445177_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the point fetches it or keeps the
    block of the point before (the weights and biases are fetched once: their block index never moves). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The whole output block, the one rectangle the body stores through. -/
abbrev rOut : Rect S5000x128 := Rect.unit (s := S5000x128) ![0, 0] S5000x128.size inb_S5000x128_S5000x128_0_0

/-- What the output buffer holds after the body: the one store's value, a pure function of the six loads. -/
def out (x0 : Vec F S5000x128 .f32) (x1 : Vec F S5000x128 .f32) (x2 : Vec F S256x128 .f32) (x3 : Vec F S128 .f32) (x4 : Vec F S128x128 .f32) (x5 : Vec F S128 .f32) : Vec F S5000x128 .f32 :=
  View.canon [⟨rOut, k1_pay1 (View.ld x0 (Rect.unit (s := S5000x128) ![0, 0] S5000x128.size inb_S5000x128_S5000x128_0_0)) (View.ld x1 (Rect.unit (s := S5000x128) ![0, 0] S5000x128.size inb_S5000x128_S5000x128_0_0)) (View.ld x2 (Rect.unit (s := S256x128) ![0, 0] S256x128.size inb_S256x128_S256x128_0_0)) (View.ld x3 (Rect.unit (s := S128) ![0] S128.size inb_S128_S128_0)) (View.ld x4 (Rect.unit (s := S128x128) ![0, 0] S128x128.size inb_S128x128_S128x128_0_0)) (View.ld x5 (Rect.unit (s := S128) ![0] S128.size inb_S128_S128_0))⟩]

/-- The one store covers the buffer. -/
theorem cover (p0 : Vec F S5000x128 .f32) (y : S5000x128.Idx) :
    ∃ pc ∈ ([⟨rOut, p0⟩] : List (View.Piece (Elt F) S5000x128 .f32)), y ∈ pc.1.set :=
  View.cover_of_tiled [⟨rOut, p0⟩] S5000x128.size (by rfl) y

set_option maxHeartbeats 4000000 in
/-- The body on whole staging buffers: the inputs keep their contents, the output ends at `out` of them. -/
theorem sound_kernel (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 : Vec F S5000x128 .f32) (x1 : Vec F S5000x128 .f32) (x2 : Vec F S256x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out x0 x1 x2 x3 x4 x5)) -∗ K ⟨⟩))
      ⊢ wp frame (wpE (defs₀ (F := F)) Variants.none c none) E (cc1__node_kernel i arg1 harg1 arg2 harg2 arg3 harg3 arg4 harg4 arg5 harg5 arg6 harg6 arg7 harg7) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover _)

/-- The pipeline's proof data on core `c`: arrays as found at entry; after the body each input buffer at its
    block and the output buffer at `out` of the input blocks; nothing owed, full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = out (iblk V c 0 t) (iblk V c 1 t) (iblk V c 2 t) (iblk V c 3 t) (iblk V c 4 t) (iblk V c 5 t) := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation (c : Dev nD) : BodyObligation (dat (F := F) V c) (defs₀ (F := F)) Variants.none () Set.univ := fun t => by
  rw [bigSep_W1, bigSep_W1]
  exact sound_body V c t

end Cert.KernelIdeal.Node

end
-- ==== Proof.KernelIdealRun.lean ====
/-
  The program is seventeen items: eleven stretches of host operations, Pallas call 0, three stretches, Pallas call 1,
  one last stretch.  Host stretches are pure functions of buffers written before them; a Pallas call changes only its
  two (respectively one) output arrays, to what its write-backs leave.  So the contents of every buffer between two
  items is a fold from the launch memory, once the outputs of the two calls are named: call 0's two arrays and call
  1's array at the pipeline's final contents.  With these names each call is a segment from the fold's valuation
  before it to the one after it, the chain closes, and every execution terminates with the arguments unchanged.
-/
import proofs.«425882_j23055384445177_3_alg».proof.Proof.Gen.KernelIdeal.Launch
import proofs.«425882_j23055384445177_3_alg».proof.Proof.Gen.KernelIdeal.Skeleton
import proofs.«425882_j23055384445177_3_alg».proof.Proof.Gen.KernelIdeal.Points
import proofs.«425882_j23055384445177_3_alg».proof.Proof.Gen.KernelIdeal.Regions
import proofs.«425882_j23055384445177_3_alg».proof.Proof.KernelIdealEdge
import proofs.«425882_j23055384445177_3_alg».proof.Proof.KernelIdealNode
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The outputs of the two calls, named -/

/-- Core `c`'s buffers when call 0 is entered, at the core's own references. -/
abbrev En0 : (c : Dev nD) → (b : Ref sig .tc) → Buf (Elt F) ((c : Thread nD τ).loc b) := fun c b => V11 m c b
/-- The buffers when call 0 is left: its arrays at the pipeline's final contents, the rest as entered. -/
def X0 (c : Dev nD) : Valuation τ sig (Elt F) :=
  Pipeline.withArrays spec0 c (V11 m c) fun w => (Edge.dat (En0 m) c).arrAt w cfg0.N
/-- Call 0's outputs, and nothing yet for call 1. -/
def outs0 : Outs (F := F) := fun _ r c => X0 m c r
/-- The buffers when call 1 is entered. -/
abbrev En1 : (c : Dev nD) → (b : Ref sig .tc) → Buf (Elt F) ((c : Thread nD τ).loc b) := fun c b => V15 m (outs0 m) c b
/-- The buffers when call 1 is left. -/
def X1 (c : Dev nD) : Valuation τ sig (Elt F) :=
  Pipeline.withArrays spec1 c (V15 m (outs0 m) c) fun w => (Node.dat (En1 m) c).arrAt w cfg1.N
/-- What the two calls leave: after item 15 (call 1) its exit contents, before that call 0's. -/
def outs : Outs (F := F) := fun j r c => match j with
  | 16 => X1 m c r
  | _ => X0 m c r

theorem outs_12 (r : Ref sig .tc) (c : Dev nD) : outs m 12 r c = X0 m c r := rfl
theorem outs_16 (r : Ref sig .tc) (c : Dev nD) : outs m 16 r c = X1 m c r := rfl
/-- Call 1 is entered from the same buffers whichever of the two namings is used: only call 0's outputs are read. -/
theorem V15_outs (c : Dev nD) : V15 m (outs m) c = V15 m (outs0 m) c := rfl

/-- The buffers when each call is left, at the core's own references. -/
abbrev Ex0 : (c : Dev nD) → (b : Ref sig .tc) → Buf (Elt F) ((c : Thread nD τ).loc b) := fun c b => V12 m (outs m) c b
abbrev Ex1 : (c : Dev nD) → (b : Ref sig .tc) → Buf (Elt F) ((c : Thread nD τ).loc b) := fun c b => V16 m (outs m) c b

/-- At call 0's exit each of its arrays holds the pipeline's final contents: an input array is unchanged and was
    not renamed, an output array was named so. -/
theorem hF0 (c : Dev nD) (w : Fin cfg0.W) : (Edge.dat (En0 m) c).arrAt w cfg0.N = Ex0 m c (Pipeline.arrRef spec0 w) := by
  have hout : ∀ w : Fin cfg0.W, X0 m c (Proc.devRef .tc (Pipeline.arrRef spec0 w)) = (Edge.dat (En0 m) c).arrAt w cfg0.N :=
    fun w => by unfold X0; exact Pipeline.withArrays_arr spec0 launch0.win.arr_inj c _ _ w
  fin_cases w
  case «12» =>
    show _ = V12 m (outs m) c (Proc.devRef .tc main_v21_0)
    simp only [V12, Function.update_of_ne (StableHlo.devRef_ne_of_ne (by decide : (main_v21_0 : Ref sig .tc) ≠ main_v21_1) : (Proc.devRef .tc main_v21_0 : DevRef τ sig) ≠ Proc.devRef .tc main_v21_1), Function.update_self]
    exact (hout 12).symm
  case «13» =>
    show _ = V12 m (outs m) c (Proc.devRef .tc main_v21_1)
    simp only [V12, Function.update_self]
    exact (hout 13).symm
  all_goals
    refine ((Edge.dat (En0 m) c).arrAt_in _ rfl _).trans ((Edge.A_eq (En0 m) c _).trans ?_)
    exact (V12_of m (outs m) c _ (by decide)).symm
/-- Every buffer that is none of call 0's arrays is as entered. -/
theorem hrest0 (c : Dev nD) : ∀ b, b ∉ Finset.univ.image (Pipeline.arrRef spec0) → Ex0 m c b = En0 m c b := fun b hb =>
  V12_of m (outs m) c b (by
    intro h
    rcases List.mem_cons.mp h with rfl | h
    · exact hb (Finset.mem_image.mpr ⟨12, Finset.mem_univ _, rfl⟩)
    rcases List.mem_cons.mp h with rfl | h
    · exact hb (Finset.mem_image.mpr ⟨13, Finset.mem_univ _, rfl⟩)
    exact absurd h (List.not_mem_nil))

theorem hF1 (c : Dev nD) (w : Fin cfg1.W) : (Node.dat (En1 m) c).arrAt w cfg1.N = Ex1 m c (Pipeline.arrRef spec1 w) := by
  have hout : ∀ w : Fin cfg1.W, X1 m c (Proc.devRef .tc (Pipeline.arrRef spec1 w)) = (Node.dat (En1 m) c).arrAt w cfg1.N :=
    fun w => by unfold X1; exact Pipeline.withArrays_arr spec1 launch1.win.arr_inj c _ _ w
  fin_cases w
  case «6» =>
    show _ = V16 m (outs m) c (Proc.devRef .tc main_v38)
    simp only [V16, Function.update_self]
    exact (hout 6).symm
  all_goals
    refine ((Node.dat (En1 m) c).arrAt_in _ rfl _).trans ((Node.A_eq (En1 m) c _).trans ?_)
    exact (V16_of m (outs m) c _ (by decide)).symm
theorem hrest1 (c : Dev nD) : ∀ b, b ∉ Finset.univ.image (Pipeline.arrRef spec1) → Ex1 m c b = En1 m c b := fun b hb =>
  V16_of m (outs m) c b (by
    intro h
    rcases List.mem_cons.mp h with rfl | h
    · exact hb (Finset.mem_image.mpr ⟨6, Finset.mem_univ _, rfl⟩)
    exact absurd h (List.not_mem_nil))

/-! ## The proof data family and the thread state -/

/-- Each pipeline's proof data at its call's entry contents. -/
def pdats : (p : Fin 2) → (c : Dev nD) → Dat τ (Elt F) Unit ℕ (UR sig nD τ) ℕ (cfgs p) c
  | ⟨0, _⟩ => fun c => Edge.dat (En0 m) c
  | ⟨1, _⟩ => fun c => Node.dat (En1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- Pallas call 0 as a segment of the program: entered with every unscoped buffer at the contents the host
    operations before it leave, left with its arrays at what the pipeline's write-backs leave and every other
    buffer untouched; the generator register and the core's (empty) dues ride along. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (En0 m) c).loose
  hwaits := Pipeline.hwaits_of_owed_zero _ _ _ _ L lv 0 fun _ _ => rfl
  pre c := iprop(StableHlo.held (c : Thread nD τ) (Pipeline.ucRefs τ sig) (V11 m c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (Ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment of the program: entered with every unscoped buffer at the contents the host
    operations before it leave, left with its arrays at what the pipeline's write-backs leave and every other
    buffer untouched; the generator register and the core's (empty) dues ride along. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (En1 m) c).loose
  hwaits := Pipeline.hwaits_of_owed_zero _ _ _ _ L lv 1 fun _ _ => rfl
  pre c := iprop(StableHlo.held (c : Thread nD τ) (Pipeline.ucRefs τ sig) (V15 m (outs0 m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (Ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Call 1's segment is stated from the first naming; the fold reaches it under the second, which reads the same. -/
theorem hpre1 (c : Dev nD) : iprop(StableHlo.held (c : Thread nD τ) (Pipeline.ucRefs τ sig) (V15 m (outs m) c) ∗ R c) ⊢ (reg1 m).pre c := by
  rw [V15_outs m c]; exact .rfl

/-! ## The launch -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : R c ⊢ (iprop(∃ W, owes (c : Thread nD τ) (0 : CellTallies nD τ sig Unit) W) : sProp 𝕄) := by
  iintro ⟨-, HO⟩; iexact HO

/-- THE FRAME: every weakly fair execution from memory `m` with zero counters terminates, nothing faulting, and every
    final memory holds each argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_cond m emb₁ () 𝒱₀ L lv (fun _ _ => rfl) ρ (outs m) (pdats m) (fun _ => 0) (fun _ => iprop(emp))
    (initOf (Pipeline.cells cfgs cellOf_inj) (Pipeline.launchToks cfgs cellOf_inj)) hu₀
    (fun _ c => R c) (hE0 ρ) hE2 (reg0 m) (fun _ => .rfl) (fun _ => .rfl) (reg1 m) (hpre1 m) (fun _ => .rfl)

-- the launch theorem's implicit arguments are found by unifying its conclusion with this one
set_option backward.isDefEq.respectTransparency.types false in
/-- THE RUN WITH ITS VALUES: every weakly fair execution from memory `m` with zero counters terminates, and every
    final memory holds each unscoped buffer at the last valuation `V17` — in particular the two results. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V17 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m))
    (fun c Q => by
      rewrite [main_chain c, Seg.run_eq_chain,
        show (segs m (outs m) 𝒱₀ L lv (fun _ c => R c) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ R c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, hpre1 m c, .rfl, sep_mono .rfl (hE2 c)⟩)
    (hinit := ?_) (QY := fun c s => ∀ b ∈ Pipeline.ucRefs τ sig, s.mem ((c : Thread nD τ).1, b) = V17 m (outs m) c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    simp only [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V17 m (outs m) c) s') $$ [Hh HSI]
    · isplitl [Hh] <;> iassumption
    icases Hr with ⟨%h, HSI⟩
    imodintro
    isplitr
    · ipureintro; exact h
    · iexact HSI

end Cert.KernelIdeal.Run

end
-- ==== Proof.Spec.lean ====
/-
  What the layer computes, as plain functions on the extended reals.

  A graph has 50000 nodes with 128 features and 3 coordinates each, and 800000 directed edges with 2 features each.
  A 32-bit word addresses a table of 50000 rows by being read as a signed integer and clamped into the table.
  For an edge with source row `s` and destination row `d`:
    * the coordinate difference `diff`, its squared length `radial`, and the difference divided by
      (its length + 1e-30), `unit`;
    * the message `msgH`: two SiLU layers over the 259 inputs (source features, destination features, the squared
      length, the two edge features), the 259-wide product written as the sum of its three groups;
    * the scalar `coef`: a SiLU layer and a 128-to-1 product over the message; the coordinate message is `coef · unit`.
  A node sums the messages of the edges whose destination word equals its number (`lands`), averages the coordinate
  messages over max(count, 1), and passes its features joined with the summed messages through a SiLU layer and a
  linear layer.
-/
import Idealize.ShloMosaic.PureOps.Ideal
import Idealize.ShloMosaic.Lib.ValueIdx

noncomputable section

namespace Cert.Egnn

open Idealize.ShloMosaic Idealize.ShloMosaic.ValueIdx
open scoped BigOperators

/-- A rank-2 table, a rank-1 column of extended reals, a rank-1 column of 32-bit words. -/
abbrev Tab (r c : ℕ) : Type := (⟨2, ![r, c]⟩ : Shape).Idx → EReal
abbrev Col (n : ℕ) : Type := (⟨1, ![n]⟩ : Shape).Idx → EReal
abbrev Ids (n : ℕ) : Type := (⟨1, ![n]⟩ : Shape).Idx → BitVec 32

/-- The row of a 50000-row table a word addresses: read signed, clamped into the table. -/
def row (i : BitVec 32) : Fin 50000 := ⟨min i.toInt.toNat 49999, by omega⟩

/-- x · σ(x). -/
def silu (x : EReal) : EReal := x * Ideal.logistic x

/-- The f32 word of 1e-30. -/
def eps : EReal := Ideal.ofBits .f32 0x0DA24260#32
/-- The f32 word of 1. -/
def one : EReal := Ideal.ofBits .f32 0x3F800000#32

/-- Rows `off … off + n − 1` of a table. -/
def rowsFrom {R : ℕ} (off n c : ℕ) (h : off + n ≤ R) (W : Tab R c) : Tab n c :=
  fun i => W (ix2 ⟨off + (i 0).val, by have := idx2_lt0 i; omega⟩ ⟨(i 1).val, idx2_lt1 i⟩)

/-! ## One edge, from its two rows -/

def diff (C : Tab 50000 3) (s d : Fin 50000) (a : Fin 3) : EReal := C (ix2 s a) - C (ix2 d a)
def radial (C : Tab 50000 3) (s d : Fin 50000) : EReal := ∑ a : Fin 3, diff C s d a * diff C s d a
def unit (C : Tab 50000 3) (s d : Fin 50000) (a : Fin 3) : EReal :=
  Ideal.div (diff C s d a) (Ideal.sqrt (radial C s d) + eps)

/-- One dense layer on a row: j ↦ (Σ_k v k · W k j) + b j. -/
def dense {K N : ℕ} (v : Fin K → EReal) (W : Tab K N) (b : Col N) (j : Fin N) : EReal :=
  (∑ k : Fin K, v k * W (ix2 k j)) + b (ix1 j)

/-- The first edge layer before its activation, the 259 inputs in their three groups. -/
def pre1 (hs hd : Fin 128 → EReal) (sc : Fin 3 → EReal) (Wa Wb : Tab 128 128) (Wc : Tab 3 128) (b1 : Col 128)
    (j : Fin 128) : EReal :=
  (∑ k : Fin 128, hs k * Wa (ix2 k j)) + (∑ k : Fin 128, hd k * Wb (ix2 k j)) + (∑ k : Fin 3, sc k * Wc (ix2 k j))
    + b1 (ix1 j)

/-- The edge's message: SiLU of the second layer over SiLU of the first. -/
def msgH (hs hd : Fin 128 → EReal) (sc : Fin 3 → EReal) (Wa Wb : Tab 128 128) (Wc : Tab 3 128) (b1 : Col 128)
    (W2 : Tab 128 128) (b2 : Col 128) (j : Fin 128) : EReal :=
  silu (dense (fun k => silu (pre1 hs hd sc Wa Wb Wc b1 k)) W2 b2 j)

/-- The coordinate layer's scalar for a message row. -/
def coef (mh : Fin 128 → EReal) (cW1 : Tab 128 128) (cb1 : Col 128) (cW2 : Tab 128 1) : EReal :=
  ∑ k : Fin 128, silu (dense mh cW1 cb1 k) * cW2 (ix2 k (0 : Fin 1))

/-- Two 128-rows side by side. -/
def cat (x y : Fin 128 → EReal) (k : Fin 256) : EReal :=
  if h : k.val < 128 then x ⟨k.val, h⟩ else y ⟨k.val - 128, by omega⟩

/-- The node update on a row of features and a row of summed messages. -/
def nodeOut (x hn : Fin 128 → EReal) (nW1 : Tab 256 128) (nb1 : Col 128) (nW2 : Tab 128 128) (nb2 : Col 128)
    (j : Fin 128) : EReal :=
  dense (fun k => silu (dense (cat x hn) nW1 nb1 k)) nW2 nb2 j

/-! ## The whole layer -/

section Layer

variable (X : Tab 50000 128) (C : Tab 50000 3) (EF : Tab 800000 2) (src dst : Ids 800000)
  (W1 : Tab 259 128) (b1 : Col 128) (W2 : Tab 128 128) (b2 : Col 128)
  (nW1 : Tab 256 128) (nb1 : Col 128) (nW2 : Tab 128 128) (nb2 : Col 128)
  (cW1 : Tab 128 128) (cb1 : Col 128) (cW2 : Tab 128 1)

/-- The six per-edge scalars in the order the edge rows carry them: squared length, the two edge features, the three
    entries of the normalised difference. -/
def meta6 (e : Fin 800000) : Fin 6 → EReal :=
  ![radial C (row (src (ix1 e))) (row (dst (ix1 e))), EF (ix2 e (0 : Fin 2)), EF (ix2 e (1 : Fin 2)),
    unit C (row (src (ix1 e))) (row (dst (ix1 e))) 0, unit C (row (src (ix1 e))) (row (dst (ix1 e))) 1,
    unit C (row (src (ix1 e))) (row (dst (ix1 e))) 2]

/-- The first three of them enter the first layer. -/
def scal (e : Fin 800000) : Fin 3 → EReal := fun k => meta6 C EF src dst e ⟨k.val, by have := k.isLt; omega⟩

/-- Edge `e`'s message. -/
def edgeH (e : Fin 800000) (j : Fin 128) : EReal :=
  msgH (fun k => X (ix2 (row (src (ix1 e))) k)) (fun k => X (ix2 (row (dst (ix1 e))) k)) (scal C EF src dst e)
    (rowsFrom 0 128 128 (by decide) W1) (rowsFrom 128 128 128 (by decide) W1) (rowsFrom 256 3 128 (by decide) W1) b1 W2 b2 j

/-- Edge `e`'s coordinate message. -/
def edgeX (e : Fin 800000) (a : Fin 3) : EReal :=
  coef (edgeH X C EF src dst W1 b1 W2 b2 e) cW1 cb1 cW2 * meta6 C EF src dst e ⟨3 + a.val, by have := a.isLt; omega⟩

/-- The edges whose destination word is node `n`'s number. -/
def lands (n : Fin 50000) : Finset (Fin 800000) :=
  Finset.univ.filter fun e => (dst (ix1 e)).toInt = (n.val : ℤ)

def aggH (n : Fin 50000) (j : Fin 128) : EReal := ∑ e ∈ lands dst n, edgeH X C EF src dst W1 b1 W2 b2 e j
def aggX (n : Fin 50000) (a : Fin 3) : EReal := ∑ e ∈ lands dst n, edgeX X C EF src dst W1 b1 W2 b2 cW1 cb1 cW2 e a
def deg (n : Fin 50000) : EReal := ∑ _e ∈ lands dst n, one

/-- The first result: the updated node features. -/
def outH : Tab 50000 128 := fun i =>
  nodeOut (fun k => X (ix2 ⟨(i 0).val, idx2_lt0 i⟩ k)) (fun k => aggH X C EF src dst W1 b1 W2 b2 ⟨(i 0).val, idx2_lt0 i⟩ k)
    nW1 nb1 nW2 nb2 ⟨(i 1).val, idx2_lt1 i⟩

/-- The second result: the updated coordinates. -/
def outX : Tab 50000 3 := fun i =>
  C i + Ideal.div (aggX X C EF src dst W1 b1 W2 b2 cW1 cb1 cW2 ⟨(i 0).val, idx2_lt0 i⟩ ⟨(i 1).val, idx2_lt1 i⟩)
    (max (deg dst ⟨(i 0).val, idx2_lt0 i⟩) one)

end Layer

end Cert.Egnn

end
-- ==== Proof.LibPlainDot.lean ====
/-
  GENERAL LEMMAS: the product of an [M, K] table by a [K, N] table, contracting the left operand's last axis with the
  right operand's first (dimension numbers [1] x [0], no batch axes), read at an index over the extended reals: element
  (p, q) is the sum over k : Fin K of l[p, k] · r[k, q]. Stated for the matrix unit's product into a zero accumulator and
  for the host's dot_general.
-/
import Idealize.ShloMosaic.PureOps.Ideal.Laws
import Idealize.ShloMosaic.Lib.ValueIdx

noncomputable section

namespace Cert.PlainDot

open Idealize.ShloMosaic Idealize.ShloMosaic.ValueIdx

/-- The contraction sum of a plain dot at (p, q), re-indexed by k : Fin K. -/
theorem contr_sum {M K N : ℕ} (l : (⟨2, ![M, K]⟩ : Shape).Idx → EReal) (r : (⟨2, ![K, N]⟩ : Shape).Idx → EReal)
    (p : Fin M) (q : Fin N) :
    (∑ k : (DotDims.plain M K N).contr.Idx,
        l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have l0 : ∀ κ : (DotDims.plain M K N).contr.Idx, ((DotDims.plain M K N).lhsIdx (ix2 p q) κ 0).val = p.val :=
    fun κ => rfl
  have l1 : ∀ κ : (DotDims.plain M K N).contr.Idx,
      ((DotDims.plain M K N).lhsIdx (ix2 p q) κ 1).val = (κ ⟨0, Nat.one_pos⟩).val :=
    fun κ => (DotDims.plain M K N).lhsIdx_val_of_single rfl (ix2 p q) κ
  have r0 : ∀ κ : (DotDims.plain M K N).contr.Idx,
      ((DotDims.plain M K N).rhsIdx (ix2 p q) κ 0).val = (κ ⟨0, Nat.one_pos⟩).val :=
    fun κ => (DotDims.plain M K N).rhsIdx_val_of_single rfl (ix2 p q) κ
  have r1 : ∀ κ : (DotDims.plain M K N).contr.Idx, ((DotDims.plain M K N).rhsIdx (ix2 p q) κ 1).val = q.val :=
    fun κ => rfl
  have el : (DotDims.plain M K N).lhsIdx (ix2 p q) ((contrEquiv1 (DotDims.plain M K N) K rfl rfl).symm k) = ix2 p k :=
    funext fun a => Fin.ext (by
      match a with
      | ⟨0, _⟩ => exact l0 _
      | ⟨1, _⟩ => exact (l1 _).trans hk)
  have er : (DotDims.plain M K N).rhsIdx (ix2 p q) ((contrEquiv1 (DotDims.plain M K N) K rfl rfl).symm k) = ix2 k q :=
    funext fun a => Fin.ext (by
      match a with
      | ⟨0, _⟩ => exact (r0 _).trans hk
      | ⟨1, _⟩ => exact r1 _)
  rw [el, er]

/-- The matrix unit's product into the zero accumulator, at (p, q). -/
theorem matmul_zero_apply {M K N : ℕ} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact contr_sum l r p q

/-- The host's dot_general, at (p, q). -/
theorem dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact contr_sum l r p q

end Cert.PlainDot

end
-- ==== Proof.LibColumn.lean ====
/-
  GENERAL LEMMAS: a column of row values read at an index.

  A reduction along the rows of an [a, b] array that keeps the reduced axis leaves an [a] vector cast to the column [a, 1],
  which is then broadcast back along the rows to [a, b]. Both steps only rename the index: the column at (i, 0) is the
  vector at i, and the broadcast at (p, c) is the column at (p, 0).
-/
import Idealize.ShloMosaic.Lib.ValueLayout

namespace Cert.Column

open Idealize.ShloMosaic Idealize.ShloMosaic.ValueIdx

/-- An [a] vector cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.LibRow.lean ====
/-
  GENERAL LEMMA: a vector kept as a row read at an index.

  An [a] vector cast to the row [1, a] (a bias reshaped for a row-wise broadcast) only renames the index: the row at
  (0, j) is the vector at j, since both sit at position j in row-major order.
-/
import Idealize.ShloMosaic.Lib.ValueLayout

namespace Cert.LibRow

open Idealize.ShloMosaic Idealize.ShloMosaic.ValueIdx

/-- An [a] vector cast to the row [1, a] reads, at (u, j), the operand at j. -/
theorem shapeCast_a_1a_apply {α : Type} {a : ℕ} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h _ _ (by
    have hu : u.val = 0 := by omega
    rw [Shape.rowMajor_val_two, Shape.rowMajor_val_one]
    show j.val = u.val * a + j.val
    rw [hu, Nat.zero_mul, Nat.zero_add])

end Cert.LibRow
-- ==== Proof.EdgeBlock.lean ====
/-
  One block of each region over the extended reals, read at a (row, column).

  The edge region's body takes 4096 edge rows: the source and destination feature rows, six scalars per edge, the
  three slices of the first layer's weight, and the other weights and biases. Its message block is, row by row, the
  two SiLU layers of the specification (`msgH`) on that row's inputs, the 259-wide first product being the sum of the
  three products of its groups; its coordinate block is the coordinate layer's scalar of the message row (`coef`) times
  the last three of the row's six scalars. The node region's body takes 5000 node rows and their summed messages and
  returns, row by row, the specification's node update (`nodeOut`) of the two rows joined side by side.

  Every float operation is exact here and a change of float format is the identity, so each product into the zero
  accumulator is a plain finite sum, x · σ(x) is SiLU, a bias kept as a one-row array and broadcast down the rows is
  the bias at the column, and a column slice only shifts the column.
-/
import proofs.«425882_j23055384445177_3_alg».proof.Proof.KernelIdealEdge
import proofs.«425882_j23055384445177_3_alg».proof.Proof.KernelIdealNode
import proofs.«425882_j23055384445177_3_alg».proof.Proof.Spec
import proofs.«425882_j23055384445177_3_alg».proof.Proof.LibPlainDot
import proofs.«425882_j23055384445177_3_alg».proof.Proof.LibColumn
import proofs.«425882_j23055384445177_3_alg».proof.Proof.LibRow
import Idealize.ShloMosaic.Lib.Pipeline.Value
import Idealize.ShloMosaic.Lib.ValueLayout
import Idealize.ShloMosaic.Lib.ValueIdx
import Idealize.ShloMosaic.PureOps.Ideal

noncomputable section

namespace Cert.KernelIdeal.EdgeBlock

open Cert.KernelIdeal Cert.KernelIdeal.Gen Cert.Egnn Idealize.ShloMosaic Idealize.ShloMosaic.ValueIdx
open scoped BigOperators

/-! ## Whole-block loads and stores

A rectangle with zero offsets and the full extents is the whole block, whichever way its zeros are spelt. -/

theorem zeroOff2 : (![0, 0] : Fin 2 → Nat) = fun _ => 0 := funext fun a => by fin_cases a <;> rfl
theorem zeroOff1 : (![0] : Fin 1 → Nat) = fun _ => 0 := funext fun a => by fin_cases a <;> rfl

/-! ## The pieces of an edge row -/

/-- x · σ(x) lane by lane is the specification's SiLU of the lane. -/
theorem silu_apply {s : Shape} {φ : FTy} (v : FVec Ideal s φ) (i : s.Idx) : mulf v (logistic v) i = silu (v i) := rfl

theorem prod128_apply {φ₁ φ₂ : FTy} (l : FVec Ideal S4096x128 φ₁) (W : FVec Ideal S128x128 φ₂) (r : Fin 4096) (j : Fin 128) :
    matmul dot_S4096x128_S128x128_S4096x128_1_0_0_1_n_n none l W (constant S4096x128 .f32 0x00000000#32) (ix2 r j)
      = ∑ k : Fin 128, l (ix2 r k) * W (ix2 k j) :=
  Cert.PlainDot.matmul_zero_apply none l W r j

theorem prod3_apply {φ₁ φ₂ : FTy} (l : FVec Ideal S4096x3 φ₁) (W : FVec Ideal S3x128 φ₂) (r : Fin 4096) (j : Fin 128) :
    matmul dot_S4096x3_S3x128_S4096x128_1_0_0_1_n_n none l W (constant S4096x128 .f32 0x00000000#32) (ix2 r j)
      = ∑ k : Fin 3, l (ix2 r k) * W (ix2 k j) :=
  Cert.PlainDot.matmul_zero_apply none l W r j

theorem prodCol_apply {φ₁ φ₂ : FTy} (l : FVec Ideal S4096x128 φ₁) (W : FVec Ideal S128x1 φ₂) (r : Fin 4096) (u : Fin 1) :
    matmul dot_S4096x128_S128x1_S4096x1_1_0_0_1_n_n none l W (constant S4096x1 .f32 0x00000000#32) (ix2 r u)
      = ∑ k : Fin 128, l (ix2 r k) * W (ix2 k u) :=
  Cert.PlainDot.matmul_zero_apply none l W r u

theorem biasRow_apply (b : Vec Ideal S128 .f32) (r : Fin 4096) (j : Fin 128) :
    broadcastTo S4096x128 (shapeCast S1x128 b shapeCasts_S128_S1x128) broadcasts_S1x128_S4096x128 (ix2 r j) = b (ix1 j) :=
  (broadcastTo_1b_ab_apply _ _ r j).trans (Cert.LibRow.shapeCast_a_1a_apply b _ 0 j)

/-- A dense layer on a block row. -/
theorem dense_apply {φ₁ : FTy} (l : FVec Ideal S4096x128 φ₁) (W : Vec Ideal S128x128 .f32) (b : Vec Ideal S128 .f32)
    (r : Fin 4096) (j : Fin 128) :
    addf (matmul dot_S4096x128_S128x128_S4096x128_1_0_0_1_n_n none l (truncf .bf16 W bitsLt_bf16_f32)
        (constant S4096x128 .f32 0x00000000#32))
      (broadcastTo S4096x128 (shapeCast S1x128 b shapeCasts_S128_S1x128) broadcasts_S1x128_S4096x128) (ix2 r j)
      = dense (fun k => l (ix2 r k)) W b j := by
  rw [addf_apply, prod128_apply, biasRow_apply]
  rfl

/-- The first three of the six per-edge scalars. -/
theorem headSlice_apply (x2 : Vec Ideal S4096x6 .f32) (r : Fin 4096) (k : Fin 3) :
    extractStridedSlice S4096x3 ![0, 0] x2 slices_S4096x6_o0_0_S4096x3 (ix2 r k)
      = x2 (ix2 r (⟨k.val, by have := k.isLt; omega⟩ : Fin 6)) :=
  slice2_axis1_apply 0 x2 _ r k _ (Nat.zero_add _).symm

/-- The last three. -/
theorem tailSlice_apply (x2 : Vec Ideal S4096x6 .f32) (r : Fin 4096) (a : Fin 3) :
    extractStridedSlice S4096x3 ![0, 3] x2 slices_S4096x6_o0_3_S4096x3 (ix2 r a)
      = x2 (ix2 r (⟨3 + a.val, by have := a.isLt; omega⟩ : Fin 6)) :=
  slice2_axis1_apply 3 x2 _ r a _ rfl

/-- The first edge layer before its activation: the 259-wide product as its three groups, plus the bias. -/
theorem pre1_apply (x0 x1 : FVec Ideal S4096x128 .bf16) (x2 : FVec Ideal S4096x6 .f32) (x3 x4 : FVec Ideal S128x128 .f32)
    (x5 : FVec Ideal S3x128 .f32) (x6 : Vec Ideal S128 .f32) (r : Fin 4096) (j : Fin 128) :
    (addf (addf (addf
        (matmul (F := Ideal) dot_S4096x128_S128x128_S4096x128_1_0_0_1_n_n none x0 (truncf .bf16 x3 bitsLt_bf16_f32)
          (constant S4096x128 .f32 0x00000000#32))
        (matmul (F := Ideal) dot_S4096x128_S128x128_S4096x128_1_0_0_1_n_n none x1 (truncf .bf16 x4 bitsLt_bf16_f32)
          (constant S4096x128 .f32 0x00000000#32)))
        (matmul (F := Ideal) dot_S4096x3_S3x128_S4096x128_1_0_0_1_n_n none
          (truncf .bf16 (extractStridedSlice S4096x3 ![0, 0] x2 slices_S4096x6_o0_0_S4096x3) bitsLt_bf16_f32)
          (truncf .bf16 x5 bitsLt_bf16_f32) (constant S4096x128 .f32 0x00000000#32)))
        (broadcastTo S4096x128 (shapeCast S1x128 x6 shapeCasts_S128_S1x128) broadcasts_S1x128_S4096x128)
          : FVec Ideal S4096x128 .f32) (ix2 r j)
      = pre1 (fun k => x0 (ix2 r k)) (fun k => x1 (ix2 r k))
          (fun k : Fin 3 => x2 (ix2 r (⟨k.val, by have := k.isLt; omega⟩ : Fin 6))) x3 x4 x5 x6 j := by
  rw [addf_apply, addf_apply, addf_apply, prod128_apply, prod128_apply, prod3_apply, biasRow_apply]
  unfold pre1
  refine congrArg (fun z => _ + _ + z + _) (Finset.sum_congr rfl fun k _ => ?_)
  rw [truncf_apply, headSlice_apply]
  rfl

/-- The message payload at (r, j). -/
theorem msgPayload_apply (x0 x1 : Vec Ideal S4096x128 .bf16) (x2 : Vec Ideal S4096x6 .f32) (x3 x4 : Vec Ideal S128x128 .f32)
    (x5 : Vec Ideal S3x128 .f32) (x6 : Vec Ideal S128 .f32) (x7 : Vec Ideal S128x128 .f32) (x8 : Vec Ideal S128 .f32)
    (r : Fin 4096) (j : Fin 128) :
    k0_pay4 (F := Ideal) x0 x1 x2 x3 x4 x5 x6 x7 x8 (ix2 r j)
      = msgH (fun k => x0 (ix2 r k)) (fun k => x1 (ix2 r k))
          (fun k : Fin 3 => x2 (ix2 r (⟨k.val, by have := k.isLt; omega⟩ : Fin 6))) x3 x4 x5 x6 x7 x8 j := by
  unfold k0_pay4 k0_pay2
  simp only [shapeCast_self]
  refine (silu_apply _ _).trans (congrArg silu ?_)
  refine (dense_apply _ _ _ r j).trans ?_
  refine congrArg (fun f => dense f x7 x8 j) (funext fun k => ?_)
  refine (silu_apply _ _).trans (congrArg silu ?_)
  exact pre1_apply x0 x1 x2 x3 x4 x5 x6 r k

/-- The coordinate payload at (r, a), over any message block and any block of normalised differences. -/
theorem coordPayload_apply (v7 : FVec Ideal S4096x3 .f32) (v38 : FVec Ideal S4096x128 .f32) (x9 : Vec Ideal S128x128 .f32)
    (x10 : Vec Ideal S128 .f32) (x11 : Vec Ideal S128x1 .f32) (r : Fin 4096) (a : Fin 3) :
    k0_pay1 (F := Ideal) v7 v38 x9 x10 x11 (ix2 r a)
      = coef (fun k => v38 (ix2 r k)) x9 x10 x11 * v7 (ix2 r a) := by
  unfold k0_pay1
  rw [mulf_apply, Cert.Column.broadcastTo_a1_ab_apply, prodCol_apply]
  unfold coef
  refine congrArg (fun z => z * _) (Finset.sum_congr rfl fun k _ => ?_)
  refine congrArg (fun z => z * _) ?_
  refine (silu_apply _ _).trans (congrArg silu ?_)
  exact dense_apply _ x9 x10 r k

/-- The message block after the body, at (r, j). -/
theorem outMsg_apply (x0 x1 : Vec Ideal S4096x128 .bf16) (x2 : Vec Ideal S4096x6 .f32) (x3 x4 : Vec Ideal S128x128 .f32)
    (x5 : Vec Ideal S3x128 .f32) (x6 : Vec Ideal S128 .f32) (x7 : Vec Ideal S128x128 .f32) (x8 : Vec Ideal S128 .f32)
    (r : Fin 4096) (j : Fin 128) :
    Cert.KernelIdeal.Edge.outMsg (F := Ideal) x0 x1 x2 x3 x4 x5 x6 x7 x8 (ix2 r j)
      = msgH (fun k => x0 (ix2 r k)) (fun k => x1 (ix2 r k))
          (fun k : Fin 3 => x2 (ix2 r (⟨k.val, by have := k.isLt; omega⟩ : Fin 6))) x3 x4 x5 x6 x7 x8 j := by
  unfold Cert.KernelIdeal.Edge.outMsg
  rw [View.canon_unit_zero zeroOff2]
  simp only [View.ld_unit_zero (S := S4096x128) zeroOff2, View.ld_unit_zero (S := S4096x6) zeroOff2,
    View.ld_unit_zero (S := S128x128) zeroOff2, View.ld_unit_zero (S := S3x128) zeroOff2,
    View.ld_unit_zero (S := S128) zeroOff1]
  exact msgPayload_apply x0 x1 x2 x3 x4 x5 x6 x7 x8 r j

/-- The coordinate-message block after the body, at (r, a). -/
theorem outCoord_apply (x0 x1 : Vec Ideal S4096x128 .bf16) (x2 : Vec Ideal S4096x6 .f32) (x3 x4 : Vec Ideal S128x128 .f32)
    (x5 : Vec Ideal S3x128 .f32) (x6 : Vec Ideal S128 .f32) (x7 : Vec Ideal S128x128 .f32) (x8 : Vec Ideal S128 .f32)
    (x9 : Vec Ideal S128x128 .f32) (x10 : Vec Ideal S128 .f32) (x11 : Vec Ideal S128x1 .f32) (r : Fin 4096) (a : Fin 3) :
    Cert.KernelIdeal.Edge.outCoord (F := Ideal) x0 x1 x2 x3 x4 x5 x6 x7 x8 x9 x10 x11 (ix2 r a)
      = coef (msgH (fun k => x0 (ix2 r k)) (fun k => x1 (ix2 r k))
          (fun k : Fin 3 => x2 (ix2 r (⟨k.val, by have := k.isLt; omega⟩ : Fin 6))) x3 x4 x5 x6 x7 x8) x9 x10 x11
          * x2 (ix2 r (⟨3 + a.val, by have := a.isLt; omega⟩ : Fin 6)) := by
  unfold Cert.KernelIdeal.Edge.outCoord
  rw [View.canon_unit_zero zeroOff2]
  simp only [View.ld_unit_zero (S := S4096x128) zeroOff2, View.ld_unit_zero (S := S4096x6) zeroOff2,
    View.ld_unit_zero (S := S128x128) zeroOff2, View.ld_unit_zero (S := S3x128) zeroOff2,
    View.ld_unit_zero (S := S128x1) zeroOff2, View.ld_unit_zero (S := S128) zeroOff1]
  rw [coordPayload_apply]
  refine congrArg₂ (fun f z => coef f x9 x10 x11 * z)
    (funext fun k => msgPayload_apply x0 x1 x2 x3 x4 x5 x6 x7 x8 r k) ?_
  unfold k0_pay3 k0_pay2
  rw [shapeCast_self]
  exact tailSlice_apply x2 r a

/-! ## The node block -/

theorem nodeProd256_apply {φ₁ φ₂ : FTy} (l : FVec Ideal S5000x256 φ₁) (W : FVec Ideal S256x128 φ₂) (r : Fin 5000) (j : Fin 128) :
    matmul dot_S5000x256_S256x128_S5000x128_1_0_0_1_n_n none l W (constant S5000x128 .f32 0x00000000#32) (ix2 r j)
      = ∑ k : Fin 256, l (ix2 r k) * W (ix2 k j) :=
  Cert.PlainDot.matmul_zero_apply none l W r j

theorem nodeProd128_apply {φ₁ φ₂ : FTy} (l : FVec Ideal S5000x128 φ₁) (W : FVec Ideal S128x128 φ₂) (r : Fin 5000) (j : Fin 128) :
    matmul dot_S5000x128_S128x128_S5000x128_1_0_0_1_n_n none l W (constant S5000x128 .f32 0x00000000#32) (ix2 r j)
      = ∑ k : Fin 128, l (ix2 r k) * W (ix2 k j) :=
  Cert.PlainDot.matmul_zero_apply none l W r j

theorem nodeBiasRow_apply (b : Vec Ideal S128 .f32) (r : Fin 5000) (j : Fin 128) :
    broadcastTo S5000x128 (shapeCast S1x128 b shapeCasts_S128_S1x128) broadcasts_S1x128_S5000x128 (ix2 r j) = b (ix1 j) :=
  (broadcastTo_1b_ab_apply _ _ r j).trans (Cert.LibRow.shapeCast_a_1a_apply b _ 0 j)

/-- Two 5000×128 blocks joined along the columns, at (r, k): the specification's two rows side by side. -/
theorem joined_apply (x0 x1 : FVec Ideal S5000x128 .f32) (r : Fin 5000) (k : Fin 256) :
    concatenate S5000x256 1 [⟨S5000x128, x0⟩, ⟨S5000x128, x1⟩] concatenates_S5000x128_S5000x128_S5000x256_d1 (ix2 r k)
      = cat (fun k => x0 (ix2 r k)) (fun k => x1 (ix2 r k)) k := by
  unfold cat
  split
  · next h =>
    refine concatenate_pair_apply_left (1 : Fin 2) x0 x1 _ (ix2 r k) rfl (ix2 r ⟨k.val, h⟩) fun b => ?_
    match b with
    | ⟨0, _⟩ => rfl
    | ⟨1, _⟩ => rfl
  · next h =>
    refine concatenate_pair_apply_right (1 : Fin 2) x0 x1 _ (ix2 r k) rfl rfl (ix2 r ⟨k.val - 128, by have := k.isLt; omega⟩)
      (fun b hb => ?_) ?_
    · match b with
      | ⟨0, _⟩ => rfl
      | ⟨1, _⟩ => exact absurd rfl hb
    · show k.val - 128 + 128 = k.val
      omega

/-- The node payload at (r, j). -/
theorem nodePayload_apply (x0 x1 : Vec Ideal S5000x128 .f32) (x2 : Vec Ideal S256x128 .f32) (x3 : Vec Ideal S128 .f32)
    (x4 : Vec Ideal S128x128 .f32) (x5 : Vec Ideal S128 .f32) (r : Fin 5000) (j : Fin 128) :
    k1_pay1 (F := Ideal) x0 x1 x2 x3 x4 x5 (ix2 r j)
      = nodeOut (fun k => x0 (ix2 r k)) (fun k => x1 (ix2 r k)) x2 x3 x4 x5 j := by
  unfold k1_pay1
  rw [shapeCast_self x1]
  rw [addf_apply, nodeProd128_apply, nodeBiasRow_apply]
  unfold nodeOut dense
  refine congrArg (fun z => z + _) (Finset.sum_congr rfl fun k _ => ?_)
  refine congrArg (fun z => z * _) ?_
  rw [truncf_apply]
  refine (silu_apply _ _).trans (congrArg silu ?_)
  rw [addf_apply, nodeProd256_apply, nodeBiasRow_apply]
  refine congrArg (fun z => z + _) (Finset.sum_congr rfl fun k' _ => ?_)
  rw [truncf_apply, truncf_apply, joined_apply]

/-- The node block after the body, at (r, j). -/
theorem nodeOut_apply (x0 x1 : Vec Ideal S5000x128 .f32) (x2 : Vec Ideal S256x128 .f32) (x3 : Vec Ideal S128 .f32)
    (x4 : Vec Ideal S128x128 .f32) (x5 : Vec Ideal S128 .f32) (r : Fin 5000) (j : Fin 128) :
    Cert.KernelIdeal.Node.out (F := Ideal) x0 x1 x2 x3 x4 x5 (ix2 r j)
      = nodeOut (fun k => x0 (ix2 r k)) (fun k => x1 (ix2 r k)) x2 x3 x4 x5 j := by
  unfold Cert.KernelIdeal.Node.out
  rw [View.canon_unit_zero zeroOff2]
  simp only [View.ld_unit_zero (S := S5000x128) zeroOff2, View.ld_unit_zero (S := S256x128) zeroOff2,
    View.ld_unit_zero (S := S128x128) zeroOff2, View.ld_unit_zero (S := S128) zeroOff1]
  exact nodePayload_apply x0 x1 x2 x3 x4 x5 r j

end Cert.KernelIdeal.EdgeBlock

end
-- ==== Proof.RegionArrays.lean ====
/-
  FROM BLOCKS TO ARRAYS.  Both regions cut their row-indexed arrays into consecutive row blocks — grid point `t`
  of the edge region owns rows `4096·t … 4096·t + 4095`, grid point `t` of the node region rows
  `5000·t … 5000·t + 4999` — and take their weights and biases whole (block index constantly zero).  So

  * an input block read at row `r` of point `t` is the array read at row `size·t + r`, same column, and a
    whole-array window's block is the array itself;
  * the blocks of an output window are pairwise disjoint (two points that share a row have the same row
    quotient), every point writes its block back, hence after all the points the array holds, at row
    `size·t + r`, what point `t` left at row `r` of its block.

  All of it is generic in the float interpretation: nothing here opens the body's arithmetic.
-/
import proofs.«425882_j23055384445177_3_alg».proof.Proof.KernelIdealEdge
import proofs.«425882_j23055384445177_3_alg».proof.Proof.KernelIdealNode
import Idealize.ShloMosaic.Lib.Pipeline.Value
import Idealize.ShloMosaic.Lib.ValueIdx

set_option maxRecDepth 16384

noncomputable section

namespace Cert.KernelIdeal.RegionArrays

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The edge region's index maps -/

/-- Row `r` of block `t` is a row of the padded edge arrays: `196 · 4096 = 802816`. -/
theorem row0_lt (t : Fin cfg0.N) (r : Fin 4096) : 4096 * t.val + r.val < 802816 := by
  have hN : cfg0.N = 196 := N_0
  have ht := t.isLt
  have hr := r.isLt
  omega

/-- The row-blocked windows (three inputs, two outputs) sit at block `(t, 0)` at point `t`. -/
theorem idx_rows0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The weight and bias windows sit at block index zero at every point. -/
theorem idx_whole0 : ∀ t : Fin cfg0.N,
      win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0 :=
  (by decide +kernel : ∀ t : Fin grid0.N, _)

/-! ## The edge region's input blocks -/

/-- A block of the gathered source features is 4096 consecutive rows of the array. -/
theorem blk0_apply (A : S802816x128.Idx → Elt F .bf16) (t : Fin cfg0.N) (r : Fin 4096) (k : Fin 128) :
    ((cfg0.win 0).blk t).view.read (Elt F) A (ix2 r k : S4096x128.Idx)
      = A (ix2 (⟨4096 * t.val + r.val, row0_lt t r⟩ : Fin 802816) k) := by
  obtain ⟨e0, e1, -⟩ := idx_rows0 t
  rw [View.read_apply]
  show A _ = A _
  refine congrArg A (funext fun a => Fin.ext ?_)
  match a with
  | ⟨0, _⟩ => show win0_0.index t (0 : Fin 2) * 4096 + 1 * r.val = 4096 * t.val + r.val; omega
  | ⟨1, _⟩ => show win0_0.index t (1 : Fin 2) * 128 + 1 * k.val = k.val; omega

/-- The same for the gathered destination features, -/
theorem blk1_apply (A : S802816x128.Idx → Elt F .bf16) (t : Fin cfg0.N) (r : Fin 4096) (k : Fin 128) :
    ((cfg0.win 1).blk t).view.read (Elt F) A (ix2 r k : S4096x128.Idx)
      = A (ix2 (⟨4096 * t.val + r.val, row0_lt t r⟩ : Fin 802816) k) := by
  obtain ⟨-, -, e0, e1, -⟩ := idx_rows0 t
  rw [View.read_apply]
  show A _ = A _
  refine congrArg A (funext fun a => Fin.ext ?_)
  match a with
  | ⟨0, _⟩ => show win0_1.index t (0 : Fin 2) * 4096 + 1 * r.val = 4096 * t.val + r.val; omega
  | ⟨1, _⟩ => show win0_1.index t (1 : Fin 2) * 128 + 1 * k.val = k.val; omega

/-- and for the six per-edge scalars. -/
theorem blk2_apply (A : S802816x6.Idx → Elt F .f32) (t : Fin cfg0.N) (r : Fin 4096) (k : Fin 6) :
    ((cfg0.win 2).blk t).view.read (Elt F) A (ix2 r k : S4096x6.Idx)
      = A (ix2 (⟨4096 * t.val + r.val, row0_lt t r⟩ : Fin 802816) k) := by
  obtain ⟨-, -, -, -, e0, e1, -⟩ := idx_rows0 t
  rw [View.read_apply]
  show A _ = A _
  refine congrArg A (funext fun a => Fin.ext ?_)
  match a with
  | ⟨0, _⟩ => show win0_2.index t (0 : Fin 2) * 4096 + 1 * r.val = 4096 * t.val + r.val; omega
  | ⟨1, _⟩ => show win0_2.index t (1 : Fin 2) * 6 + 1 * k.val = k.val; omega

/-! A window whose block is its whole array at block index zero reads the array back. -/

theorem blk3_read (A : S128x128.Idx → Elt F .f32) (t : Fin cfg0.N) : ((cfg0.win 3).blk t).view.read (Elt F) A = A := by
  obtain ⟨e0, e1, -⟩ := idx_whole0 t
  funext y
  rw [View.read_apply]
  show A _ = A y
  refine congrArg A (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk4_read (A : S128x128.Idx → Elt F .f32) (t : Fin cfg0.N) : ((cfg0.win 4).blk t).view.read (Elt F) A = A := by
  obtain ⟨-, -, e0, e1, -⟩ := idx_whole0 t
  funext y
  rw [View.read_apply]
  show A _ = A y
  refine congrArg A (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem blk5_read (A : S3x128.Idx → Elt F .f32) (t : Fin cfg0.N) : ((cfg0.win 5).blk t).view.read (Elt F) A = A := by
  obtain ⟨-, -, -, -, e0, e1, -⟩ := idx_whole0 t
  funext y
  rw [View.read_apply]
  show A _ = A y
  refine congrArg A (funext fun a => Fin.ext ?_)
  match a with
  | ⟨0, _⟩ => show win0_5.index t (0 : Fin 2) * 3 + 1 * (y 0).val = (y 0).val; omega
  | ⟨1, _⟩ => show win0_5.index t (1 : Fin 2) * 128 + 1 * (y 1).val = (y 1).val; omega

theorem blk6_read (A : S128.Idx → Elt F .f32) (t : Fin cfg0.N) : ((cfg0.win 6).blk t).view.read (Elt F) A = A := by
  obtain ⟨-, -, -, -, -, -, e0, -⟩ := idx_whole0 t
  funext y
  rw [View.read_apply]
  show A _ = A y
  refine congrArg A (funext fun a => Fin.ext ?_)
  match a with
  | ⟨0, _⟩ => show win0_6.index t (0 : Fin 1) * 128 + 1 * (y 0).val = (y 0).val; omega

theorem blk7_read (A : S128x128.Idx → Elt F .f32) (t : Fin cfg0.N) : ((cfg0.win 7).blk t).view.read (Elt F) A = A := by
  obtain ⟨-, -, -, -, -, -, -, e0, e1, -⟩ := idx_whole0 t
  funext y
  rw [View.read_apply]
  show A _ = A y
  refine congrArg A (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem blk8_read (A : S128.Idx → Elt F .f32) (t : Fin cfg0.N) : ((cfg0.win 8).blk t).view.read (Elt F) A = A := by
  obtain ⟨-, -, -, -, -, -, -, -, -, e0, -⟩ := idx_whole0 t
  funext y
  rw [View.read_apply]
  show A _ = A y
  refine congrArg A (funext fun a => Fin.ext ?_)
  match a with
  | ⟨0, _⟩ => show win0_8.index t (0 : Fin 1) * 128 + 1 * (y 0).val = (y 0).val; omega

theorem blk9_read (A : S128x128.Idx → Elt F .f32) (t : Fin cfg0.N) : ((cfg0.win 9).blk t).view.read (Elt F) A = A := by
  obtain ⟨-, -, -, -, -, -, -, -, -, -, e0, e1, -⟩ := idx_whole0 t
  funext y
  rw [View.read_apply]
  show A _ = A y
  refine congrArg A (funext fun a => Fin.ext ?_)
  match a with
  | ⟨0, _⟩ => show win0_9.index t (0 : Fin 2) * 128 + 1 * (y 0).val = (y 0).val; omega
  | ⟨1, _⟩ => show win0_9.index t (1 : Fin 2) * 128 + 1 * (y 1).val = (y 1).val; omega

theorem blk10_read (A : S128.Idx → Elt F .f32) (t : Fin cfg0.N) : ((cfg0.win 10).blk t).view.read (Elt F) A = A := by
  obtain ⟨-, -, -, -, -, -, -, -, -, -, -, -, e0, -⟩ := idx_whole0 t
  funext y
  rw [View.read_apply]
  show A _ = A y
  refine congrArg A (funext fun a => Fin.ext ?_)
  match a with
  | ⟨0, _⟩ => show win0_10.index t (0 : Fin 1) * 128 + 1 * (y 0).val = (y 0).val; omega

theorem blk11_read (A : S128x1.Idx → Elt F .f32) (t : Fin cfg0.N) : ((cfg0.win 11).blk t).view.read (Elt F) A = A := by
  obtain ⟨-, -, -, -, -, -, -, -, -, -, -, -, -, e0, e1⟩ := idx_whole0 t
  funext y
  rw [View.read_apply]
  show A _ = A y
  refine congrArg A (funext fun a => Fin.ext ?_)
  match a with
  | ⟨0, _⟩ => show win0_11.index t (0 : Fin 2) * 128 + 1 * (y 0).val = (y 0).val; omega
  | ⟨1, _⟩ => show win0_11.index t (1 : Fin 2) * 1 + 1 * (y 1).val = (y 1).val; omega

/-! ## The edge region's output arrays -/

/-- Where an element of the message block of point `t` sits in the message array. -/
theorem emb12 (t : Fin cfg0.N) (r : Fin 4096) (j : Fin 128) :
    ((cfg0.win 12).blk t).view.emb (ix2 r j : S4096x128.Idx)
      = (ix2 (⟨4096 * t.val + r.val, row0_lt t r⟩ : Fin 802816) j : S802816x128.Idx) := by
  obtain ⟨-, -, -, -, -, -, e0, e1, -⟩ := idx_rows0 t
  funext a; apply Fin.ext
  match a with
  | ⟨0, _⟩ => show win0_12.index t (0 : Fin 2) * 4096 + 1 * r.val = 4096 * t.val + r.val; omega
  | ⟨1, _⟩ => show win0_12.index t (1 : Fin 2) * 128 + 1 * j.val = j.val; omega

/-- An index of the message array is in point `t`'s block iff each coordinate is in the block's range. -/
theorem mem_blk12 (t : Fin cfg0.N) (i : S802816x128.Idx) :
    i ∈ ((cfg0.win 12).blk t).view.set ↔ ∀ a : Fin 2, win0_12.index t a * S4096x128.size a ≤ (i a).val ∧ (i a).val < win0_12.index t a * S4096x128.size a + S4096x128.size a := by
  show i ∈ ((View.whole main_v21_0).slice (win0_12.rect t)).set ↔ _
  rw [View.set_slice_whole, Rect.mem_set_unit]
  exact Iff.rfl

/-- Two points' message blocks share no index: a shared row has one quotient by 4096. -/
theorem disj12 (t t' : Fin cfg0.N) (hne : t ≠ t') :
    Disjoint ((cfg0.win 12).blk t).view.set ((cfg0.win 12).blk t').view.set := by
  refine Finset.disjoint_left.mpr fun i => ?_
  rw [mem_blk12 t i, mem_blk12 t' i]
  intro h h'
  have b : win0_12.index t (0 : Fin 2) * 4096 ≤ (i 0).val ∧ (i 0).val < win0_12.index t (0 : Fin 2) * 4096 + 4096 := h 0
  have b' : win0_12.index t' (0 : Fin 2) * 4096 ≤ (i 0).val ∧ (i 0).val < win0_12.index t' (0 : Fin 2) * 4096 + 4096 := h' 0
  obtain ⟨-, -, -, -, -, -, e0, -⟩ := idx_rows0 t
  obtain ⟨-, -, -, -, -, -, e0', -⟩ := idx_rows0 t'
  exact hne (Fin.ext (by omega))

/-- So, whatever the proof data, the message array after all the points holds at row `4096·t + r` what point
    `t` left at row `r` of the message window's staging buffer. -/
theorem arr12_of (c : Dev nD) (dat : Dat τ (Elt F) Unit ℕ (UR sig nD τ) ℕ cfg0 c) (t : Fin cfg0.N) (r : Fin 4096) (j : Fin 128) :
    (dat.arrAt 12 cfg0.N : S802816x128.Idx → Elt F .f32) (ix2 (⟨4096 * t.val + r.val, row0_lt t r⟩ : Fin 802816) j)
      = dat.after 12 t (ix2 r j) := by
  have h := dat.arrAt_emb_eq_flushed 12 (fun t t' _ _ hne => disj12 t t' hne) t (flush0_12 t) (ix2 r j : S4096x128.Idx)
  rw [emb12 t r j] at h
  exact h.trans (cast_eq _ _)

/-- The same three facts for the coordinate-message array, three columns wide. -/
theorem emb13 (t : Fin cfg0.N) (r : Fin 4096) (a : Fin 3) :
    ((cfg0.win 13).blk t).view.emb (ix2 r a : S4096x3.Idx)
      = (ix2 (⟨4096 * t.val + r.val, row0_lt t r⟩ : Fin 802816) a : S802816x3.Idx) := by
  obtain ⟨-, -, -, -, -, -, -, -, e0, e1⟩ := idx_rows0 t
  funext d; apply Fin.ext
  match d with
  | ⟨0, _⟩ => show win0_13.index t (0 : Fin 2) * 4096 + 1 * r.val = 4096 * t.val + r.val; omega
  | ⟨1, _⟩ => show win0_13.index t (1 : Fin 2) * 3 + 1 * a.val = a.val; omega

theorem mem_blk13 (t : Fin cfg0.N) (i : S802816x3.Idx) :
    i ∈ ((cfg0.win 13).blk t).view.set ↔ ∀ a : Fin 2, win0_13.index t a * S4096x3.size a ≤ (i a).val ∧ (i a).val < win0_13.index t a * S4096x3.size a + S4096x3.size a := by
  show i ∈ ((View.whole main_v21_1).slice (win0_13.rect t)).set ↔ _
  rw [View.set_slice_whole, Rect.mem_set_unit]
  exact Iff.rfl

theorem disj13 (t t' : Fin cfg0.N) (hne : t ≠ t') :
    Disjoint ((cfg0.win 13).blk t).view.set ((cfg0.win 13).blk t').view.set := by
  refine Finset.disjoint_left.mpr fun i => ?_
  rw [mem_blk13 t i, mem_blk13 t' i]
  intro h h'
  have b : win0_13.index t (0 : Fin 2) * 4096 ≤ (i 0).val ∧ (i 0).val < win0_13.index t (0 : Fin 2) * 4096 + 4096 := h 0
  have b' : win0_13.index t' (0 : Fin 2) * 4096 ≤ (i 0).val ∧ (i 0).val < win0_13.index t' (0 : Fin 2) * 4096 + 4096 := h' 0
  obtain ⟨-, -, -, -, -, -, -, -, e0, -⟩ := idx_rows0 t
  obtain ⟨-, -, -, -, -, -, -, -, e0', -⟩ := idx_rows0 t'
  exact hne (Fin.ext (by omega))

theorem arr13_of (c : Dev nD) (dat : Dat τ (Elt F) Unit ℕ (UR sig nD τ) ℕ cfg0 c) (t : Fin cfg0.N) (r : Fin 4096) (a : Fin 3) :
    (dat.arrAt 13 cfg0.N : S802816x3.Idx → Elt F .f32) (ix2 (⟨4096 * t.val + r.val, row0_lt t r⟩ : Fin 802816) a)
      = dat.after 13 t (ix2 r a) := by
  have h := dat.arrAt_emb_eq_flushed 13 (fun t t' _ _ hne => disj13 t t' hne) t (flush0_13 t) (ix2 r a : S4096x3.Idx)
  rw [emb13 t r a] at h
  exact h.trans (cast_eq _ _)

/-! ## The node region's index maps, input blocks and output array -/

/-- Row `r` of block `t` is a node row: `10 · 5000 = 50000`. -/
theorem row1_lt (t : Fin cfg1.N) (r : Fin 5000) : 5000 * t.val + r.val < 50000 := by
  have hN : cfg1.N = 10 := N_1
  have ht := t.isLt
  have hr := r.isLt
  omega

/-- The row-blocked windows (node features, aggregated messages, the output) sit at block `(t, 0)`. -/
theorem idx_rows1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0 :=
  (by decide +kernel : ∀ t : Fin grid1.N, _)

/-- The weight and bias windows sit at block index zero at every point. -/
theorem idx_whole1 : ∀ t : Fin cfg1.N,
      win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0 :=
  (by decide +kernel : ∀ t : Fin grid1.N, _)

theorem nblk0_apply (A : S50000x128.Idx → Elt F .f32) (t : Fin cfg1.N) (r : Fin 5000) (k : Fin 128) :
    ((cfg1.win 0).blk t).view.read (Elt F) A (ix2 r k : S5000x128.Idx)
      = A (ix2 (⟨5000 * t.val + r.val, row1_lt t r⟩ : Fin 50000) k) := by
  obtain ⟨e0, e1, -⟩ := idx_rows1 t
  rw [View.read_apply]
  show A _ = A _
  refine congrArg A (funext fun a => Fin.ext ?_)
  match a with
  | ⟨0, _⟩ => show win1_0.index t (0 : Fin 2) * 5000 + 1 * r.val = 5000 * t.val + r.val; omega
  | ⟨1, _⟩ => show win1_0.index t (1 : Fin 2) * 128 + 1 * k.val = k.val; omega

theorem nblk1_apply (A : S50000x128.Idx → Elt F .f32) (t : Fin cfg1.N) (r : Fin 5000) (k : Fin 128) :
    ((cfg1.win 1).blk t).view.read (Elt F) A (ix2 r k : S5000x128.Idx)
      = A (ix2 (⟨5000 * t.val + r.val, row1_lt t r⟩ : Fin 50000) k) := by
  obtain ⟨-, -, e0, e1, -⟩ := idx_rows1 t
  rw [View.read_apply]
  show A _ = A _
  refine congrArg A (funext fun a => Fin.ext ?_)
  match a with
  | ⟨0, _⟩ => show win1_1.index t (0 : Fin 2) * 5000 + 1 * r.val = 5000 * t.val + r.val; omega
  | ⟨1, _⟩ => show win1_1.index t (1 : Fin 2) * 128 + 1 * k.val = k.val; omega

theorem nblk2_read (A : S256x128.Idx → Elt F .f32) (t : Fin cfg1.N) : ((cfg1.win 2).blk t).view.read (Elt F) A = A := by
  obtain ⟨e0, e1, -⟩ := idx_whole1 t
  funext y
  rw [View.read_apply]
  show A _ = A y
  refine congrArg A (funext fun a => Fin.ext ?_)
  match a with
  | ⟨0, _⟩ => show win1_2.index t (0 : Fin 2) * 256 + 1 * (y 0).val = (y 0).val; omega
  | ⟨1, _⟩ => show win1_2.index t (1 : Fin 2) * 128 + 1 * (y 1).val = (y 1).val; omega

theorem nblk3_read (A : S128.Idx → Elt F .f32) (t : Fin cfg1.N) : ((cfg1.win 3).blk t).view.read (Elt F) A = A := by
  obtain ⟨-, -, e0, -⟩ := idx_whole1 t
  funext y
  rw [View.read_apply]
  show A _ = A y
  refine congrArg A (funext fun a => Fin.ext ?_)
  match a with
  | ⟨0, _⟩ => show win1_3.index t (0 : Fin 1) * 128 + 1 * (y 0).val = (y 0).val; omega

theorem nblk4_read (A : S128x128.Idx → Elt F .f32) (t : Fin cfg1.N) : ((cfg1.win 4).blk t).view.read (Elt F) A = A := by
  obtain ⟨-, -, -, e0, e1, -⟩ := idx_whole1 t
  funext y
  rw [View.read_apply]
  show A _ = A y
  refine congrArg A (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem nblk5_read (A : S128.Idx → Elt F .f32) (t : Fin cfg1.N) : ((cfg1.win 5).blk t).view.read (Elt F) A = A := by
  obtain ⟨-, -, -, -, -, e0⟩ := idx_whole1 t
  funext y
  rw [View.read_apply]
  show A _ = A y
  refine congrArg A (funext fun a => Fin.ext ?_)
  match a with
  | ⟨0, _⟩ => show win1_5.index t (0 : Fin 1) * 128 + 1 * (y 0).val = (y 0).val; omega

/-- Where an element of the output block of point `t` sits in the node output array. -/
theorem nemb6 (t : Fin cfg1.N) (r : Fin 5000) (j : Fin 128) :
    ((cfg1.win 6).blk t).view.emb (ix2 r j : S5000x128.Idx)
      = (ix2 (⟨5000 * t.val + r.val, row1_lt t r⟩ : Fin 50000) j : S50000x128.Idx) := by
  obtain ⟨-, -, -, -, e0, e1⟩ := idx_rows1 t
  funext a; apply Fin.ext
  match a with
  | ⟨0, _⟩ => show win1_6.index t (0 : Fin 2) * 5000 + 1 * r.val = 5000 * t.val + r.val; omega
  | ⟨1, _⟩ => show win1_6.index t (1 : Fin 2) * 128 + 1 * j.val = j.val; omega

theorem nmem_blk6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v38).slice (win1_6.rect t)).set ↔ _
  rw [View.set_slice_whole, Rect.mem_set_unit]
  exact Iff.rfl

/-- Two points' output blocks share no index: a shared row has one quotient by 5000. -/
theorem ndisj6 (t t' : Fin cfg1.N) (hne : t ≠ t') :
    Disjoint ((cfg1.win 6).blk t).view.set ((cfg1.win 6).blk t').view.set := by
  refine Finset.disjoint_left.mpr fun i => ?_
  rw [nmem_blk6 t i, nmem_blk6 t' i]
  intro h h'
  have b : win1_6.index t (0 : Fin 2) * 5000 ≤ (i 0).val ∧ (i 0).val < win1_6.index t (0 : Fin 2) * 5000 + 5000 := h 0
  have b' : win1_6.index t' (0 : Fin 2) * 5000 ≤ (i 0).val ∧ (i 0).val < win1_6.index t' (0 : Fin 2) * 5000 + 5000 := h' 0
  obtain ⟨-, -, -, -, e0, -⟩ := idx_rows1 t
  obtain ⟨-, -, -, -, e0', -⟩ := idx_rows1 t'
  exact hne (Fin.ext (by omega))

theorem narr6_of (c : Dev nD) (dat : Dat τ (Elt F) Unit ℕ (UR sig nD τ) ℕ cfg1 c) (t : Fin cfg1.N) (r : Fin 5000) (j : Fin 128) :
    (dat.arrAt 6 cfg1.N : S50000x128.Idx → Elt F .f32) (ix2 (⟨5000 * t.val + r.val, row1_lt t r⟩ : Fin 50000) j)
      = dat.after 6 t (ix2 r j) := by
  have h := dat.arrAt_emb_eq_flushed 6 (fun t t' _ _ hne => ndisj6 t t' hne) t (flush1_6 t) (ix2 r j : S5000x128.Idx)
  rw [nemb6 t r j] at h
  exact h.trans (cast_eq _ _)

/-! ## The statements the other modules cite -/

-- the core's buffer contents when a region is entered
variable (V : (c : Dev nD) → (b : Ref sig .tc) → Buf (Elt F) ((c : Thread nD τ).loc b))

/-- The message array after the edge region: row `4096·t + r` is row `r` of the message block of point `t`. -/
theorem msg_arr (c : Dev nD) (t : Fin cfg0.N) (r : Fin 4096) (j : Fin 128) :
    ((Edge.dat V c).arrAt 12 cfg0.N : S802816x128.Idx → Elt F .f32) (ix2 (⟨4096 * t.val + r.val, row0_lt t r⟩ : Fin 802816) j)
      = Edge.outMsg (Edge.iblk V c 0 t) (Edge.iblk V c 1 t) (Edge.iblk V c 2 t) (Edge.iblk V c 3 t) (Edge.iblk V c 4 t) (Edge.iblk V c 5 t) (Edge.iblk V c 6 t) (Edge.iblk V c 7 t) (Edge.iblk V c 8 t) (ix2 r j) := by
  rw [arr12_of c (Edge.dat V c) t r j, Edge.after_12]

/-- The coordinate-message array after the edge region, likewise. -/
theorem coord_arr (c : Dev nD) (t : Fin cfg0.N) (r : Fin 4096) (a : Fin 3) :
    ((Edge.dat V c).arrAt 13 cfg0.N : S802816x3.Idx → Elt F .f32) (ix2 (⟨4096 * t.val + r.val, row0_lt t r⟩ : Fin 802816) a)
      = Edge.outCoord (Edge.iblk V c 0 t) (Edge.iblk V c 1 t) (Edge.iblk V c 2 t) (Edge.iblk V c 3 t) (Edge.iblk V c 4 t) (Edge.iblk V c 5 t) (Edge.iblk V c 6 t) (Edge.iblk V c 7 t) (Edge.iblk V c 8 t) (Edge.iblk V c 9 t) (Edge.iblk V c 10 t) (Edge.iblk V c 11 t) (ix2 r a) := by
  rw [arr13_of c (Edge.dat V c) t r a, Edge.after_13]

/-- The node output array after the node region: row `5000·t + r` is row `r` of the output block of point `t`. -/
theorem node_arr (c : Dev nD) (t : Fin cfg1.N) (r : Fin 5000) (j : Fin 128) :
    ((Node.dat V c).arrAt 6 cfg1.N : S50000x128.Idx → Elt F .f32) (ix2 (⟨5000 * t.val + r.val, row1_lt t r⟩ : Fin 50000) j)
      = Node.out (Node.iblk V c 0 t) (Node.iblk V c 1 t) (Node.iblk V c 2 t) (Node.iblk V c 3 t) (Node.iblk V c 4 t) (Node.iblk V c 5 t) (ix2 r j) := by
  rw [narr6_of c (Node.dat V c) t r j, Node.after_6]

/-! The edge region's input blocks as rows of their arrays, and its weights and biases whole. -/

theorem edge_iblk0 (c : Dev nD) (t : Fin cfg0.N) (r : Fin 4096) (k : Fin 128) :
    Edge.iblk V c 0 t (ix2 r k) = (V c main_v18 : S802816x128.Idx → Elt F .bf16) (ix2 (⟨4096 * t.val + r.val, row0_lt t r⟩ : Fin 802816) k) :=
  blk0_apply (V c main_v18) t r k
theorem edge_iblk1 (c : Dev nD) (t : Fin cfg0.N) (r : Fin 4096) (k : Fin 128) :
    Edge.iblk V c 1 t (ix2 r k) = (V c main_v19 : S802816x128.Idx → Elt F .bf16) (ix2 (⟨4096 * t.val + r.val, row0_lt t r⟩ : Fin 802816) k) :=
  blk1_apply (V c main_v19) t r k
theorem edge_iblk2 (c : Dev nD) (t : Fin cfg0.N) (r : Fin 4096) (k : Fin 6) :
    Edge.iblk V c 2 t (ix2 r k) = (V c main_v20 : S802816x6.Idx → Elt F .f32) (ix2 (⟨4096 * t.val + r.val, row0_lt t r⟩ : Fin 802816) k) :=
  blk2_apply (V c main_v20) t r k
theorem edge_iblk3 (c : Dev nD) (t : Fin cfg0.N) : Edge.iblk V c 3 t = V c main_v15 := blk3_read (V c main_v15) t
theorem edge_iblk4 (c : Dev nD) (t : Fin cfg0.N) : Edge.iblk V c 4 t = V c main_v16 := blk4_read (V c main_v16) t
theorem edge_iblk5 (c : Dev nD) (t : Fin cfg0.N) : Edge.iblk V c 5 t = V c main_v17 := blk5_read (V c main_v17) t
theorem edge_iblk6 (c : Dev nD) (t : Fin cfg0.N) : Edge.iblk V c 6 t = V c main_arg6 := blk6_read (V c main_arg6) t
theorem edge_iblk7 (c : Dev nD) (t : Fin cfg0.N) : Edge.iblk V c 7 t = V c main_arg7 := blk7_read (V c main_arg7) t
theorem edge_iblk8 (c : Dev nD) (t : Fin cfg0.N) : Edge.iblk V c 8 t = V c main_arg8 := blk8_read (V c main_arg8) t
theorem edge_iblk9 (c : Dev nD) (t : Fin cfg0.N) : Edge.iblk V c 9 t = V c main_arg13 := blk9_read (V c main_arg13) t
theorem edge_iblk10 (c : Dev nD) (t : Fin cfg0.N) : Edge.iblk V c 10 t = V c main_arg14 := blk10_read (V c main_arg14) t
theorem edge_iblk11 (c : Dev nD) (t : Fin cfg0.N) : Edge.iblk V c 11 t = V c main_arg15 := blk11_read (V c main_arg15) t

/-! The node region's input blocks as rows of their arrays, and its weights and biases whole. -/

theorem node_iblk0 (c : Dev nD) (t : Fin cfg1.N) (r : Fin 5000) (k : Fin 128) :
    Node.iblk V c 0 t (ix2 r k) = (V c main_arg0 : S50000x128.Idx → Elt F .f32) (ix2 (⟨5000 * t.val + r.val, row1_lt t r⟩ : Fin 50000) k) :=
  nblk0_apply (V c main_arg0) t r k
theorem node_iblk1 (c : Dev nD) (t : Fin cfg1.N) (r : Fin 5000) (k : Fin 128) :
    Node.iblk V c 1 t (ix2 r k) = (V c main_v26 : S50000x128.Idx → Elt F .f32) (ix2 (⟨5000 * t.val + r.val, row1_lt t r⟩ : Fin 50000) k) :=
  nblk1_apply (V c main_v26) t r k
theorem node_iblk2 (c : Dev nD) (t : Fin cfg1.N) : Node.iblk V c 2 t = V c main_arg9 := nblk2_read (V c main_arg9) t
theorem node_iblk3 (c : Dev nD) (t : Fin cfg1.N) : Node.iblk V c 3 t = V c main_arg10 := nblk3_read (V c main_arg10) t
theorem node_iblk4 (c : Dev nD) (t : Fin cfg1.N) : Node.iblk V c 4 t = V c main_arg11 := nblk4_read (V c main_arg11) t
theorem node_iblk5 (c : Dev nD) (t : Fin cfg1.N) : Node.iblk V c 5 t = V c main_arg12 := nblk5_read (V c main_arg12) t

end Cert.KernelIdeal.RegionArrays

end
-- ==== Proof.LibRowGather.lean ====
/-
  `stablehlo.gather` as jnp's `x[idx]` lowers it for a table `x : [N, D]` and a list of M row indices carried as a column
  `[M, 1]`: offset axis 1, collapsed slice axis 0, start index map [0], index vector axis 1, slices of one whole row.
  Result element (i, k) is the table's element (r, k) at the row r the start index `idx[i, 0]` names, read as a signed
  integer and clamped into [0, N − 1].
-/
import Idealize.ShloMosaic.Lib.ValueIdx

noncomputable section

namespace Cert.LibRowGather

open Idealize.ShloMosaic Idealize.ShloMosaic.ValueIdx

variable {α : Type}

/-- Those dimension numbers; their conditions `wf` are decided on a program's literal shapes. -/
abbrev rowDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- THE GATHER READ AT (i, k): the table at the clamped start row and column k. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (i : Fin M) (k : Fin D) :
    Host.gather (rowDims N D M wf) x idx (ix2 i k)
      = x (ix2 ⟨min (idx (ix2 i (0 : Fin 1))).toInt.toNat (N - 1), by omega⟩ k) := by
  unfold Host.gather
  congr 1
  -- axis 0 is collapsed (no offset coordinate) and carries the clamped start row
  have h0 : (rowDims N D M wf).start (ix2 i k) idx (0 : Fin 2) + (rowDims N D M wf).batchCoord (ix2 i k) (0 : Fin 2)
      + (rowDims N D M wf).offCoord (ix2 i k) (0 : Fin 2) = min (idx (ix2 i (0 : Fin 1))).toInt.toNat (N - 1) := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 i k) ⟨List.idxOf (0 : Fin 2) (rowDims N D M wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  -- axis 1 is the offset axis: no start, the result's own column
  have h1 : (rowDims N D M wf).start (ix2 i k) idx (1 : Fin 2) + (rowDims N D M wf).batchCoord (ix2 i k) (1 : Fin 2)
      + (rowDims N D M wf).offCoord (ix2 i k) (1 : Fin 2) = k.val := by
    rw [GatherDims.batchCoord_eq_zero _ _ _ List.not_mem_nil]
    unfold GatherDims.start
    rw [dif_neg (show (1 : Fin 2) ∉ (rowDims N D M wf).startIndexMap from
      fun h => Nat.one_ne_zero (congrArg Fin.val (List.mem_singleton.mp h)))]
    simp only [Nat.add_zero, Nat.zero_add]
    unfold GatherDims.offCoord
    rw [dif_pos (show (1 : Fin 2) ∈ (rowDims N D M wf).sKept from (GatherDims.mem_sKept _ _).mpr
      ⟨fun h => Nat.one_ne_zero (congrArg Fin.val (List.mem_singleton.mp h)), List.not_mem_nil⟩)]
    rfl
  funext a
  refine Fin.ext ?_
  match a with
  | ⟨0, _⟩ => exact h0
  | ⟨1, _⟩ => exact h1

end Cert.LibRowGather

end
-- ==== Proof.LibNary3.lean ====
/-
  GENERAL LEMMA: a host operation over a literal family of THREE operand references (a concatenate of three arrays).

  Its result buffer holds the operation's function applied to the three operands' contents, each read at its own
  reference, so that a valuation computed by earlier operations can be rewritten operand by operand. The library states
  this for a family of four references; this is the same statement for three.
-/
import Idealize.ShloMosaic.Lib.StableHlo.Run

namespace Cert.LibNary3

open Idealize.ShloMosaic Idealize.ShloMosaic.StableHlo Idealize.SL.Sem

variable {τ : Topo} {sig : RefSig} {Val : EltTy → Type}
variable {x a b y : Ref sig .tc}

/-- The result of an operation over the literal family `![x, a, b]`, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed so that a simplifier pass can use it. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3
-- ==== Proof.KernelHostPre.lean ====
/-
  The host operations of the kernel program before the edge region, read at an index, at the ideal values: what the
  arrays the edge region reads hold, as functions of the launch memory.

  The node features are rounded to bf16 (the identity on extended reals); a gather of whole rows at the source and at
  the destination words gives, per edge, two feature rows and two coordinate rows (a word is read signed and clamped
  into the table: `row`).  From the two coordinate rows: their difference, its squared length (a sum over the three
  coordinates from the constant zero, so the plain sum), the square root plus the word of 1e-30 as the divisor, and
  the difference over that divisor; squared length, the two edge features and the normalised difference side by side
  are the six per-edge scalars `meta6`.  The three edge arrays get 2816 rows of the real zero appended (the integer
  zero converted), so row `e` of a padded array is the edge's row for e < 800000 and zero after.  The first edge
  layer's weight is cut into its three row groups.  No operation here writes an argument.

  Each stretch of operations is first read from arbitrary contents `W` (its operations' results at their own
  buffers), then chained through the contents between the stretches.
-/
import proofs.«425882_j23055384445177_3_alg».proof.Proof.Gen.KernelIdeal.Regions
import proofs.«425882_j23055384445177_3_alg».proof.Proof.Spec
import proofs.«425882_j23055384445177_3_alg».proof.Proof.LibRowGather
import proofs.«425882_j23055384445177_3_alg».proof.Proof.LibNary3
import Idealize.ShloMosaic.Lib.StableHlo.Run
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws

noncomputable section

namespace Cert.KernelIdeal.HostPre

open Cert.KernelIdeal Cert.KernelIdeal.Gen Cert.Egnn
open Idealize.ShloMosaic Idealize.ShloMosaic.TcCoe Idealize.ShloMosaic.ValueIdx
open Idealize.SL.Sem
open scoped BigOperators

variable (m : (ℓ : Loc nD τ sig) → Buf (Elt Ideal) ℓ) (c : Dev nD)

abbrev aX : Tab 50000 128 := m ((c : Thread nD τ).loc main_arg0)
abbrev aC : Tab 50000 3 := m ((c : Thread nD τ).loc main_arg1)
abbrev aEF : Tab 800000 2 := m ((c : Thread nD τ).loc main_arg2)
abbrev aSrc : Ids 800000 := m ((c : Thread nD τ).loc main_arg3)
abbrev aDst : Ids 800000 := m ((c : Thread nD τ).loc main_arg4)
abbrev aW1 : Tab 259 128 := m ((c : Thread nD τ).loc main_arg5)

/-- A column of words broadcast to a one-column table reads the column. -/
theorem col_apply {α : Type} (x : S800000.Idx → α) (e : Fin 800000) :
    broadcastInDim S800000x1 ![0] bcast_S800000_S800000x1_0 x (ix2 e (0 : Fin 1)) = x (ix1 e) :=
  broadcastInDim_apply _ bcast_S800000_S800000x1_0 x (ix2 e (0 : Fin 1)) (ix1 e) (fun a => match a with
    | ⟨0, _⟩ => by show e.val = if (800000 : Nat) = 1 then 0 else e.val; rw [if_neg (by decide)])

theorem gather128_apply (x : Tab 50000 128) (idx : IVec S800000x1 32) (e : Fin 800000) (k : Fin 128) :
    Host.gather gather_S50000x128_S800000x1_S800000x128_1_0_n_n_0_1_1128 x idx (ix2 e k)
      = x (ix2 (row (idx (ix2 e (0 : Fin 1)))) k) :=
  Cert.LibRowGather.gather_rows_apply (N := 50000) (D := 128) (M := 800000) (Nat.succ_pos _)
    gather_S50000x128_S800000x1_S800000x128_1_0_n_n_0_1_1128_wf x idx e k

theorem gather3_apply (x : Tab 50000 3) (idx : IVec S800000x1 32) (e : Fin 800000) (k : Fin 3) :
    Host.gather gather_S50000x3_S800000x1_S800000x3_1_0_n_n_0_1_13 x idx (ix2 e k)
      = x (ix2 (row (idx (ix2 e (0 : Fin 1)))) k) :=
  Cert.LibRowGather.gather_rows_apply (N := 50000) (D := 3) (M := 800000) (Nat.succ_pos _)
    gather_S50000x3_S800000x1_S800000x3_1_0_n_n_0_1_13_wf x idx e k

theorem take128_apply (x : Tab 50000 128) (idx : Ids 800000) (e : Fin 800000) (k : Fin 128) :
    Host.gather gather_S50000x128_S800000x1_S800000x128_1_0_n_n_0_1_1128 x
        (broadcastInDim S800000x1 ![0] bcast_S800000_S800000x1_0 idx) (ix2 e k)
      = x (ix2 (row (idx (ix1 e))) k) :=
  (gather128_apply x _ e k).trans (by rw [col_apply])

theorem take3_apply (x : Tab 50000 3) (idx : Ids 800000) (e : Fin 800000) (k : Fin 3) :
    Host.gather gather_S50000x3_S800000x1_S800000x3_1_0_n_n_0_1_13 x
        (broadcastInDim S800000x1 ![0] bcast_S800000_S800000x1_0 idx) (ix2 e k)
      = x (ix2 (row (idx (ix1 e))) k) :=
  (gather3_apply x _ e k).trans (by rw [col_apply])

/-! ## The per-edge scalars as the host builds them -/

/-- The squared length of each row of a three-column table, as a one-column table: the row's sum of squares, summed
    from the constant zero. -/
def sqLen (d : FVec Ideal S800000x3 .f32) : FVec Ideal S800000x1 .f32 :=
  broadcastInDim S800000x1 ![0] bcast_S800000_S800000x1_0
    (Host.reduceAdd (mulf d d) (constant (F := Ideal) S_ .f32 0x00000000#32) reducesTo_S800000x3_S800000_d1 h_S_)

/-- The divisor: the square root of the column plus the word of 1e-30, repeated along the three columns. -/
def denom (r : FVec Ideal S800000x1 .f32) : FVec Ideal S800000x3 .f32 :=
  broadcastInDim S800000x3 ![0, 1] bcast_S800000x1_S800000x3_0_1
    (addf (Host.sqrt r) (broadcastInDim S800000x1 ![] bcast_S_S800000x1 (constant (F := Ideal) S_ .f32 0x0DA24260#32)))

/-- One, two and three columns side by side. -/
def cat3 (p : FVec Ideal S800000x1 .f32) (q : FVec Ideal S800000x2 .f32) (r : FVec Ideal S800000x3 .f32) :
    FVec Ideal S800000x6 .f32 :=
  concatenate S800000x6 1 [⟨S800000x1, p⟩, ⟨S800000x2, q⟩, ⟨S800000x3, r⟩]
    concatenates_S800000x1_S800000x2_S800000x3_S800000x6_d1

/-- The six-column table: squared length, the two edge features, the difference over its length plus 1e-30. -/
def sixCols (x3 x4 : FVec Ideal S800000x3 .f32) (ef : FVec Ideal S800000x2 .f32) : FVec Ideal S800000x6 .f32 :=
  cat3 (sqLen (subf x3 x4)) ef (Host.divf (subf x3 x4) (denom (sqLen (subf x3 x4))))

theorem sqLen_apply (d : FVec Ideal S800000x3 .f32) (e : Fin 800000) :
    sqLen d (ix2 e (0 : Fin 1)) = ∑ a : Fin 3, d (ix2 e a) * d (ix2 e a) := by
  unfold sqLen
  rw [col_apply]
  refine (hostReduceAdd_apply _ _ _ _ _).trans ?_
  rw [Ideal.hostReduceAdd_single reducesTo_S800000x3_S800000_d1 (by decide)]
  rw [constant_apply, Ideal.ofBits_zero_f32, zero_add]
  refine Finset.sum_congr rfl fun a _ => ?_
  exact congrArg (fun i => d i * d i)
    (funext fun b => Fin.ext (by match b with | ⟨0, _⟩ => rfl | ⟨1, _⟩ => rfl))

theorem denom_apply (r : FVec Ideal S800000x1 .f32) (e : Fin 800000) (a : Fin 3) :
    denom r (ix2 e a) = Ideal.sqrt (r (ix2 e (0 : Fin 1))) + eps := by
  unfold denom
  refine (broadcastInDim_apply _ bcast_S800000x1_S800000x3_0_1 _ (ix2 e a) (ix2 e (0 : Fin 1)) (fun b => match b with
    | ⟨0, _⟩ => by show e.val = if (800000 : Nat) = 1 then 0 else e.val; rw [if_neg (by decide)]
    | ⟨1, _⟩ => by show (0 : Nat) = if (1 : Nat) = 1 then 0 else a.val; rw [if_pos rfl])).trans ?_
  rw [addf_apply, broadcastInDim_scalar_apply]
  unfold eps
  rfl

theorem cat3_apply0 (p : FVec Ideal S800000x1 .f32) (q : FVec Ideal S800000x2 .f32) (r : FVec Ideal S800000x3 .f32)
    (e : Fin 800000) : cat3 p q r (ix2 e (0 : Fin 6)) = p (ix2 e (0 : Fin 1)) := by
  unfold cat3
  exact concatenate_apply_piece (t := S800000x6) (1 : Fin 2) [⟨S800000x1, p⟩, ⟨S800000x2, q⟩, ⟨S800000x3, r⟩]
    concatenates_S800000x1_S800000x2_S800000x3_S800000x6_d1 (ix2 e (0 : Fin 6))
    0 (by show (0 : Nat) < 3; decide) S800000x1 p rfl rfl 0 rfl (ix2 e (0 : Fin 1))
    (fun b hb => match b with
      | ⟨0, _⟩ => rfl
      | ⟨1, _⟩ => (hb (Fin.ext rfl)).elim)
    rfl

theorem cat3_apply1 (p : FVec Ideal S800000x1 .f32) (q : FVec Ideal S800000x2 .f32) (r : FVec Ideal S800000x3 .f32)
    (e : Fin 800000) (k : Fin 2) : cat3 p q r (ix2 e (⟨1 + k.val, by omega⟩ : Fin 6)) = q (ix2 e k) := by
  unfold cat3
  exact concatenate_apply_piece (t := S800000x6) (1 : Fin 2) [⟨S800000x1, p⟩, ⟨S800000x2, q⟩, ⟨S800000x3, r⟩]
    concatenates_S800000x1_S800000x2_S800000x3_S800000x6_d1 (ix2 e (⟨1 + k.val, by omega⟩ : Fin 6))
    1 (by show (1 : Nat) < 3; decide) S800000x2 q rfl rfl 1 rfl (ix2 e k)
    (fun b hb => match b with
      | ⟨0, _⟩ => rfl
      | ⟨1, _⟩ => (hb (Fin.ext rfl)).elim)
    rfl

theorem cat3_apply2 (p : FVec Ideal S800000x1 .f32) (q : FVec Ideal S800000x2 .f32) (r : FVec Ideal S800000x3 .f32)
    (e : Fin 800000) (k : Fin 3) : cat3 p q r (ix2 e (⟨3 + k.val, by omega⟩ : Fin 6)) = r (ix2 e k) := by
  unfold cat3
  exact concatenate_apply_piece (t := S800000x6) (1 : Fin 2) [⟨S800000x1, p⟩, ⟨S800000x2, q⟩, ⟨S800000x3, r⟩]
    concatenates_S800000x1_S800000x2_S800000x3_S800000x6_d1 (ix2 e (⟨3 + k.val, by omega⟩ : Fin 6))
    2 (by show (2 : Nat) < 3; decide) S800000x3 r rfl rfl 3 rfl (ix2 e k)
    (fun b hb => match b with
      | ⟨0, _⟩ => rfl
      | ⟨1, _⟩ => (hb (Fin.ext rfl)).elim)
    rfl

/-- The six columns of an edge whose two gathered coordinate rows are rows `s` and `d` of the coordinate table. -/
theorem sixCols_apply (x3 x4 : FVec Ideal S800000x3 .f32) (ef : FVec Ideal S800000x2 .f32) (C : Tab 50000 3)
    (s d : Fin 50000) (e : Fin 800000) (h3 : ∀ a : Fin 3, x3 (ix2 e a) = C (ix2 s a))
    (h4 : ∀ a : Fin 3, x4 (ix2 e a) = C (ix2 d a)) (k : Fin 6) :
    sixCols x3 x4 ef (ix2 e k)
      = ![radial C s d, ef (ix2 e (0 : Fin 2)), ef (ix2 e (1 : Fin 2)), unit C s d 0, unit C s d 1, unit C s d 2] k := by
  have hd : ∀ a : Fin 3, (subf x3 x4) (ix2 e a) = diff C s d a := fun a => by
    rw [subf_apply, h3, h4]; rfl
  have hr : sqLen (subf x3 x4) (ix2 e (0 : Fin 1)) = radial C s d := by
    rw [sqLen_apply]; unfold radial
    exact Finset.sum_congr rfl fun a _ => by rw [hd a]
  have hu : ∀ a : Fin 3, Host.divf (subf x3 x4) (denom (sqLen (subf x3 x4))) (ix2 e a) = unit C s d a := fun a => by
    rw [hostDivf_apply, hd, denom_apply, hr]; rfl
  unfold sixCols
  match k with
  | ⟨0, _⟩ => exact (cat3_apply0 _ _ _ e).trans hr
  | ⟨1, _⟩ => exact cat3_apply1 _ _ _ e (0 : Fin 2)
  | ⟨2, _⟩ => exact cat3_apply1 _ _ _ e (1 : Fin 2)
  | ⟨3, _⟩ => exact (cat3_apply2 _ _ _ e (0 : Fin 3)).trans (hu 0)
  | ⟨4, _⟩ => exact (cat3_apply2 _ _ _ e (1 : Fin 3)).trans (hu 1)
  | ⟨5, _⟩ => exact (cat3_apply2 _ _ _ e (2 : Fin 3)).trans (hu 2)

/-! ## Rows appended, rows cut out -/

/-- 2816 rows of the fill value appended under an 800000-row table. -/
theorem pad128_apply (x : FVec Ideal S800000x128 .bf16) (v : FVec Ideal S_ .bf16) (e : Fin 802816) (k : Fin 128) :
    pad S802816x128 ![0, 0] ![2816, 0] ![0, 0] x v pads_S800000x128_S802816x128_028160_000 h_S_ (ix2 e k)
      = if h : e.val < 800000 then x (ix2 ⟨e.val, h⟩ k) else v (Shape.Idx.first h_S_) := by
  by_cases h : e.val < 800000
  · rw [dif_pos h]
    exact pad_apply_of_inside _ _ _ x v pads_S800000x128_S802816x128_028160_000 h_S_ (ix2 e k) (ix2 ⟨e.val, h⟩ k)
      (fun a => match a with
        | ⟨0, _⟩ => by show e.val = 0 + e.val * (0 + 1); omega
        | ⟨1, _⟩ => by show k.val = 0 + k.val * (0 + 1); omega)
  · rw [dif_neg h]
    exact pad_apply_of_not_inside _ _ _ x v pads_S800000x128_S802816x128_028160_000 h_S_ (ix2 e k) (0 : Fin 2)
      (fun hin => h (by
        have h3 : (e.val - 0) / (0 + 1) < 800000 := hin.2.2
        rw [Nat.sub_zero, Nat.zero_add, Nat.div_one] at h3
        exact h3))

theorem pad6_apply (x : FVec Ideal S800000x6 .f32) (v : FVec Ideal S_ .f32) (e : Fin 802816) (k : Fin 6) :
    pad S802816x6 ![0, 0] ![2816, 0] ![0, 0] x v pads_S800000x6_S802816x6_028160_000 h_S_ (ix2 e k)
      = if h : e.val < 800000 then x (ix2 ⟨e.val, h⟩ k) else v (Shape.Idx.first h_S_) := by
  by_cases h : e.val < 800000
  · rw [dif_pos h]
    exact pad_apply_of_inside _ _ _ x v pads_S800000x6_S802816x6_028160_000 h_S_ (ix2 e k) (ix2 ⟨e.val, h⟩ k)
      (fun a => match a with
        | ⟨0, _⟩ => by show e.val = 0 + e.val * (0 + 1); omega
        | ⟨1, _⟩ => by show k.val = 0 + k.val * (0 + 1); omega)
  · rw [dif_neg h]
    exact pad_apply_of_not_inside _ _ _ x v pads_S800000x6_S802816x6_028160_000 h_S_ (ix2 e k) (0 : Fin 2)
      (fun hin => h (by
        have h3 : (e.val - 0) / (0 + 1) < 800000 := hin.2.2
        rw [Nat.sub_zero, Nat.zero_add, Nat.div_one] at h3
        exact h3))

/-- The fill value: the integer zero converted, the real zero. -/
theorem fill_zero (φ : FTy) : (sitofp (F := Ideal) φ (constantI S_ 32 0#32)) (Shape.Idx.first h_S_) = 0 := by
  show ((((0#32 : BitVec 32).toInt : ℤ) : ℝ) : EReal) = 0
  simp

/-- The three row groups of the first edge layer's weight. -/
theorem rows0_eq (x : FVec Ideal S259x128 .f32) :
    extractStridedSlice S128x128 ![0, 0] x slices_S259x128_S128x128_0_0 = rowsFrom 0 128 128 (by decide) x := by
  funext j
  unfold rowsFrom
  exact extractStridedSlice_apply _ x slices_S259x128_S128x128_0_0 j _ (fun a => match a with
    | ⟨0, _⟩ => rfl
    | ⟨1, _⟩ => (Nat.zero_add _).symm)

theorem rows128_eq (x : FVec Ideal S259x128 .f32) :
    extractStridedSlice S128x128 ![128, 0] x slices_S259x128_S128x128_128_0 = rowsFrom 128 128 128 (by decide) x := by
  funext j
  unfold rowsFrom
  exact extractStridedSlice_apply _ x slices_S259x128_S128x128_128_0 j _ (fun a => match a with
    | ⟨0, _⟩ => rfl
    | ⟨1, _⟩ => (Nat.zero_add _).symm)

theorem rows256_eq (x : FVec Ideal S259x128 .f32) :
    extractStridedSlice S3x128 ![256, 0] x slices_S259x128_S3x128_256_0 = rowsFrom 256 3 128 (by decide) x := by
  funext j
  unfold rowsFrom
  exact extractStridedSlice_apply _ x slices_S259x128_S3x128_256_0 j _ (fun a => match a with
    | ⟨0, _⟩ => rfl
    | ⟨1, _⟩ => (Nat.zero_add _).symm)

/-! ## The host stretches before the edge region, buffer by buffer -/

-- a stretch from any contents `W`: each operation's result at its own buffer, every other buffer as it was
local macro "results_loop" : tactic =>
  `(tactic| repeat (first
      | rw [StableHlo.nullary_result] | rw [StableHlo.unary_result] | rw [StableHlo.binary_result]
      | rw [Cert.LibNary3.nary3_result]
      | (rw [StableHlo.nullary_result_ne]; rotate_left; decide)
      | (rw [StableHlo.unary_result_ne]; rotate_left; decide)
      | (rw [StableHlo.binary_result_ne]; rotate_left; decide)
      | (rw [StableHlo.nary_result_ne]; rotate_left; decide)))

section Generic
variable (W : Valuation τ sig (Elt Ideal))

theorem ops5_v14 :
    (StableHlo.after hostOps0_5 W (Proc.devRef .tc main_v14) : S800000x6.Idx → EReal)
      = sixCols (W (Proc.devRef .tc main_v3)) (W (Proc.devRef .tc main_v4)) (W (Proc.devRef .tc main_arg2)) := by
  simp only [StableHlo.after_cons, StableHlo.after_nil]
  rw [StableHlo.nullary_result_ne]; rotate_left; decide
  rw [StableHlo.unary_result_ne]; rotate_left; decide
  rw [StableHlo.unary_result_ne]; rotate_left; decide
  rw [StableHlo.unary_result_ne]; rotate_left; decide
  rw [Cert.LibNary3.nary3_result]
  -- the three operands, each read off the operations before the concatenation
  have key : ∀ (a : FVec Ideal S800000x1 .f32) (b : FVec Ideal S800000x2 .f32) (d : FVec Ideal S800000x3 .f32)
      (p : FVec Ideal S800000x1 .f32) (q : FVec Ideal S800000x2 .f32) (r : FVec Ideal S800000x3 .f32),
      a = p → b = q → d = r →
      (fun u : (k : Fin 3) → ((![main_v8, main_arg2, main_v13] : Fin 3 → Ref sig .tc) k).ty.Contents (Elt Ideal) =>
        (concatenate S800000x6 1 [⟨S800000x1, u 0⟩, ⟨S800000x2, u 1⟩, ⟨S800000x3, u 2⟩]
          concatenates_S800000x1_S800000x2_S800000x3_S800000x6_d1 : S800000x6.Idx → EReal))
        (Fin.cons a (Fin.cons b (Fin.cons d (fun i => i.elim0)))) = cat3 p q r := by
    intro a b d p q r h1 h2 h3; subst h1 h2 h3; rfl
  refine key _ _ _ (sqLen (subf (W (Proc.devRef .tc main_v3)) (W (Proc.devRef .tc main_v4)))) (W (Proc.devRef .tc main_arg2))
    (Host.divf (subf (W (Proc.devRef .tc main_v3)) (W (Proc.devRef .tc main_v4)))
      (denom (sqLen (subf (W (Proc.devRef .tc main_v3)) (W (Proc.devRef .tc main_v4)))))) ?_ ?_ ?_
  · results_loop
    rfl
  · results_loop
  · results_loop
    rfl

theorem ops5_v15 : (StableHlo.after hostOps0_5 W (Proc.devRef .tc main_v15) : S128x128.Idx → EReal)
    = extractStridedSlice S128x128 ![0, 0] (W (Proc.devRef .tc main_arg5) : S259x128.Idx → EReal) slices_S259x128_S128x128_0_0 := by
  simp only [StableHlo.after_cons, StableHlo.after_nil]
  results_loop

theorem ops5_v16 : (StableHlo.after hostOps0_5 W (Proc.devRef .tc main_v16) : S128x128.Idx → EReal)
    = extractStridedSlice S128x128 ![128, 0] (W (Proc.devRef .tc main_arg5) : S259x128.Idx → EReal) slices_S259x128_S128x128_128_0 := by
  simp only [StableHlo.after_cons, StableHlo.after_nil]
  results_loop

theorem ops5_v17 : (StableHlo.after hostOps0_5 W (Proc.devRef .tc main_v17) : S3x128.Idx → EReal)
    = extractStridedSlice S3x128 ![256, 0] (W (Proc.devRef .tc main_arg5) : S259x128.Idx → EReal) slices_S259x128_S3x128_256_0 := by
  simp only [StableHlo.after_cons, StableHlo.after_nil]
  results_loop

theorem ops5_c : (StableHlo.after hostOps0_5 W (Proc.devRef .tc main_c) : S_.Idx → BitVec 32) = constantI S_ 32 0#32 := by
  simp only [StableHlo.after_cons, StableHlo.after_nil]
  results_loop

theorem ops7_c : (StableHlo.after hostOps0_7 W (Proc.devRef .tc main_c_1) : S_.Idx → BitVec 32) = constantI S_ 32 0#32 := by
  simp only [StableHlo.after_cons, StableHlo.after_nil]
  results_loop

theorem ops9_c : (StableHlo.after hostOps0_9 W (Proc.devRef .tc main_c_2) : S_.Idx → BitVec 32) = constantI S_ 32 0#32 := by
  simp only [StableHlo.after_cons, StableHlo.after_nil]
  results_loop

theorem ops6_v18 : (StableHlo.after hostOps0_6 W (Proc.devRef .tc main_v18) : S802816x128.Idx → EReal)
    = pad S802816x128 ![0, 0] ![2816, 0] ![0, 0] (W (Proc.devRef .tc main_v1) : S800000x128.Idx → EReal)
        (sitofp (F := Ideal) .bf16 (W (Proc.devRef .tc main_c) : S_.Idx → BitVec 32)) pads_S800000x128_S802816x128_028160_000 h_S_ := by
  simp only [StableHlo.after_cons, StableHlo.after_nil]
  results_loop
  rfl

theorem ops8_v19 : (StableHlo.after hostOps0_8 W (Proc.devRef .tc main_v19) : S802816x128.Idx → EReal)
    = pad S802816x128 ![0, 0] ![2816, 0] ![0, 0] (W (Proc.devRef .tc main_v2) : S800000x128.Idx → EReal)
        (sitofp (F := Ideal) .bf16 (W (Proc.devRef .tc main_c_1) : S_.Idx → BitVec 32)) pads_S800000x128_S802816x128_028160_000 h_S_ := by
  simp only [StableHlo.after_cons, StableHlo.after_nil]
  results_loop
  rfl

theorem ops10_v20 : (StableHlo.after hostOps0_10 W (Proc.devRef .tc main_v20) : S802816x6.Idx → EReal)
    = pad S802816x6 ![0, 0] ![2816, 0] ![0, 0] (W (Proc.devRef .tc main_v14) : S800000x6.Idx → EReal)
        (sitofp (F := Ideal) .f32 (W (Proc.devRef .tc main_c_2) : S_.Idx → BitVec 32)) pads_S800000x6_S802816x6_028160_000 h_S_ := by
  simp only [StableHlo.after_cons, StableHlo.after_nil]
  results_loop
  rfl

end Generic

/-- The node features rounded to bf16 are the node features. -/
theorem v0_eq : (V1 m c main_v0 : S50000x128.Idx → EReal) = aX m c := by
  show StableHlo.after hostOps0 (V0 m c) (Proc.devRef .tc main_v0) = _
  after_results
  rfl

/-- The source rows of the node features. -/
theorem v1_apply (e : Fin 800000) (k : Fin 128) :
    (V2 m c main_v1 : S800000x128.Idx → EReal) (ix2 e k) = aX m c (ix2 (row (aSrc m c (ix1 e))) k) := by
  have h : (V2 m c main_v1 : S800000x128.Idx → EReal)
      = Host.gather gather_S50000x128_S800000x1_S800000x128_1_0_n_n_0_1_1128 (V1 m c main_v0 : S50000x128.Idx → EReal)
          (broadcastInDim S800000x1 ![0] bcast_S800000_S800000x1_0 (V1 m c main_arg3 : S800000.Idx → BitVec 32)) := by
    show StableHlo.after hostOps0_1 (V1 m c) (Proc.devRef .tc main_v1) = _
    after_results
    rfl
  rw [h]
  refine (take128_apply _ _ e k).trans ?_
  rw [v0_eq, V1_of m c main_arg3 (by decide)]

/-- The destination rows of the node features. -/
theorem v2_apply (e : Fin 800000) (k : Fin 128) :
    (V3 m c main_v2 : S800000x128.Idx → EReal) (ix2 e k) = aX m c (ix2 (row (aDst m c (ix1 e))) k) := by
  have h : (V3 m c main_v2 : S800000x128.Idx → EReal)
      = Host.gather gather_S50000x128_S800000x1_S800000x128_1_0_n_n_0_1_1128 (V2 m c main_v0 : S50000x128.Idx → EReal)
          (broadcastInDim S800000x1 ![0] bcast_S800000_S800000x1_0 (V2 m c main_arg4 : S800000.Idx → BitVec 32)) := by
    show StableHlo.after hostOps0_2 (V2 m c) (Proc.devRef .tc main_v2) = _
    after_results
    rfl
  rw [h]
  refine (take128_apply _ _ e k).trans ?_
  rw [V2_of m c main_v0 (by decide), v0_eq, (V2_of m c main_arg4 (by decide)).trans <| (V1_of m c main_arg4 (by decide))]

/-- The source rows of the coordinates. -/
theorem v3_apply (e : Fin 800000) (k : Fin 3) :
    (V4 m c main_v3 : S800000x3.Idx → EReal) (ix2 e k) = aC m c (ix2 (row (aSrc m c (ix1 e))) k) := by
  have h : (V4 m c main_v3 : S800000x3.Idx → EReal)
      = Host.gather gather_S50000x3_S800000x1_S800000x3_1_0_n_n_0_1_13 (V3 m c main_arg1 : S50000x3.Idx → EReal)
          (broadcastInDim S800000x1 ![0] bcast_S800000_S800000x1_0 (V3 m c main_arg3 : S800000.Idx → BitVec 32)) := by
    show StableHlo.after hostOps0_3 (V3 m c) (Proc.devRef .tc main_v3) = _
    after_results
    rfl
  rw [h]
  refine (take3_apply _ _ e k).trans ?_
  rw [(V3_of m c main_arg1 (by decide)).trans <| (V2_of m c main_arg1 (by decide)).trans <| (V1_of m c main_arg1 (by decide)), (V3_of m c main_arg3 (by decide)).trans <| (V2_of m c main_arg3 (by decide)).trans <| (V1_of m c main_arg3 (by decide))]

/-- The destination rows of the coordinates. -/
theorem v4_apply (e : Fin 800000) (k : Fin 3) :
    (V5 m c main_v4 : S800000x3.Idx → EReal) (ix2 e k) = aC m c (ix2 (row (aDst m c (ix1 e))) k) := by
  have h : (V5 m c main_v4 : S800000x3.Idx → EReal)
      = Host.gather gather_S50000x3_S800000x1_S800000x3_1_0_n_n_0_1_13 (V4 m c main_arg1 : S50000x3.Idx → EReal)
          (broadcastInDim S800000x1 ![0] bcast_S800000_S800000x1_0 (V4 m c main_arg4 : S800000.Idx → BitVec 32)) := by
    show StableHlo.after hostOps0_4 (V4 m c) (Proc.devRef .tc main_v4) = _
    after_results
    rfl
  rw [h]
  refine (take3_apply _ _ e k).trans ?_
  rw [(V4_of m c main_arg1 (by decide)).trans <| (V3_of m c main_arg1 (by decide)).trans <| (V2_of m c main_arg1 (by decide)).trans <| (V1_of m c main_arg1 (by decide)), (V4_of m c main_arg4 (by decide)).trans <| (V3_of m c main_arg4 (by decide)).trans <| (V2_of m c main_arg4 (by decide)).trans <| (V1_of m c main_arg4 (by decide))]

/-- The six per-edge scalars of edge `e`. -/
theorem v14_apply (e : Fin 800000) (k : Fin 6) :
    (V6 m c main_v14 : S800000x6.Idx → EReal) (ix2 e k) = meta6 (aC m c) (aEF m c) (aSrc m c) (aDst m c) e k := by
  rw [show (V6 m c main_v14 : S800000x6.Idx → EReal) = _ from ops5_v14 (V5 m c)]
  refine (sixCols_apply _ _ _ (aC m c) (row (aSrc m c (ix1 e))) (row (aDst m c (ix1 e))) e
    (fun a => by rw [V5_of m c main_v3 (by decide)]; exact v3_apply m c e a)
    (fun a => v4_apply m c e a) k).trans ?_
  rw [(V5_of m c main_arg2 (by decide)).trans <| (V4_of m c main_arg2 (by decide)).trans <| (V3_of m c main_arg2 (by decide)).trans <| (V2_of m c main_arg2 (by decide)).trans <| (V1_of m c main_arg2 (by decide))]
  rfl

/-! ### The padded edge arrays the region reads -/

/-- Row `e` of the padded source features: the source row of edge `e`, zero past the last edge. -/
theorem v18_apply (e : Fin 802816) (k : Fin 128) :
    (V11 m c main_v18 : S802816x128.Idx → EReal) (ix2 e k)
      = if h : e.val < 800000 then aX m c (ix2 (row (aSrc m c (ix1 ⟨e.val, h⟩))) k) else 0 := by
  rw [show V11 m c main_v18 = V7 m c main_v18 from (V11_of m c main_v18 (by decide)).trans <| (V10_of m c main_v18 (by decide)).trans <| (V9_of m c main_v18 (by decide)).trans <| (V8_of m c main_v18 (by decide))]
  rw [show (V7 m c main_v18 : S802816x128.Idx → EReal) = _ from ops6_v18 (V6 m c)]
  refine (pad128_apply _ _ e k).trans ?_
  by_cases he : e.val < 800000
  · rw [dif_pos he, dif_pos he, (V6_of m c main_v1 (by decide)).trans <| (V5_of m c main_v1 (by decide)).trans <| (V4_of m c main_v1 (by decide)).trans <| (V3_of m c main_v1 (by decide))]
    exact v1_apply m c ⟨e.val, he⟩ k
  · rw [dif_neg he, dif_neg he, show (V6 m c main_c : S_.Idx → BitVec 32) = _ from ops5_c (V5 m c)]
    exact fill_zero .bf16

/-- Row `e` of the padded destination features. -/
theorem v19_apply (e : Fin 802816) (k : Fin 128) :
    (V11 m c main_v19 : S802816x128.Idx → EReal) (ix2 e k)
      = if h : e.val < 800000 then aX m c (ix2 (row (aDst m c (ix1 ⟨e.val, h⟩))) k) else 0 := by
  rw [show V11 m c main_v19 = V9 m c main_v19 from (V11_of m c main_v19 (by decide)).trans <| (V10_of m c main_v19 (by decide))]
  rw [show (V9 m c main_v19 : S802816x128.Idx → EReal) = _ from ops8_v19 (V8 m c)]
  refine (pad128_apply _ _ e k).trans ?_
  by_cases he : e.val < 800000
  · rw [dif_pos he, dif_pos he, (V8_of m c main_v2 (by decide)).trans <| (V7_of m c main_v2 (by decide)).trans <| (V6_of m c main_v2 (by decide)).trans <| (V5_of m c main_v2 (by decide)).trans <| (V4_of m c main_v2 (by decide))]
    exact v2_apply m c ⟨e.val, he⟩ k
  · rw [dif_neg he, dif_neg he, show (V8 m c main_c_1 : S_.Idx → BitVec 32) = _ from ops7_c (V7 m c)]
    exact fill_zero .bf16

/-- Row `e` of the padded per-edge scalars. -/
theorem v20_apply (e : Fin 802816) (k : Fin 6) :
    (V11 m c main_v20 : S802816x6.Idx → EReal) (ix2 e k)
      = if h : e.val < 800000 then meta6 (aC m c) (aEF m c) (aSrc m c) (aDst m c) ⟨e.val, h⟩ k else 0 := by
  rw [show (V11 m c main_v20 : S802816x6.Idx → EReal) = _ from ops10_v20 (V10 m c)]
  refine (pad6_apply _ _ e k).trans ?_
  by_cases he : e.val < 800000
  · rw [dif_pos he, dif_pos he, (V10_of m c main_v14 (by decide)).trans <| (V9_of m c main_v14 (by decide)).trans <| (V8_of m c main_v14 (by decide)).trans <| (V7_of m c main_v14 (by decide))]
    exact v14_apply m c ⟨e.val, he⟩ k
  · rw [dif_neg he, dif_neg he, show (V10 m c main_c_2 : S_.Idx → BitVec 32) = _ from ops9_c (V9 m c)]
    exact fill_zero .f32

/-! ### The three row groups of the first edge layer's weight -/

theorem v15_eq : (V11 m c main_v15 : S128x128.Idx → EReal) = rowsFrom 0 128 128 (by decide) (aW1 m c) := by
  rw [show V11 m c main_v15 = V6 m c main_v15 from (V11_of m c main_v15 (by decide)).trans <| (V10_of m c main_v15 (by decide)).trans <| (V9_of m c main_v15 (by decide)).trans <| (V8_of m c main_v15 (by decide)).trans <| (V7_of m c main_v15 (by decide))]
  rw [show (V6 m c main_v15 : S128x128.Idx → EReal) = _ from ops5_v15 (V5 m c)]
  rw [rows0_eq, (V5_of m c main_arg5 (by decide)).trans <| (V4_of m c main_arg5 (by decide)).trans <| (V3_of m c main_arg5 (by decide)).trans <| (V2_of m c main_arg5 (by decide)).trans <| (V1_of m c main_arg5 (by decide))]

theorem v16_eq : (V11 m c main_v16 : S128x128.Idx → EReal) = rowsFrom 128 128 128 (by decide) (aW1 m c) := by
  rw [show V11 m c main_v16 = V6 m c main_v16 from (V11_of m c main_v16 (by decide)).trans <| (V10_of m c main_v16 (by decide)).trans <| (V9_of m c main_v16 (by decide)).trans <| (V8_of m c main_v16 (by decide)).trans <| (V7_of m c main_v16 (by decide))]
  rw [show (V6 m c main_v16 : S128x128.Idx → EReal) = _ from ops5_v16 (V5 m c)]
  rw [rows128_eq, (V5_of m c main_arg5 (by decide)).trans <| (V4_of m c main_arg5 (by decide)).trans <| (V3_of m c main_arg5 (by decide)).trans <| (V2_of m c main_arg5 (by decide)).trans <| (V1_of m c main_arg5 (by decide))]

theorem v17_eq : (V11 m c main_v17 : S3x128.Idx → EReal) = rowsFrom 256 3 128 (by decide) (aW1 m c) := by
  rw [show V11 m c main_v17 = V6 m c main_v17 from (V11_of m c main_v17 (by decide)).trans <| (V10_of m c main_v17 (by decide)).trans <| (V9_of m c main_v17 (by decide)).trans <| (V8_of m c main_v17 (by decide)).trans <| (V7_of m c main_v17 (by decide))]
  rw [show (V6 m c main_v17 : S3x128.Idx → EReal) = _ from ops5_v17 (V5 m c)]
  rw [rows256_eq, (V5_of m c main_arg5 (by decide)).trans <| (V4_of m c main_arg5 (by decide)).trans <| (V3_of m c main_arg5 (by decide)).trans <| (V2_of m c main_arg5 (by decide)).trans <| (V1_of m c main_arg5 (by decide))]

/-! ### The arguments the regions read whole reach the edge region as launched -/
theorem v11_arg6 : V11 m c main_arg6 = m ((c : Thread nD τ).loc main_arg6) :=
  (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))

theorem v11_arg7 : V11 m c main_arg7 = m ((c : Thread nD τ).loc main_arg7) :=
  (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))

theorem v11_arg8 : V11 m c main_arg8 = m ((c : Thread nD τ).loc main_arg8) :=
  (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))

theorem v11_arg13 : V11 m c main_arg13 = m ((c : Thread nD τ).loc main_arg13) :=
  (V11_of m c main_arg13 (by decide)).trans <| (V10_of m c main_arg13 (by decide)).trans <| (V9_of m c main_arg13 (by decide)).trans <| (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide))

theorem v11_arg14 : V11 m c main_arg14 = m ((c : Thread nD τ).loc main_arg14) :=
  (V11_of m c main_arg14 (by decide)).trans <| (V10_of m c main_arg14 (by decide)).trans <| (V9_of m c main_arg14 (by decide)).trans <| (V8_of m c main_arg14 (by decide)).trans <| (V7_of m c main_arg14 (by decide)).trans <| (V6_of m c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide))

theorem v11_arg15 : V11 m c main_arg15 = m ((c : Thread nD τ).loc main_arg15) :=
  (V11_of m c main_arg15 (by decide)).trans <| (V10_of m c main_arg15 (by decide)).trans <| (V9_of m c main_arg15 (by decide)).trans <| (V8_of m c main_arg15 (by decide)).trans <| (V7_of m c main_arg15 (by decide)).trans <| (V6_of m c main_arg15 (by decide)).trans <| (V5_of m c main_arg15 (by decide)).trans <| (V4_of m c main_arg15 (by decide)).trans <| (V3_of m c main_arg15 (by decide)).trans <| (V2_of m c main_arg15 (by decide)).trans <| (V1_of m c main_arg15 (by decide))

end Cert.KernelIdeal.HostPre

end
-- ==== Proof.LibScatterIdx.lean ====
/-
  Where an update of a scatter lands. For update index `j` the result index is, on every operand axis, the start read
  off the scatter indices plus the window coordinate, and the update is dropped when that leaves the operand on some
  axis. So the update lands on a given operand index `i` exactly when start plus window equals `i`'s coordinate on
  every axis: no separate range condition is needed, because `i` is itself inside the operand.
-/
import Idealize.ShloMosaic.PureOps.Dims

namespace Cert.Lib.ScatterIdx

open Idealize.ShloMosaic

/-- An update lands on `i` iff on every axis its start plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    by_cases hin : ∀ a, 0 ≤ d.start j idx a + d.window j a ∧ d.start j idx a + d.window j a < s.size a
    · rw [dif_pos hin] at h
      intro a
      have ha := congrArg Fin.val (congrFun (Option.some.inj h) a)
      have h0 := (hin a).1
      simp only at ha
      omega
    · rw [dif_neg hin] at h
      cases h
  · intro h
    have hin : ∀ a, 0 ≤ d.start j idx a + d.window j a ∧ d.start j idx a + d.window j a < s.size a := by
      intro a
      have := h a
      have := (i a).isLt
      constructor <;> omega
    rw [dif_pos hin]
    congr 1
    funext a
    apply Fin.ext
    have := h a
    simp only
    omega

end Cert.Lib.ScatterIdx
-- ==== Proof.LibScatterRows.lean ====
/-
  The host's accumulating float scatter read at an index, for the two layouts in which a list of M indices is carried as
  a column [M, 1]: rows of an [N, D] table, and entries of an [N] vector. An update lands on an operand index exactly
  when its start (the index word read signed, not clamped) plus its window coordinate is that index on every axis; so
  the sum over update indices that land on a given element is, through the bijection between update indices with a fixed
  window coordinate and the M list positions, the sum over the positions whose index word names that row.
-/
import Idealize.ShloMosaic.Lib.ValueIdx
import Idealize.ShloMosaic.PureOps.Contract
import proofs.«425882_j23055384445177_3_alg».proof.Proof.LibScatterIdx

noncomputable section

namespace Cert.LibScatterRows

open Idealize.ShloMosaic Idealize.ShloMosaic.ValueIdx
open scoped BigOperators

/-- Rows of an [N, D] table accumulated at M row indices carried as a column [M, 1]: update window axis 1, inserted axis 0, scatter axis 0, index vector axis 1. -/
abbrev rowDims (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Axis 0 of the table is the scatter axis: the start there is the index word of the update's row, read signed. -/
private theorem row_start0 {N D M w : Nat}
    (wf : ScatterDims.WF ⟨2, ![N, D]⟩ ⟨2, ![M, 1]⟩ ⟨2, ![M, D]⟩ [1] [0] [0] 1)
    (idx : IVec ⟨2, ![M, 1]⟩ w) (e : Fin M) (k' : Fin D) :
    (rowDims N D M wf).start (ix2 e k') idx (0 : Fin 2) = (idx (ix2 e (0 : Fin 1))).toInt := by
  unfold ScatterDims.start
  rw [dif_pos (show (0 : Fin 2) ∈ (rowDims N D M wf).scatterDimsToOperandDims from List.mem_singleton.mpr rfl)]
  have hsi : (rowDims N D M wf).siIdx (ix2 e k') ⟨List.idxOf (0 : Fin 2) (rowDims N D M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 of the table is not a scatter axis: the start there is 0. -/
private theorem row_start1 {N D M w : Nat}
    (wf : ScatterDims.WF ⟨2, ![N, D]⟩ ⟨2, ![M, 1]⟩ ⟨2, ![M, D]⟩ [1] [0] [0] 1)
    (idx : IVec ⟨2, ![M, 1]⟩ w) (j : (⟨2, ![M, D]⟩ : Shape).Idx) :
    (rowDims N D M wf).start j idx (1 : Fin 2) = 0 := by
  unfold ScatterDims.start
  rw [dif_neg (show (1 : Fin 2) ∉ (rowDims N D M wf).scatterDimsToOperandDims from
    fun h => Nat.one_ne_zero (congrArg Fin.val (List.mem_singleton.mp h)))]

/-- Axis 0 of the table is an inserted axis: the window coordinate there is 0. -/
private theorem row_window0 {N D M : Nat}
    (wf : ScatterDims.WF ⟨2, ![N, D]⟩ ⟨2, ![M, 1]⟩ ⟨2, ![M, D]⟩ [1] [0] [0] 1)
    (j : (⟨2, ![M, D]⟩ : Shape).Idx) :
    (rowDims N D M wf).window j (0 : Fin 2) = 0 := by
  unfold ScatterDims.window
  rw [dif_neg (show (0 : Fin 2) ∉ (rowDims N D M wf).sKept from
    fun h => (of_decide_eq_true (List.mem_filter.mp h).2) (List.mem_singleton.mpr rfl))]

/-- Axis 1 of the table takes the update's window axis: the window coordinate there is the update's column. -/
private theorem row_window1 {N D M : Nat}
    (wf : ScatterDims.WF ⟨2, ![N, D]⟩ ⟨2, ![M, 1]⟩ ⟨2, ![M, D]⟩ [1] [0] [0] 1)
    (j : (⟨2, ![M, D]⟩ : Shape).Idx) :
    (rowDims N D M wf).window j (1 : Fin 2) = (j 1).val := by
  unfold ScatterDims.window
  rw [dif_pos (show (1 : Fin 2) ∈ (rowDims N D M wf).sKept from List.mem_filter.mpr ⟨List.mem_finRange _,
    decide_eq_true (fun h => Nat.one_ne_zero (congrArg Fin.val (List.mem_singleton.mp h)))⟩)]
  rfl

/-- An update (e, k') lands on the table's element (n, k) exactly when its index word names row n and k' is k. -/
private theorem row_lands_iff {N D M w : Nat}
    (wf : ScatterDims.WF ⟨2, ![N, D]⟩ ⟨2, ![M, 1]⟩ ⟨2, ![M, D]⟩ [1] [0] [0] 1)
    (idx : IVec ⟨2, ![M, 1]⟩ w) (e : Fin M) (k' : Fin D) (n : Fin N) (k : Fin D) :
    (rowDims N D M wf).resultIdx? (ix2 e k') idx = some (ix2 n k)
      ↔ (idx (ix2 e (0 : Fin 1))).toInt = (n.val : Int) ∧ k' = k := by
  rw [Cert.Lib.ScatterIdx.resultIdx?_eq_some_iff]
  constructor
  · intro h
    have h0 := h (0 : Fin 2)
    have h1 := h (1 : Fin 2)
    rw [row_start0, row_window0] at h0
    rw [row_start1, row_window1] at h1
    refine ⟨?_, Fin.ext ?_⟩
    · have h0' : (idx (ix2 e (0 : Fin 1))).toInt + ((0 : Nat) : Int) = (n.val : Int) := h0
      omega
    · have h1' : (0 : Int) + (k'.val : Int) = (k.val : Int) := h1
      omega
  · rintro ⟨h0, rfl⟩ a
    match a with
    | ⟨0, _⟩ =>
      show (rowDims N D M wf).start (ix2 e k') idx (0 : Fin 2) + ((rowDims N D M wf).window (ix2 e k') (0 : Fin 2) : Int) = _
      rw [row_start0, row_window0, h0]
      show (n.val : Int) + ((0 : Nat) : Int) = (n.val : Int)
      omega
    | ⟨1, _⟩ =>
      show (rowDims N D M wf).start (ix2 e k') idx (1 : Fin 2) + ((rowDims N D M wf).window (ix2 e k') (1 : Fin 2) : Int) = _
      rw [row_start1, row_window1]
      show (0 : Int) + (k'.val : Int) = (k'.val : Int)
      omega

theorem scatterAdd_rows_apply {N D M w : Nat} {φ : FTy}
    (wf : ScatterDims.WF ⟨2, ![N, D]⟩ ⟨2, ![M, 1]⟩ ⟨2, ![M, D]⟩ [1] [0] [0] 1)
    (x : FVec Ideal ⟨2, ![N, D]⟩ φ) (idx : IVec ⟨2, ![M, 1]⟩ w) (upd : FVec Ideal ⟨2, ![M, D]⟩ φ) (n : Fin N) (k : Fin D) :
    Host.scatterAdd (rowDims N D M wf) x idx upd (ix2 n k)
      = x (ix2 n k) + ∑ e ∈ Finset.univ.filter (fun e : Fin M => (idx (ix2 e (0 : Fin 1))).toInt = (n.val : Int)), upd (ix2 e k) := by
  show x (ix2 n k) + ∑ j ∈ Finset.univ.filter (fun j => (rowDims N D M wf).resultIdx? j idx = some (ix2 n k)), upd j = _
  congr 1
  refine Finset.sum_nbij' (fun j => j 0) (fun e => ix2 e k) ?_ ?_ ?_ ?_ ?_
  · intro j hj
    obtain ⟨e, k', rfl⟩ : ∃ e k', j = ix2 e k' := ⟨j 0, j 1, eq_ix2 j⟩
    have := (row_lands_iff wf idx e k' n k).mp (Finset.mem_filter.mp hj).2
    exact Finset.mem_filter.mpr ⟨Finset.mem_univ _, this.1⟩
  · intro e he
    exact Finset.mem_filter.mpr ⟨Finset.mem_univ _,
      (row_lands_iff wf idx e k n k).mpr ⟨(Finset.mem_filter.mp he).2, rfl⟩⟩
  · intro j hj
    obtain ⟨e, k', rfl⟩ : ∃ e k', j = ix2 e k' := ⟨j 0, j 1, eq_ix2 j⟩
    obtain ⟨_, rfl⟩ := (row_lands_iff wf idx e k' n k).mp (Finset.mem_filter.mp hj).2
    rfl
  · intro e _
    rfl
  · intro j hj
    obtain ⟨e, k', rfl⟩ : ∃ e k', j = ix2 e k' := ⟨j 0, j 1, eq_ix2 j⟩
    obtain ⟨_, rfl⟩ := (row_lands_iff wf idx e k' n k).mp (Finset.mem_filter.mp hj).2
    rfl

/-- Entries of an [N] vector accumulated at M indices carried as a column [M, 1], the updates an [M] vector: no window axis, inserted axis 0, scatter axis 0, index vector axis 1. -/
abbrev vecDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The vector's one axis is the scatter axis: the start there is the index word of the update's position, read signed. -/
private theorem vec_start0 {N M w : Nat}
    (wf : ScatterDims.WF ⟨1, ![N]⟩ ⟨2, ![M, 1]⟩ ⟨1, ![M]⟩ [] [0] [0] 1)
    (idx : IVec ⟨2, ![M, 1]⟩ w) (e : Fin M) :
    (vecDims N M wf).start (ix1 e) idx (0 : Fin 1) = (idx (ix2 e (0 : Fin 1))).toInt := by
  unfold ScatterDims.start
  rw [dif_pos (show (0 : Fin 1) ∈ (vecDims N M wf).scatterDimsToOperandDims from List.mem_singleton.mpr rfl)]
  have hsi : (vecDims N M wf).siIdx (ix1 e) ⟨List.idxOf (0 : Fin 1) (vecDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The vector's one axis is an inserted axis: the window coordinate there is 0. -/
private theorem vec_window0 {N M : Nat}
    (wf : ScatterDims.WF ⟨1, ![N]⟩ ⟨2, ![M, 1]⟩ ⟨1, ![M]⟩ [] [0] [0] 1)
    (j : (⟨1, ![M]⟩ : Shape).Idx) :
    (vecDims N M wf).window j (0 : Fin 1) = 0 := by
  unfold ScatterDims.window
  rw [dif_neg (show (0 : Fin 1) ∉ (vecDims N M wf).sKept from
    fun h => (of_decide_eq_true (List.mem_filter.mp h).2) (List.mem_singleton.mpr rfl))]

/-- The update at position e lands on the vector's entry n exactly when its index word names n. -/
private theorem vec_lands_iff {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (vecDims N M wf).resultIdx? (ix1 e) idx = some (ix1 n)
      ↔ (idx (ix2 e (0 : Fin 1))).toInt = (n.val : Int) := by
  rw [Cert.Lib.ScatterIdx.resultIdx?_eq_some_iff]
  constructor
  · intro h
    have h0 := h (0 : Fin 1)
    rw [vec_start0, vec_window0] at h0
    have h0' : (idx (ix2 e (0 : Fin 1))).toInt + ((0 : Nat) : Int) = (n.val : Int) := h0
    omega
  · intro h0 a
    match a with
    | ⟨0, _⟩ =>
      show (vecDims N M wf).start (ix1 e) idx (0 : Fin 1) + ((vecDims N M wf).window (ix1 e) (0 : Fin 1) : Int) = _
      rw [vec_start0, vec_window0, h0]
      show (n.val : Int) + ((0 : Nat) : Int) = (n.val : Int)
      omega

theorem scatterAdd_vec_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (n : Fin N) :
    Host.scatterAdd (vecDims N M wf) x idx upd (ix1 n)
      = x (ix1 n) + ∑ e ∈ Finset.univ.filter (fun e : Fin M => (idx (ix2 e (0 : Fin 1))).toInt = (n.val : Int)), upd (ix1 e) := by
  show x (ix1 n) + ∑ j ∈ Finset.univ.filter (fun j => (vecDims N M wf).resultIdx? j idx = some (ix1 n)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    exact Finset.mem_filter.mpr ⟨Finset.mem_univ _, (vec_lands_iff wf idx e n).mp (Finset.mem_filter.mp hj).2⟩
  · intro e he
    exact Finset.mem_filter.mpr ⟨Finset.mem_univ _, (vec_lands_iff wf idx e n).mpr (Finset.mem_filter.mp he).2⟩
  · intro j _
    exact (eq_ix1 j).symm
  · intro e _
    rfl
  · intro j _
    exact congrArg upd (eq_ix1 j)

end Cert.LibScatterRows

end
-- ==== Proof.KernelHostPost.lean ====
/-
  The host operations that follow the edge kernel, read at an index over the extended reals.

  The destination words are padded from 800000 to 802816 entries with the word 50000, which names no row of a
  50000-row table. Three accumulating scatters at that padded column, each starting from zero, sum per node the edge
  kernel's message rows, its coordinate rows, and the constant one. The coordinate sums are divided by the larger of the
  count and one and added to the coordinates. A padded entry is never counted, so each sum over the 802816 padded
  positions is the sum over the edges whose destination word is the node's number.
-/
import proofs.«425882_j23055384445177_3_alg».proof.Proof.Gen.KernelIdeal.Regions
import proofs.«425882_j23055384445177_3_alg».proof.Proof.Spec
import proofs.«425882_j23055384445177_3_alg».proof.Proof.LibScatterRows
import Idealize.ShloMosaic.Lib.StableHlo.Run
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws

noncomputable section

namespace Cert.KernelIdeal.HostPost

open Cert.KernelIdeal Cert.KernelIdeal.Gen Cert.Egnn Idealize.ShloMosaic Idealize.ShloMosaic.ValueIdx
open Idealize.ShloMosaic.TcCoe
open scoped BigOperators

/-! ## Each stretch of host operations over an arbitrary valuation

A stretch is a function of the valuation it starts from; its results are read here for an arbitrary starting valuation. -/

section Stretches

variable (V : Valuation τ sig (Elt Ideal))

/-- The padding word. -/
theorem word_stretch :
    (StableHlo.after (hostOps1 (F := Ideal)) V (Proc.devRef .tc main_c_3) : S_.Idx → BitVec 32)
      = constantI S_ 32 50000#32 := by
  after_results

/-- The padding call: its first operand padded with its second. -/
theorem pad_stretch :
    (StableHlo.after (hostOps1_1 (F := Ideal)) V (Proc.devRef .tc main_v22) : S802816.Idx → BitVec 32)
      = pad S802816 ![0] ![2816] ![0] (V main_arg4 : S800000.Idx → BitVec 32) (V main_c_3 : S_.Idx → BitVec 32)
          pads_S800000_S802816_028160 h_S_ := by
  after_results
  rfl

/-- The summed message rows. -/
theorem msg_stretch :
    (StableHlo.after (hostOps1_2 (F := Ideal)) V (Proc.devRef .tc main_v26) : S50000x128.Idx → EReal)
      = Host.scatterAdd (F := Ideal) scatter_S50000x128_S802816x1_S802816x128_1_0_0_1
          (broadcastInDim S50000x128 ![] bcast_S_S50000x128 (constant (F := Ideal) S_ .f32 0x00000000#32))
          (broadcastInDim S802816x1 ![0] bcast_S802816_S802816x1_0 (V main_v22 : S802816.Idx → BitVec 32))
          (V main_v21_0 : S802816x128.Idx → EReal) := by
  after_results

/-- The averaged coordinate rows: the coordinate sums over the count raised to at least one, the count spread along
    the three coordinates. -/
theorem avg_stretch :
    (StableHlo.after (hostOps1_2 (F := Ideal)) V (Proc.devRef .tc main_v37) : S50000x3.Idx → EReal)
      = Host.divf (F := Ideal) (s := S50000x3) (φ := .f32)
          (Host.scatterAdd (F := Ideal) scatter_S50000x3_S802816x1_S802816x3_1_0_0_1
            (broadcastInDim S50000x3 ![] bcast_S_S50000x3 (constant (F := Ideal) S_ .f32 0x00000000#32))
            (broadcastInDim S802816x1 ![0] bcast_S802816_S802816x1_0 (V main_v22 : S802816.Idx → BitVec 32))
            (V main_v21_1 : S802816x3.Idx → EReal))
          (broadcastInDim S50000x3 ![0, 1] bcast_S50000x1_S50000x3_0_1
            (broadcastInDim S50000x1 ![0] bcast_S50000_S50000x1_0
              (maximumf (F := Ideal) (s := S50000) (φ := .f32)
                (Host.scatterAdd (F := Ideal) scatter_S50000_S802816x1_S802816_n_0_0_1
                  (broadcastInDim S50000 ![] bcast_S_S50000 (constant (F := Ideal) S_ .f32 0x00000000#32))
                  (broadcastInDim S802816x1 ![0] bcast_S802816_S802816x1_0 (V main_v22 : S802816.Idx → BitVec 32))
                  (broadcastInDim S802816 ![] bcast_S_S802816 (constant (F := Ideal) S_ .f32 0x3F800000#32)))
                (broadcastInDim S50000 ![] bcast_S_S50000 (constant (F := Ideal) S_ .f32 0x3F800000#32))))) := by
  after_results_simp

/-- The last addition. -/
theorem add_stretch :
    (StableHlo.after (hostOps2 (F := Ideal)) V (Proc.devRef .tc main_v39) : S50000x3.Idx → EReal)
      = addf (F := Ideal) (s := S50000x3) (φ := .f32) (V main_arg1) (V main_v37) := by
  after_results

end Stretches

variable (m : (ℓ : Loc nD τ sig) → Buf (Elt Ideal) ℓ) (outs : Outs (F := Ideal)) (c : Dev nD)

/-- The destination words and the coordinates at launch. -/
abbrev aDst : Ids 800000 := m ((c : Thread nD τ).loc main_arg4)
abbrev aC : Tab 50000 3 := m ((c : Thread nD τ).loc main_arg1)

/-- What the edge kernel leaves: the message rows and the coordinate rows of the 802816 padded edges. -/
abbrev msgOut : Tab 802816 128 := outs 12 main_v21_0 c
abbrev crdOut : Tab 802816 3 := outs 12 main_v21_1 c

/-! ## Buffers the items before the scatters leave alone -/

/-- A buffer that nothing up to and including the edge kernel writes holds its launch contents after it. -/
theorem v12_launch (r : Ref sig .tc)
    (h : r ∉ hostOps0_W ∧ r ∉ hostOps0_1_W ∧ r ∉ hostOps0_2_W ∧ r ∉ hostOps0_3_W ∧ r ∉ hostOps0_4_W ∧ r ∉ hostOps0_5_W
      ∧ r ∉ hostOps0_6_W ∧ r ∉ hostOps0_7_W ∧ r ∉ hostOps0_8_W ∧ r ∉ hostOps0_9_W ∧ r ∉ hostOps0_10_W
      ∧ r ∉ ([main_v21_0, main_v21_1] : List (Ref sig .tc))) :
    V12 m outs c r = m ((c : Thread nD τ).loc r) := by
  obtain ⟨h0, h1, h2, h3, h4, h5, h6, h7, h8, h9, h10, h11⟩ := h
  exact (V12_of m outs c r h11).trans <| (V11_of m c r h10).trans <| (V10_of m c r h9).trans <|
    (V9_of m c r h8).trans <| (V8_of m c r h7).trans <| (V7_of m c r h6).trans <| (V6_of m c r h5).trans <|
    (V5_of m c r h4).trans <| (V4_of m c r h3).trans <| (V3_of m c r h2).trans <| (V2_of m c r h1).trans <|
    (V1_of m c r h0).trans rfl

/-- The same through the padding of the destination words and the scatters. -/
theorem v15_launch (r : Ref sig .tc)
    (h : r ∉ hostOps0_W ∧ r ∉ hostOps0_1_W ∧ r ∉ hostOps0_2_W ∧ r ∉ hostOps0_3_W ∧ r ∉ hostOps0_4_W ∧ r ∉ hostOps0_5_W
      ∧ r ∉ hostOps0_6_W ∧ r ∉ hostOps0_7_W ∧ r ∉ hostOps0_8_W ∧ r ∉ hostOps0_9_W ∧ r ∉ hostOps0_10_W
      ∧ r ∉ ([main_v21_0, main_v21_1] : List (Ref sig .tc)))
    (h' : r ∉ hostOps1_W ∧ r ∉ hostOps1_1_W ∧ r ∉ hostOps1_2_W) :
    V15 m outs c r = m ((c : Thread nD τ).loc r) :=
  (V15_of m outs c r h'.2.2).trans <| (V14_of m outs c r h'.2.1).trans <| (V13_of m outs c r h'.1).trans <|
    v12_launch m outs c r h

theorem v15_arg0 : V15 m outs c main_arg0 = m ((c : Thread nD τ).loc main_arg0) :=
  v15_launch m outs c main_arg0 (by decide) (by decide)
theorem v15_arg1 : V15 m outs c main_arg1 = m ((c : Thread nD τ).loc main_arg1) :=
  v15_launch m outs c main_arg1 (by decide) (by decide)
theorem v15_arg9 : V15 m outs c main_arg9 = m ((c : Thread nD τ).loc main_arg9) :=
  v15_launch m outs c main_arg9 (by decide) (by decide)
theorem v15_arg10 : V15 m outs c main_arg10 = m ((c : Thread nD τ).loc main_arg10) :=
  v15_launch m outs c main_arg10 (by decide) (by decide)
theorem v15_arg11 : V15 m outs c main_arg11 = m ((c : Thread nD τ).loc main_arg11) :=
  v15_launch m outs c main_arg11 (by decide) (by decide)
theorem v15_arg12 : V15 m outs c main_arg12 = m ((c : Thread nD τ).loc main_arg12) :=
  v15_launch m outs c main_arg12 (by decide) (by decide)

/-- The node kernel's result is not touched by the last addition. -/
theorem v38_eq : V17 m outs c main_v38 = outs 16 main_v38 c :=
  (V17_of m outs c main_v38 (by decide)).trans (Function.update_self ..)

/-- The edge kernel's two results as the scatters find them. -/
theorem v14_msg : V14 m outs c main_v21_0 = outs 12 main_v21_0 c :=
  (V14_of m outs c main_v21_0 (by decide)).trans <| (V13_of m outs c main_v21_0 (by decide)).trans <|
    (Function.update_of_ne (StableHlo.devRef_ne_of_ne (by decide)) ..).trans (Function.update_self ..)

theorem v14_crd : V14 m outs c main_v21_1 = outs 12 main_v21_1 c :=
  (V14_of m outs c main_v21_1 (by decide)).trans <| (V13_of m outs c main_v21_1 (by decide)).trans
    (Function.update_self ..)

/-! ## The padded destination words -/

/-- The destination words padded to 802816 entries with the word 50000. -/
def dstPad (e : Fin 802816) : BitVec 32 :=
  if h : e.val < 800000 then aDst m c (ix1 ⟨e.val, h⟩) else 50000#32

/-- The positions of the padded column whose word is node `n`'s number. -/
abbrev hit (n : Fin 50000) : Finset (Fin 802816) :=
  Finset.univ.filter fun e => (dstPad m c e).toInt = (n.val : ℤ)

/-- Padding 2816 entries at the high end: below 800000 the operand, from there on the padding word. -/
theorem pad_dst_apply (x : S800000.Idx → BitVec 32) (e : Fin 802816) :
    pad S802816 ![0] ![2816] ![0] x (constantI S_ 32 50000#32) pads_S800000_S802816_028160 h_S_ (ix1 e)
      = if h : e.val < 800000 then x (ix1 ⟨e.val, h⟩) else 50000#32 := by
  by_cases h : e.val < 800000
  · rw [dif_pos h]
    refine pad_apply_of_inside _ _ _ _ _ _ _ (ix1 e) (ix1 ⟨e.val, h⟩) ?_
    intro a
    match a with
    | ⟨0, _⟩ => simp [ix1]
  · rw [dif_neg h]
    refine (pad_apply_of_not_inside _ _ _ _ _ _ _ (ix1 e) (0 : Fin 1) ?_).trans rfl
    rintro ⟨_, _, h3⟩
    apply h
    have h3' : (e.val - 0) / (0 + 1) < 800000 := h3
    omega

/-- What the padding call leaves: the launch's destination words padded with the constant 50000. -/
theorem v14_v22 : (V14 m outs c main_v22 : S802816.Idx → BitVec 32)
    = pad S802816 ![0] ![2816] ![0] (aDst m c : S800000.Idx → BitVec 32) (constantI S_ 32 50000#32)
        pads_S800000_S802816_028160 h_S_ := by
  refine (pad_stretch (V13 m outs c)).trans ?_
  rw [show (V13 m outs c main_c_3 : S_.Idx → BitVec 32) = constantI S_ 32 50000#32 from word_stretch (V12 m outs c),
    show V13 m outs c main_arg4 = m ((c : Thread nD τ).loc main_arg4) from
      (V13_of m outs c main_arg4 (by decide)).trans (v12_launch m outs c main_arg4 (by decide))]

theorem v22_apply (e : Fin 802816) : (V14 m outs c main_v22 : S802816.Idx → BitVec 32) (ix1 e) = dstPad m c e := by
  rw [v14_v22]
  exact pad_dst_apply (aDst m c) e

/-- The padded words as a one-column table, which is how the scatters take them. -/
theorem col_apply (e : Fin 802816) :
    broadcastInDim S802816x1 ![0] bcast_S802816_S802816x1_0 (V14 m outs c main_v22 : S802816.Idx → BitVec 32)
      (ix2 e (0 : Fin 1)) = dstPad m c e := by
  refine (broadcastInDim_apply _ _ _ (ix2 e (0 : Fin 1)) (ix1 e) ?_).trans (v22_apply m outs c e)
  intro a
  match a with
  | ⟨0, _⟩ => simp [ix1, ix2]

/-- The word 50000 read signed is 50000. -/
theorem toInt_pad_word : (50000#32 : BitVec 32).toInt = 50000 := by decide

/-- A sum over the hit positions is the sum over the edges that land on the node: a padded position carries the word
    50000, which is no node's number. -/
theorem sum_hit (f : Fin 802816 → EReal) (n : Fin 50000) :
    ∑ e ∈ hit m c n, f e = ∑ e ∈ lands (aDst m c) n, f ⟨e.val, by have := e.isLt; omega⟩ := by
  refine (Finset.sum_bij (fun (e : Fin 800000) _ => (⟨e.val, by have := e.isLt; omega⟩ : Fin 802816)) ?_ ?_ ?_ ?_).symm
  · intro e he
    refine Finset.mem_filter.mpr ⟨Finset.mem_univ _, ?_⟩
    have h : (dstPad m c ⟨e.val, by have := e.isLt; omega⟩) = aDst m c (ix1 e) := by
      unfold dstPad
      rw [dif_pos (show (⟨e.val, _⟩ : Fin 802816).val < 800000 from e.isLt)]
    rw [h]
    exact (Finset.mem_filter.mp he).2
  · intro e₁ _ e₂ _ h
    exact Fin.ext (Fin.mk.inj h)
  · intro b hb
    have hb' := (Finset.mem_filter.mp hb).2
    by_cases h : b.val < 800000
    · refine ⟨⟨b.val, h⟩, Finset.mem_filter.mpr ⟨Finset.mem_univ _, ?_⟩, rfl⟩
      unfold dstPad at hb'
      rw [dif_pos h] at hb'
      exact hb'
    · exfalso
      unfold dstPad at hb'
      rw [dif_neg h, toInt_pad_word] at hb'
      have := n.isLt
      omega
  · intro e _
    rfl

/-! ## The three scatters -/

/-- The accumulating scatter of 128-wide rows at a one-column table of row words, from a zero start. -/
theorem scatter128_apply (idx : S802816x1.Idx → BitVec 32) (upd : S802816x128.Idx → EReal) (n : Fin 50000) (k : Fin 128) :
    Host.scatterAdd (F := Ideal) scatter_S50000x128_S802816x1_S802816x128_1_0_0_1
        (broadcastInDim S50000x128 ![] bcast_S_S50000x128 (constant (F := Ideal) S_ .f32 0x00000000#32)) idx
        (upd : FVec Ideal S802816x128 .f32) (ix2 n k)
      = ∑ e ∈ Finset.univ.filter (fun e : Fin 802816 => (idx (ix2 e (0 : Fin 1))).toInt = (n.val : ℤ)), upd (ix2 e k) := by
  refine (Cert.LibScatterRows.scatterAdd_rows_apply (φ := .f32)
    scatter_S50000x128_S802816x1_S802816x128_1_0_0_1_wf _ idx upd n k).trans ?_
  rw [broadcastInDim_scalar_apply, constant_apply, Ideal.ofBits_zero_f32, zero_add]

/-- The same for 3-wide rows. -/
theorem scatter3_apply (idx : S802816x1.Idx → BitVec 32) (upd : S802816x3.Idx → EReal) (n : Fin 50000) (a : Fin 3) :
    Host.scatterAdd (F := Ideal) scatter_S50000x3_S802816x1_S802816x3_1_0_0_1
        (broadcastInDim S50000x3 ![] bcast_S_S50000x3 (constant (F := Ideal) S_ .f32 0x00000000#32)) idx
        (upd : FVec Ideal S802816x3 .f32) (ix2 n a)
      = ∑ e ∈ Finset.univ.filter (fun e : Fin 802816 => (idx (ix2 e (0 : Fin 1))).toInt = (n.val : ℤ)), upd (ix2 e a) := by
  refine (Cert.LibScatterRows.scatterAdd_rows_apply (φ := .f32)
    scatter_S50000x3_S802816x1_S802816x3_1_0_0_1_wf _ idx upd n a).trans ?_
  rw [broadcastInDim_scalar_apply, constant_apply, Ideal.ofBits_zero_f32, zero_add]

/-- The same for single entries of a vector. -/
theorem scatter1_apply (idx : S802816x1.Idx → BitVec 32) (upd : S802816.Idx → EReal) (n : Fin 50000) :
    Host.scatterAdd (F := Ideal) scatter_S50000_S802816x1_S802816_n_0_0_1
        (broadcastInDim S50000 ![] bcast_S_S50000 (constant (F := Ideal) S_ .f32 0x00000000#32)) idx
        (upd : FVec Ideal S802816 .f32) (ix1 n)
      = ∑ e ∈ Finset.univ.filter (fun e : Fin 802816 => (idx (ix2 e (0 : Fin 1))).toInt = (n.val : ℤ)), upd (ix1 e) := by
  refine (Cert.LibScatterRows.scatterAdd_vec_apply (φ := .f32)
    scatter_S50000_S802816x1_S802816_n_0_0_1_wf _ idx upd n).trans ?_
  rw [broadcastInDim_scalar_apply, constant_apply, Ideal.ofBits_zero_f32, zero_add]

/-- The filter of a scatter at the padded column is `hit`. -/
theorem filter_col (n : Fin 50000) :
    Finset.univ.filter (fun e : Fin 802816 =>
      (broadcastInDim S802816x1 ![0] bcast_S802816_S802816x1_0 (V14 m outs c main_v22 : S802816.Idx → BitVec 32)
        (ix2 e (0 : Fin 1))).toInt = (n.val : ℤ)) = hit m c n :=
  Finset.filter_congr fun e _ => by rw [col_apply]

/-- The summed messages of node `n`. -/
theorem v26_apply (n : Fin 50000) (k : Fin 128) :
    @Eq EReal ((V15 m outs c main_v26 : S50000x128.Idx → EReal) (ix2 n k))
      (∑ e ∈ hit m c n, msgOut outs c (ix2 e k)) := by
  rw [show (V15 m outs c main_v26 : S50000x128.Idx → EReal) = _ from msg_stretch (V14 m outs c), v14_msg,
    scatter128_apply, filter_col]

/-- A vector spread along a second axis of width 3, read at a point. -/
theorem spread_apply (x : S50000.Idx → EReal) (n : Fin 50000) (a : Fin 3) :
    broadcastInDim S50000x3 ![0, 1] bcast_S50000x1_S50000x3_0_1
      (broadcastInDim S50000x1 ![0] bcast_S50000_S50000x1_0 x) (ix2 n a) = x (ix1 n) := by
  refine (broadcastInDim_apply _ _ _ (ix2 n a) (ix2 n (0 : Fin 1)) ?_).trans
    (broadcastInDim_apply _ _ _ (ix2 n (0 : Fin 1)) (ix1 n) ?_)
  · intro b
    match b with
    | ⟨0, _⟩ => simp [ix2]
    | ⟨1, _⟩ => simp [ix2]
  · intro b
    match b with
    | ⟨0, _⟩ => simp [ix1, ix2]

/-- The averaged coordinate messages of node `n`. -/
theorem v37_apply (n : Fin 50000) (a : Fin 3) :
    @Eq EReal ((V15 m outs c main_v37 : S50000x3.Idx → EReal) (ix2 n a))
      (Ideal.div (∑ e ∈ hit m c n, crdOut outs c (ix2 e a)) (max (∑ _e ∈ hit m c n, Cert.Egnn.one) Cert.Egnn.one)) := by
  rw [show (V15 m outs c main_v37 : S50000x3.Idx → EReal) = _ from avg_stretch (V14 m outs c), v14_crd,
    hostDivf_apply, spread_apply, maximumf_apply, scatter3_apply, scatter1_apply, filter_col,
    broadcastInDim_scalar_apply, constant_apply]
  rfl

/-- The second result: the coordinates plus the averaged coordinate messages. -/
theorem v39_apply (n : Fin 50000) (a : Fin 3) :
    @Eq EReal ((V17 m outs c main_v39 : S50000x3.Idx → EReal) (ix2 n a))
      (aC m c (ix2 n a) + Ideal.div (∑ e ∈ hit m c n, crdOut outs c (ix2 e a))
          (max (∑ _e ∈ hit m c n, Cert.Egnn.one) Cert.Egnn.one)) := by
  rw [show (V17 m outs c main_v39 : S50000x3.Idx → EReal) = _ from add_stretch (V16 m outs c), addf_apply,
    show V16 m outs c main_v37 = V15 m outs c main_v37 from V16_of m outs c main_v37 (by decide),
    show V16 m outs c main_arg1 = V15 m outs c main_arg1 from V16_of m outs c main_arg1 (by decide),
    v37_apply, v15_arg1]

end Cert.KernelIdeal.HostPost

end
-- ==== Proof.KernelValue.lean ====
/-
  THE KERNEL PROGRAM'S TWO RESULTS ARE THE SPECIFICATION'S.

  Row `e` of the padded edge arrays lies in block `e / 4096` at row `e % 4096`.  For a real edge (`e < 800000`) the
  gathered source and destination rows and the six scalars of that row are the specification's inputs of edge `e`, and
  the weights and biases are the launch arguments, so the message array holds the specification's message of edge `e`
  in row `e` and the coordinate-message array its coordinate message.  The scatters sum, per node, exactly the rows
  of the edges that land on it (a padded row is never counted), so the aggregated messages are the specification's;
  node `n` lies in block `n / 5000` at row `n % 5000`, and the node kernel's row there is the node update of the
  node's features and its aggregated messages.  The second result adds to the coordinates the summed coordinate
  messages divided by the larger of the count and one.
-/
import proofs.«425882_j23055384445177_3_alg».proof.Proof.KernelIdealRun
import proofs.«425882_j23055384445177_3_alg».proof.Proof.EdgeBlock
import proofs.«425882_j23055384445177_3_alg».proof.Proof.RegionArrays
import proofs.«425882_j23055384445177_3_alg».proof.Proof.KernelHostPre
import proofs.«425882_j23055384445177_3_alg».proof.Proof.KernelHostPost
import proofs.«425882_j23055384445177_3_alg».proof.Proof.Spec

set_option maxRecDepth 16384

noncomputable section

namespace Cert.KernelIdeal.Result

open Cert.KernelIdeal Cert.KernelIdeal.Gen Cert.KernelIdeal.Run Cert.Egnn
open Idealize.ShloMosaic Idealize.ShloMosaic.TcCoe Idealize.ShloMosaic.ValueIdx
open scoped BigOperators

variable (m : (ℓ : Loc nD τ sig) → Buf (Elt Ideal) ℓ) (c : Dev nD)

/-! ## The launch arguments under the specification's names -/

abbrev X : Tab 50000 128 := m ((c : Thread nD τ).loc main_arg0)
abbrev C : Tab 50000 3 := m ((c : Thread nD τ).loc main_arg1)
abbrev EF : Tab 800000 2 := m ((c : Thread nD τ).loc main_arg2)
abbrev src : Ids 800000 := m ((c : Thread nD τ).loc main_arg3)
abbrev dst : Ids 800000 := m ((c : Thread nD τ).loc main_arg4)
abbrev W1 : Tab 259 128 := m ((c : Thread nD τ).loc main_arg5)
abbrev b1 : Col 128 := m ((c : Thread nD τ).loc main_arg6)
abbrev W2 : Tab 128 128 := m ((c : Thread nD τ).loc main_arg7)
abbrev b2 : Col 128 := m ((c : Thread nD τ).loc main_arg8)
abbrev nW1 : Tab 256 128 := m ((c : Thread nD τ).loc main_arg9)
abbrev nb1 : Col 128 := m ((c : Thread nD τ).loc main_arg10)
abbrev nW2 : Tab 128 128 := m ((c : Thread nD τ).loc main_arg11)
abbrev nb2 : Col 128 := m ((c : Thread nD τ).loc main_arg12)
abbrev cW1 : Tab 128 128 := m ((c : Thread nD τ).loc main_arg13)
abbrev cb1 : Col 128 := m ((c : Thread nD τ).loc main_arg14)
abbrev cW2 : Tab 128 1 := m ((c : Thread nD τ).loc main_arg15)

/-! ## Rows as (block, row in block) -/

/-- A fact about every (block, row in block) of the padded edge arrays is a fact about every row. -/
theorem of_rows0 (P : Fin 802816 → Prop)
    (hP : ∀ (t : Fin cfg0.N) (r : Fin 4096), P ⟨4096 * t.val + r.val, RegionArrays.row0_lt t r⟩) (e : Fin 802816) : P e := by
  have hN : cfg0.N = 196 := N_0
  have he := e.isLt
  have h := hP ⟨e.val / 4096, by omega⟩ ⟨e.val % 4096, Nat.mod_lt _ (by decide)⟩
  have hv : (⟨4096 * (e.val / 4096) + e.val % 4096, RegionArrays.row0_lt ⟨e.val / 4096, by omega⟩ ⟨e.val % 4096, Nat.mod_lt _ (by decide)⟩⟩ : Fin 802816) = e :=
    Fin.ext (Nat.div_add_mod e.val 4096)
  exact hv ▸ h

/-- The same for the node rows. -/
theorem of_rows1 (P : Fin 50000 → Prop)
    (hP : ∀ (t : Fin cfg1.N) (r : Fin 5000), P ⟨5000 * t.val + r.val, RegionArrays.row1_lt t r⟩) (n : Fin 50000) : P n := by
  have hN : cfg1.N = 10 := N_1
  have hn := n.isLt
  have h := hP ⟨n.val / 5000, by omega⟩ ⟨n.val % 5000, Nat.mod_lt _ (by decide)⟩
  have hv : (⟨5000 * (n.val / 5000) + n.val % 5000, RegionArrays.row1_lt ⟨n.val / 5000, by omega⟩ ⟨n.val % 5000, Nat.mod_lt _ (by decide)⟩⟩ : Fin 50000) = n :=
    Fin.ext (Nat.div_add_mod n.val 5000)
  exact hv ▸ h

/-! ## One edge row of the edge region -/

/-- The message of the block row's inputs is the specification's message of the edge the row carries. -/
theorem blockMsg_eq (t : Fin cfg0.N) (r : Fin 4096) (h : 4096 * t.val + r.val < 800000) (j : Fin 128) :
    msgH (fun k => Edge.iblk (En0 m) c 0 t (ix2 r k)) (fun k => Edge.iblk (En0 m) c 1 t (ix2 r k))
        (fun k : Fin 3 => Edge.iblk (En0 m) c 2 t (ix2 r (⟨k.val, by have := k.isLt; omega⟩ : Fin 6)))
        (Edge.iblk (En0 m) c 3 t) (Edge.iblk (En0 m) c 4 t) (Edge.iblk (En0 m) c 5 t) (Edge.iblk (En0 m) c 6 t)
        (Edge.iblk (En0 m) c 7 t) (Edge.iblk (En0 m) c 8 t) j
      = edgeH (X m c) (C m c) (EF m c) (src m c) (dst m c) (W1 m c) (b1 m c) (W2 m c) (b2 m c) ⟨4096 * t.val + r.val, h⟩ j := by
  have h0 : (fun k : Fin 128 => Edge.iblk (En0 m) c 0 t (ix2 r k))
      = fun k => X m c (ix2 (row (src m c (ix1 ⟨4096 * t.val + r.val, h⟩))) k) := funext fun k => by
    rw [RegionArrays.edge_iblk0]
    exact (HostPre.v18_apply m c _ k).trans (dif_pos h)
  have h1 : (fun k : Fin 128 => Edge.iblk (En0 m) c 1 t (ix2 r k))
      = fun k => X m c (ix2 (row (dst m c (ix1 ⟨4096 * t.val + r.val, h⟩))) k) := funext fun k => by
    rw [RegionArrays.edge_iblk1]
    exact (HostPre.v19_apply m c _ k).trans (dif_pos h)
  have h2 : (fun k : Fin 3 => Edge.iblk (En0 m) c 2 t (ix2 r (⟨k.val, by have := k.isLt; omega⟩ : Fin 6)))
      = scal (C m c) (EF m c) (src m c) (dst m c) ⟨4096 * t.val + r.val, h⟩ := funext fun k => by
    rw [RegionArrays.edge_iblk2]
    exact (HostPre.v20_apply m c _ _).trans (dif_pos h)
  have h3 : Edge.iblk (En0 m) c 3 t = rowsFrom 0 128 128 (by decide) (W1 m c) :=
    (RegionArrays.edge_iblk3 (En0 m) c t).trans (HostPre.v15_eq m c)
  have h4 : Edge.iblk (En0 m) c 4 t = rowsFrom 128 128 128 (by decide) (W1 m c) :=
    (RegionArrays.edge_iblk4 (En0 m) c t).trans (HostPre.v16_eq m c)
  have h5 : Edge.iblk (En0 m) c 5 t = rowsFrom 256 3 128 (by decide) (W1 m c) :=
    (RegionArrays.edge_iblk5 (En0 m) c t).trans (HostPre.v17_eq m c)
  have h6 : Edge.iblk (En0 m) c 6 t = b1 m c := (RegionArrays.edge_iblk6 (En0 m) c t).trans (HostPre.v11_arg6 m c)
  have h7 : Edge.iblk (En0 m) c 7 t = W2 m c := (RegionArrays.edge_iblk7 (En0 m) c t).trans (HostPre.v11_arg7 m c)
  have h8 : Edge.iblk (En0 m) c 8 t = b2 m c := (RegionArrays.edge_iblk8 (En0 m) c t).trans (HostPre.v11_arg8 m c)
  rw [h0, h1, h2, h3, h4, h5, h6, h7, h8]
  rfl

/-- The message array after the edge region holds, in a real edge's row, the specification's message of the edge. -/
theorem msgArr_apply (e : Fin 802816) (h : e.val < 800000) (k : Fin 128) :
    (X0 m c main_v21_0 : S802816x128.Idx → EReal) (ix2 e k)
      = edgeH (X m c) (C m c) (EF m c) (src m c) (dst m c) (W1 m c) (b1 m c) (W2 m c) (b2 m c) ⟨e.val, h⟩ k := by
  have harr : X0 m c main_v21_0 = (Edge.dat (En0 m) c).arrAt 12 cfg0.N := by
    unfold X0; exact Pipeline.withArrays_arr spec0 launch0.win.arr_inj c _ _ 12
  rw [harr]
  refine of_rows0 (fun e => ∀ h : e.val < 800000,
      ((Edge.dat (En0 m) c).arrAt 12 cfg0.N : S802816x128.Idx → EReal) (ix2 e k)
        = edgeH (X m c) (C m c) (EF m c) (src m c) (dst m c) (W1 m c) (b1 m c) (W2 m c) (b2 m c) ⟨e.val, h⟩ k)
    (fun t r h => ?_) e h
  exact (RegionArrays.msg_arr (En0 m) c t r k).trans ((EdgeBlock.outMsg_apply _ _ _ _ _ _ _ _ _ r k).trans (blockMsg_eq m c t r h k))

/-- The coordinate-message array holds, in a real edge's row, the specification's coordinate message of the edge. -/
theorem crdArr_apply (e : Fin 802816) (h : e.val < 800000) (a : Fin 3) :
    (X0 m c main_v21_1 : S802816x3.Idx → EReal) (ix2 e a)
      = edgeX (X m c) (C m c) (EF m c) (src m c) (dst m c) (W1 m c) (b1 m c) (W2 m c) (b2 m c) (cW1 m c) (cb1 m c) (cW2 m c) ⟨e.val, h⟩ a := by
  have harr : X0 m c main_v21_1 = (Edge.dat (En0 m) c).arrAt 13 cfg0.N := by
    unfold X0; exact Pipeline.withArrays_arr spec0 launch0.win.arr_inj c _ _ 13
  rw [harr]
  refine of_rows0 (fun e => ∀ h : e.val < 800000,
      ((Edge.dat (En0 m) c).arrAt 13 cfg0.N : S802816x3.Idx → EReal) (ix2 e a)
        = edgeX (X m c) (C m c) (EF m c) (src m c) (dst m c) (W1 m c) (b1 m c) (W2 m c) (b2 m c) (cW1 m c) (cb1 m c) (cW2 m c) ⟨e.val, h⟩ a)
    (fun t r h => ?_) e h
  refine (RegionArrays.coord_arr (En0 m) c t r a).trans ((EdgeBlock.outCoord_apply _ _ _ _ _ _ _ _ _ _ _ _ r a).trans ?_)
  have hm : msgH (fun k => Edge.iblk (En0 m) c 0 t (ix2 r k)) (fun k => Edge.iblk (En0 m) c 1 t (ix2 r k))
        (fun k : Fin 3 => Edge.iblk (En0 m) c 2 t (ix2 r (⟨k.val, by have := k.isLt; omega⟩ : Fin 6)))
        (Edge.iblk (En0 m) c 3 t) (Edge.iblk (En0 m) c 4 t) (Edge.iblk (En0 m) c 5 t) (Edge.iblk (En0 m) c 6 t)
        (Edge.iblk (En0 m) c 7 t) (Edge.iblk (En0 m) c 8 t)
      = edgeH (X m c) (C m c) (EF m c) (src m c) (dst m c) (W1 m c) (b1 m c) (W2 m c) (b2 m c) ⟨4096 * t.val + r.val, h⟩ :=
    funext fun j => blockMsg_eq m c t r h j
  have h9 : Edge.iblk (En0 m) c 9 t = cW1 m c := (RegionArrays.edge_iblk9 (En0 m) c t).trans (HostPre.v11_arg13 m c)
  have h10 : Edge.iblk (En0 m) c 10 t = cb1 m c := (RegionArrays.edge_iblk10 (En0 m) c t).trans (HostPre.v11_arg14 m c)
  have h11 : Edge.iblk (En0 m) c 11 t = cW2 m c := (RegionArrays.edge_iblk11 (En0 m) c t).trans (HostPre.v11_arg15 m c)
  have h2 : Edge.iblk (En0 m) c 2 t (ix2 r (⟨3 + a.val, by have := a.isLt; omega⟩ : Fin 6))
      = meta6 (C m c) (EF m c) (src m c) (dst m c) ⟨4096 * t.val + r.val, h⟩ ⟨3 + a.val, by have := a.isLt; omega⟩ := by
    rw [RegionArrays.edge_iblk2]
    exact (HostPre.v20_apply m c _ _).trans (dif_pos h)
  rw [hm, h9, h10, h11, h2]
  rfl

/-! ## The aggregated messages -/

/-- The summed message rows of node `n` are the specification's aggregated messages. -/
theorem agg_apply (n : Fin 50000) (k : Fin 128) :
    (V15 m (outs0 m) c main_v26 : S50000x128.Idx → EReal) (ix2 n k)
      = aggH (X m c) (C m c) (EF m c) (src m c) (dst m c) (W1 m c) (b1 m c) (W2 m c) (b2 m c) n k := by
  refine (HostPost.v26_apply m (outs0 m) c n k).trans ?_
  refine (HostPost.sum_hit m c (fun e => HostPost.msgOut (outs0 m) c (ix2 e k)) n).trans ?_
  unfold aggH
  refine Finset.sum_congr rfl fun e _ => ?_
  exact msgArr_apply m c ⟨e.val, by have := e.isLt; omega⟩ e.isLt k

/-! ## The two results -/

/-- One row of the first result. -/
theorem v38_apply (n : Fin 50000) (j : Fin 128) :
    (V17 m (outs m) c main_v38 : S50000x128.Idx → EReal) (ix2 n j)
      = nodeOut (fun k => X m c (ix2 n k))
          (fun k => aggH (X m c) (C m c) (EF m c) (src m c) (dst m c) (W1 m c) (b1 m c) (W2 m c) (b2 m c) n k)
          (nW1 m c) (nb1 m c) (nW2 m c) (nb2 m c) j := by
  have harr : V17 m (outs m) c main_v38 = (Node.dat (En1 m) c).arrAt 6 cfg1.N :=
    (HostPost.v38_eq m (outs m) c).trans (by
      show X1 m c main_v38 = _
      unfold X1; exact Pipeline.withArrays_arr spec1 launch1.win.arr_inj c _ _ 6)
  rw [harr]
  refine of_rows1 (fun n => ((Node.dat (En1 m) c).arrAt 6 cfg1.N : S50000x128.Idx → EReal) (ix2 n j)
      = nodeOut (fun k => X m c (ix2 n k))
          (fun k => aggH (X m c) (C m c) (EF m c) (src m c) (dst m c) (W1 m c) (b1 m c) (W2 m c) (b2 m c) n k)
          (nW1 m c) (nb1 m c) (nW2 m c) (nb2 m c) j) (fun t r => ?_) n
  refine (RegionArrays.node_arr (En1 m) c t r j).trans ((EdgeBlock.nodeOut_apply _ _ _ _ _ _ r j).trans ?_)
  have h0 : (fun k : Fin 128 => Node.iblk (En1 m) c 0 t (ix2 r k))
      = fun k => X m c (ix2 ⟨5000 * t.val + r.val, RegionArrays.row1_lt t r⟩ k) := funext fun k => by
    rw [RegionArrays.node_iblk0]
    exact congrFun (HostPost.v15_arg0 m (outs0 m) c) _
  have h1 : (fun k : Fin 128 => Node.iblk (En1 m) c 1 t (ix2 r k))
      = fun k => aggH (X m c) (C m c) (EF m c) (src m c) (dst m c) (W1 m c) (b1 m c) (W2 m c) (b2 m c)
          ⟨5000 * t.val + r.val, RegionArrays.row1_lt t r⟩ k := funext fun k => by
    rw [RegionArrays.node_iblk1]
    exact agg_apply m c _ k
  have h2 : Node.iblk (En1 m) c 2 t = nW1 m c := (RegionArrays.node_iblk2 (En1 m) c t).trans (HostPost.v15_arg9 m (outs0 m) c)
  have h3 : Node.iblk (En1 m) c 3 t = nb1 m c := (RegionArrays.node_iblk3 (En1 m) c t).trans (HostPost.v15_arg10 m (outs0 m) c)
  have h4 : Node.iblk (En1 m) c 4 t = nW2 m c := (RegionArrays.node_iblk4 (En1 m) c t).trans (HostPost.v15_arg11 m (outs0 m) c)
  have h5 : Node.iblk (En1 m) c 5 t = nb2 m c := (RegionArrays.node_iblk5 (En1 m) c t).trans (HostPost.v15_arg12 m (outs0 m) c)
  rw [h0, h1, h2, h3, h4, h5]

/-- THE FIRST RESULT is the specification's updated node features of the launch arguments. -/
theorem v38_eq_outH :
    (V17 m (outs m) c main_v38 : S50000x128.Idx → EReal)
      = outH (X m c) (C m c) (EF m c) (src m c) (dst m c) (W1 m c) (b1 m c) (W2 m c) (b2 m c)
          (nW1 m c) (nb1 m c) (nW2 m c) (nb2 m c) := by
  funext i
  obtain ⟨n, j, rfl⟩ : ∃ (n : Fin 50000) (j : Fin 128), i = ix2 n j := ⟨i 0, i 1, eq_ix2 i⟩
  rw [v38_apply]
  rfl

/-- One entry of the second result. -/
theorem v39_apply (n : Fin 50000) (a : Fin 3) :
    (V17 m (outs m) c main_v39 : S50000x3.Idx → EReal) (ix2 n a)
      = C m c (ix2 n a) + Ideal.div
          (aggX (X m c) (C m c) (EF m c) (src m c) (dst m c) (W1 m c) (b1 m c) (W2 m c) (b2 m c) (cW1 m c) (cb1 m c) (cW2 m c) n a)
          (max (deg (dst m c) n) one) := by
  refine (HostPost.v39_apply m (outs m) c n a).trans ?_
  have hs : ∑ e ∈ HostPost.hit m c n, HostPost.crdOut (outs m) c (ix2 e a)
      = aggX (X m c) (C m c) (EF m c) (src m c) (dst m c) (W1 m c) (b1 m c) (W2 m c) (b2 m c) (cW1 m c) (cb1 m c) (cW2 m c) n a := by
    refine (HostPost.sum_hit m c (fun e => HostPost.crdOut (outs m) c (ix2 e a)) n).trans ?_
    unfold aggX
    refine Finset.sum_congr rfl fun e _ => ?_
    exact crdArr_apply m c ⟨e.val, by have := e.isLt; omega⟩ e.isLt a
  have hd : ∑ _e ∈ HostPost.hit m c n, Cert.Egnn.one = deg (dst m c) n :=
    HostPost.sum_hit m c (fun _ => Cert.Egnn.one) n
  rw [hs, hd]

/-- THE SECOND RESULT is the specification's updated coordinates of the launch arguments. -/
theorem v39_eq_outX :
    (V17 m (outs m) c main_v39 : S50000x3.Idx → EReal)
      = outX (X m c) (C m c) (EF m c) (src m c) (dst m c) (W1 m c) (b1 m c) (W2 m c) (b2 m c)
          (cW1 m c) (cb1 m c) (cW2 m c) := by
  funext i
  obtain ⟨n, a, rfl⟩ : ∃ (n : Fin 50000) (a : Fin 3), i = ix2 n a := ⟨i 0, i 1, eq_ix2 i⟩
  rw [v39_apply]
  rfl

end Cert.KernelIdeal.Result

end
-- ==== Proof.RefSide.lean ====
/-
  The reference program has no kernel: its run is a chain of host operations, each a pure function of buffers
  written before it.  Every weakly fair execution therefore ends with each buffer at the composed value of the
  operations, and no operation writes an argument; the frame claim is that run with the two results forgotten.
-/
import proofs.«425882_j23055384445177_3_alg».proof.Defs
import proofs.«425882_j23055384445177_3_alg».proof.Proof.RefReadCopy

noncomputable section

namespace Cert.Proof.RefSide

open Idealize.ShloMosaic Idealize.ShloMosaic.TcCoe Idealize.SL.Sem

/-- The reference runs to the end, faults nowhere and leaves its sixteen arguments as launched. -/
theorem frame_ref [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

end Cert.Proof.RefSide

end
-- ==== Proof.RefNode.lean ====
/-
  The reference's aggregation and node update, read at an index.

  A node's aggregated message is the sum of the per-edge messages over the edges whose destination word, read as a
  signed integer, is the node's number: an accumulating scatter from zero drops every update that lands outside the
  table, so exactly those edges contribute.  The same holds for the coordinate messages and for the count of edges,
  which is a sum of ones.  The node update joins a node's feature row with its aggregated row, applies a dense
  layer, x · σ(x), and a second dense layer; the coordinate update adds to a node's coordinates the aggregated
  coordinate messages divided by max(count, 1).  The per-edge messages themselves stay unopened here.
-/
import proofs.«425882_j23055384445177_3_alg».proof.Proof.RefReadCopy
import proofs.«425882_j23055384445177_3_alg».proof.Proof.Spec
import proofs.«425882_j23055384445177_3_alg».proof.Proof.LibScatterRows
import proofs.«425882_j23055384445177_3_alg».proof.Proof.LibPlainDot
import proofs.«425882_j23055384445177_3_alg».proof.Proof.LibColumn
import proofs.«425882_j23055384445177_3_alg».proof.Proof.LibRow
import Idealize.ShloMosaic.Lib.Pipeline.Value
import Idealize.ShloMosaic.Lib.ValueIdx
import Idealize.ShloMosaic.PureOps.Ideal.Laws

noncomputable section

namespace Cert.ReferenceIdeal.RefNode

open Cert.ReferenceIdeal Cert.Egnn Idealize.ShloMosaic Idealize.ShloMosaic.ValueIdx
open scoped BigOperators

/-! ## Scalars -/

/-- The f32 word of 1 denotes the extended real 1. -/
theorem ofBits_one : Ideal.ofBits .f32 0x3F800000#32 = 1 := IdealRules.sign_bit.ideal_onePat .f32

/-- x · (1 / (1 + exp(−x))) with both ones spelt as the f32 word of 1 is x · σ(x). -/
theorem silu_eq (x : EReal) :
    x * Ideal.div (Ideal.ofBits .f32 0x3F800000#32) (Ideal.ofBits .f32 0x3F800000#32 + Ideal.exp (-x)) = silu x := by
  rw [ofBits_one]; rfl

/-! ## Index bookkeeping -/

/-- Two 128-column tables joined along the columns, read at (n, k): the left table's row n for k < 128, the right
    table's row n at k − 128 otherwise. -/
theorem cat_apply (h : Shape.Concatenates [(⟨2, ![50000, 128]⟩ : Shape), ⟨2, ![50000, 128]⟩] ⟨2, ![50000, 256]⟩ 1)
    (x y : (⟨2, ![50000, 128]⟩ : Shape).Idx → EReal) (n : Fin 50000) (k : Fin 256) :
    concatenate (⟨2, ![50000, 256]⟩ : Shape) 1 [⟨⟨2, ![50000, 128]⟩, x⟩, ⟨⟨2, ![50000, 128]⟩, y⟩] h (ix2 n k)
      = cat (fun k => x (ix2 n k)) (fun k => y (ix2 n k)) k := by
  unfold cat
  by_cases hk : k.val < 128
  · rw [dif_pos hk]
    exact concatenate_pair_apply_left (1 : Fin 2) x y h (ix2 n k) rfl (ix2 n ⟨k.val, hk⟩)
      (fun b => match b with | ⟨0, _⟩ => rfl | ⟨1, _⟩ => rfl)
  · rw [dif_neg hk]
    exact concatenate_pair_apply_right (1 : Fin 2) x y h (ix2 n k) rfl rfl (ix2 n ⟨k.val - 128, by omega⟩)
      (fun b hb => match b with | ⟨0, _⟩ => rfl | ⟨1, _⟩ => absurd rfl hb)
      (by show (k.val - 128) + 128 = k.val; omega)

/-- When a column [800000, 1] of words repeats a list of 800000 words, the edges whose column word is node n's number
    are the edges that land on n. -/
theorem filter_col_eq_lands (dst : Ids 800000) (idx : IVec ⟨2, ![800000, 1]⟩ 32)
    (h : ∀ e : Fin 800000, idx (ix2 e (0 : Fin 1)) = dst (ix1 e)) (n : Fin 50000) :
    Finset.univ.filter (fun e : Fin 800000 => (idx (ix2 e (0 : Fin 1))).toInt = (n.val : Int)) = lands dst n := by
  unfold lands
  exact Finset.filter_congr fun e _ => by rw [h e]

/-! ## The three accumulations -/

/-- The aggregated message of node n: the sum of the per-edge messages over the edges that land on n. -/
theorem v58_apply (x0 : (⟨S50000x128, .f32⟩ : BufTy).Contents (Elt Ideal)) (x1 : (⟨S50000x3, .f32⟩ : BufTy).Contents (Elt Ideal)) (x2 : (⟨S800000x2, .f32⟩ : BufTy).Contents (Elt Ideal)) (x3 x4 : (⟨S800000, .i32⟩ : BufTy).Contents (Elt Ideal)) (x5 : (⟨S259x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (n : Fin 50000) (k : Fin 128) :
    Read.val_main_v58 (F := Ideal) x0 x1 x2 x3 x4 x5 x6 x7 x8 (ix2 n k)
      = ∑ e ∈ lands x4 n, Read.val_main_v47 (F := Ideal) x0 x1 x2 x3 x4 x5 x6 x7 x8 (ix2 e k) := by
  unfold Read.val_main_v58
  generalize Read.val_main_v47 (F := Ideal) x0 x1 x2 x3 x4 x5 x6 x7 x8 = upd
  refine (Cert.LibScatterRows.scatterAdd_rows_apply Facts₀.scatter_S50000x128_S800000x1_S800000x128_1_0_0_1_wf
    (Read.val_main_v56 (F := Ideal)) (Read.val_main_v57 (F := Ideal) x4) upd n k).trans ?_
  rw [Read.val_main_v56_apply, Read.val_main_cst_8_apply, Ideal.ofBits_def, Ideal.ofBits_zero_f32, zero_add,
    filter_col_eq_lands x4 (Read.val_main_v57 (F := Ideal) x4) (fun e => (Read.val_main_v57_apply x4 _).trans
      (congrArg x4 (funext fun d => match d with | ⟨0, _⟩ => rfl))) n]

/-- The aggregated coordinate message of node n. -/
theorem v61_apply (x0 : (⟨S50000x128, .f32⟩ : BufTy).Contents (Elt Ideal)) (x1 : (⟨S50000x3, .f32⟩ : BufTy).Contents (Elt Ideal)) (x2 : (⟨S800000x2, .f32⟩ : BufTy).Contents (Elt Ideal)) (x3 x4 : (⟨S800000, .i32⟩ : BufTy).Contents (Elt Ideal)) (x5 : (⟨S259x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x1, .f32⟩ : BufTy).Contents (Elt Ideal)) (n : Fin 50000) (a : Fin 3) :
    Read.val_main_v61 (F := Ideal) x0 x1 x2 x3 x4 x5 x6 x7 x8 x13 x14 x15 (ix2 n a)
      = ∑ e ∈ lands x4 n, Read.val_main_v55 (F := Ideal) x0 x1 x2 x3 x4 x5 x6 x7 x8 x13 x14 x15 (ix2 e a) := by
  unfold Read.val_main_v61
  generalize Read.val_main_v55 (F := Ideal) x0 x1 x2 x3 x4 x5 x6 x7 x8 x13 x14 x15 = upd
  refine (Cert.LibScatterRows.scatterAdd_rows_apply Facts₀.scatter_S50000x3_S800000x1_S800000x3_1_0_0_1_wf
    (Read.val_main_v59 (F := Ideal)) (Read.val_main_v60 (F := Ideal) x4) upd n a).trans ?_
  rw [Read.val_main_v59_apply, Read.val_main_cst_9_apply, Ideal.ofBits_def, Ideal.ofBits_zero_f32, zero_add,
    filter_col_eq_lands x4 (Read.val_main_v60 (F := Ideal) x4) (fun e => (Read.val_main_v60_apply x4 _).trans
      (congrArg x4 (funext fun d => match d with | ⟨0, _⟩ => rfl))) n]

/-- The count of edges that land on node n, as a sum of ones. -/
theorem v65_apply (x4 : (⟨S800000, .i32⟩ : BufTy).Contents (Elt Ideal)) (n : Fin 50000) :
    Read.val_main_v65 (F := Ideal) x4 (ix1 n) = ∑ _e ∈ lands x4 n, Cert.Egnn.one := by
  unfold Read.val_main_v65
  refine (Cert.LibScatterRows.scatterAdd_vec_apply Facts₀.scatter_S50000_S800000x1_S800000_n_0_0_1_wf
    (Read.val_main_v63 (F := Ideal)) (Read.val_main_v64 (F := Ideal) x4) (Read.val_main_v62 (F := Ideal)) n).trans ?_
  rw [Read.val_main_v63_apply, Read.val_main_cst_11_apply, Ideal.ofBits_def, Ideal.ofBits_zero_f32, zero_add,
    filter_col_eq_lands x4 (Read.val_main_v64 (F := Ideal) x4) (fun e => (Read.val_main_v64_apply x4 _).trans
      (congrArg x4 (funext fun d => match d with | ⟨0, _⟩ => rfl))) n]
  refine Finset.sum_congr rfl fun e _ => ?_
  rw [Read.val_main_v62_apply, Read.val_main_cst_10_apply]
  rfl

/-! ## The node update -/

/-- The first node layer before its activation, at (n, k). -/
theorem v75_apply (x0 : (⟨S50000x128, .f32⟩ : BufTy).Contents (Elt Ideal)) (x1 : (⟨S50000x3, .f32⟩ : BufTy).Contents (Elt Ideal)) (x2 : (⟨S800000x2, .f32⟩ : BufTy).Contents (Elt Ideal)) (x3 x4 : (⟨S800000, .i32⟩ : BufTy).Contents (Elt Ideal)) (x5 : (⟨S259x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S128, .f32⟩ : BufTy).Contents (Elt Ideal)) (n : Fin 50000) (k : Fin 128) :
    Read.val_main_v75 (F := Ideal) x0 x1 x2 x3 x4 x5 x6 x7 x8 x9 x10 (ix2 n k)
      = dense (cat (fun k => x0 (ix2 n k)) (fun k => ∑ e ∈ lands x4 n, Read.val_main_v47 (F := Ideal) x0 x1 x2 x3 x4 x5 x6 x7 x8 (ix2 e k)))
          x9 x10 k := by
  rw [Read.val_main_v75_apply, Read.val_main_v72_apply, Read.val_main_v74_apply, Read.val_main_v73_apply]
  unfold dense
  refine congrArg₂ (· + ·) (Finset.sum_congr rfl fun k' _ => ?_)
    (congrArg x10 (funext fun d => match d with | ⟨0, _⟩ => rfl))
  have hl : Read.lidx_main_v72 (ix2 n k) k' = ix2 n k' := funext fun d => match d with | ⟨0, _⟩ => rfl | ⟨1, _⟩ => rfl
  have hr : Read.ridx_main_v72 (ix2 n k) k' = ix2 k' k := funext fun d => match d with | ⟨0, _⟩ => rfl | ⟨1, _⟩ => rfl
  rw [hl, hr]
  refine congrArg (· * x9 (ix2 k' k)) ?_
  unfold Read.val_main_v71
  refine (cat_apply _ x0 (Read.val_main_v58 (F := Ideal) x0 x1 x2 x3 x4 x5 x6 x7 x8) n k').trans ?_
  exact congrArg (fun y => cat (fun k => x0 (ix2 n k)) y k') (funext fun k => v58_apply x0 x1 x2 x3 x4 x5 x6 x7 x8 n k)

/-- The first node layer after its activation, at (n, k). -/
theorem v76_apply (x0 : (⟨S50000x128, .f32⟩ : BufTy).Contents (Elt Ideal)) (x1 : (⟨S50000x3, .f32⟩ : BufTy).Contents (Elt Ideal)) (x2 : (⟨S800000x2, .f32⟩ : BufTy).Contents (Elt Ideal)) (x3 x4 : (⟨S800000, .i32⟩ : BufTy).Contents (Elt Ideal)) (x5 : (⟨S259x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S128, .f32⟩ : BufTy).Contents (Elt Ideal)) (n : Fin 50000) (k : Fin 128) :
    Read.val_main_v76 (F := Ideal) x0 x1 x2 x3 x4 x5 x6 x7 x8 x9 x10 (ix2 n k)
      = silu (dense (cat (fun k => x0 (ix2 n k)) (fun k => ∑ e ∈ lands x4 n, Read.val_main_v47 (F := Ideal) x0 x1 x2 x3 x4 x5 x6 x7 x8 (ix2 e k)))
          x9 x10 k) := by
  rw [Read.val_main_v76_apply, Read.val_main_call3_v5_apply, Read.val_main_call3_v4_apply, Read.val_main_call3_cst_0_apply,
    Read.val_main_call3_v3_apply, Read.val_main_call3_v2_apply, Read.val_main_call3_cst_apply, Read.val_main_call3_v1_apply,
    Read.val_main_call3_v0_apply, v75_apply]
  exact silu_eq _

/-- The first result: the updated features of node n. -/
theorem v80_apply (x0 : (⟨S50000x128, .f32⟩ : BufTy).Contents (Elt Ideal)) (x1 : (⟨S50000x3, .f32⟩ : BufTy).Contents (Elt Ideal)) (x2 : (⟨S800000x2, .f32⟩ : BufTy).Contents (Elt Ideal)) (x3 x4 : (⟨S800000, .i32⟩ : BufTy).Contents (Elt Ideal)) (x5 : (⟨S259x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (n : Fin 50000) (j : Fin 128) :
    Read.val_main_v80 (F := Ideal) x0 x1 x2 x3 x4 x5 x6 x7 x8 x9 x10 x11 x12 (ix2 n j)
      = nodeOut (fun k => x0 (ix2 n k)) (fun k => ∑ e ∈ lands x4 n, Read.val_main_v47 (F := Ideal) x0 x1 x2 x3 x4 x5 x6 x7 x8 (ix2 e k))
          x9 x10 x11 x12 j := by
  rw [Read.val_main_v80_apply, Read.val_main_v77_apply, Read.val_main_v79_apply, Read.val_main_v78_apply]
  unfold nodeOut
  show _ = dense _ x11 x12 j
  unfold dense
  refine congrArg₂ (· + ·) (Finset.sum_congr rfl fun k _ => ?_)
    (congrArg x12 (funext fun d => match d with | ⟨0, _⟩ => rfl))
  have hl : Read.lidx_main_v77 (ix2 n j) k = ix2 n k := funext fun d => match d with | ⟨0, _⟩ => rfl | ⟨1, _⟩ => rfl
  have hr : Read.ridx_main_v77 (ix2 n j) k = ix2 k j := funext fun d => match d with | ⟨0, _⟩ => rfl | ⟨1, _⟩ => rfl
  rw [hl, hr, v76_apply]
  rfl

/-! ## The coordinate update -/

/-- The second result: node n's coordinates plus its aggregated coordinate messages over max(count, 1). -/
theorem v81_apply (x0 : (⟨S50000x128, .f32⟩ : BufTy).Contents (Elt Ideal)) (x1 : (⟨S50000x3, .f32⟩ : BufTy).Contents (Elt Ideal)) (x2 : (⟨S800000x2, .f32⟩ : BufTy).Contents (Elt Ideal)) (x3 x4 : (⟨S800000, .i32⟩ : BufTy).Contents (Elt Ideal)) (x5 : (⟨S259x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x1, .f32⟩ : BufTy).Contents (Elt Ideal)) (n : Fin 50000) (a : Fin 3) :
    Read.val_main_v81 (F := Ideal) x0 x1 x2 x3 x4 x5 x6 x7 x8 x13 x14 x15 (ix2 n a)
      = x1 (ix2 n a) + Ideal.div (∑ e ∈ lands x4 n, Read.val_main_v55 (F := Ideal) x0 x1 x2 x3 x4 x5 x6 x7 x8 x13 x14 x15 (ix2 e a))
          (max (∑ _e ∈ lands x4 n, Cert.Egnn.one) Cert.Egnn.one) := by
  have hi : Read.idx_main_v68 (Read.idx_main_v69 (ix2 n a)) = ix1 n := funext fun d => match d with | ⟨0, _⟩ => rfl
  rw [Read.val_main_v81_apply, Read.val_main_v70_apply, Read.val_main_v69_apply, Read.val_main_v68_apply, hi,
    Read.val_main_v67_apply, v65_apply, Read.val_main_v66_apply, Read.val_main_cst_12_apply, v61_apply]
  rfl

end Cert.ReferenceIdeal.RefNode

end
-- ==== Proof.RefEdge.lean ====
/-
  The reference's per-edge part, one edge at a time.

  For edge e the reference first normalises each endpoint word w to  w + 50000  if w is negative as a signed integer and
  to w otherwise (`wrapW`), reads the rows of the feature table and of the coordinate table those words address (signed,
  clamped into the table), and from the two coordinate rows forms the difference, its squared length and the difference
  divided by (length + 1e-30).  The first layer is ONE product over the 259 inputs [source features | destination
  features | squared length | two edge features]; a sum over 259 consecutive positions is the sum over positions
  0..127, 128..255 and 256..258 (`sum_259_split`; only associativity of + is used), and on each range the joined row is
  one of its pieces, so the product is the three-group sum the specification writes.  The remaining layers are sums
  over 128 positions read as they stand, and each activation x · (1 / (1 + exp(−x))) is x · σ(x).

  Results: the reference's message of edge e is `edgeH` and its coordinate message is `edgeX`, both at the normalised
  endpoint words `wrapA src`, `wrapA dst`; a word that is non-negative is left as it is (`wrapW_of_nonneg`).
-/
import proofs.«425882_j23055384445177_3_alg».proof.Proof.RefReadCopy
import proofs.«425882_j23055384445177_3_alg».proof.Proof.Spec
import proofs.«425882_j23055384445177_3_alg».proof.Proof.LibRowGather
import Idealize.ShloMosaic.Lib.Pipeline.Value
import Idealize.ShloMosaic.Lib.IdealHost
import Mathlib.Algebra.BigOperators.Fin

noncomputable section

namespace Cert.ReferenceIdeal.RefEdge

open Cert.ReferenceIdeal Cert.Egnn Idealize.ShloMosaic Idealize.ShloMosaic.ValueIdx
open scoped BigOperators

/-! ## The endpoint words -/

/-- The word the reference addresses a table with: w + 50000 when w is negative (signed), else w. -/
def wrapW (w : BitVec 32) : BitVec 32 :=
  Scalar.select (IntOp.cmpi .slt w 0#32) (IntOp.addi w 50000#32) w

/-- A column of words, each normalised. -/
def wrapA (s : Ids 800000) : Ids 800000 := fun i => wrapW (s i)

/-- A word that is non-negative as a signed integer is not changed. -/
theorem wrapW_of_nonneg (w : BitVec 32) (h : 0 ≤ w.toInt) : wrapW w = w := by
  have hf : w.slt 0#32 = false := by
    simp only [BitVec.slt, decide_eq_false_iff_not, not_lt]
    have h0 : (0#32 : BitVec 32).toInt = 0 := by decide
    omega
  have hc : IntOp.cmpi .slt w 0#32 = 0#1 := by unfold IntOp.cmpi; rw [hf]; rfl
  unfold wrapW Scalar.select
  rw [hc, if_neg (by decide)]

/-! ## A sum over 259 positions in its three ranges -/

theorem sum_259_split (f : Fin 259 → EReal) :
    ∑ k : Fin 259, f k = (∑ k : Fin 128, f ⟨k.val, by omega⟩) + (∑ k : Fin 128, f ⟨128 + k.val, by omega⟩)
      + (∑ k : Fin 3, f ⟨256 + k.val, by omega⟩) := by
  rw [show (∑ k : Fin 259, f k) = ∑ k : Fin (128 + 128 + 3), f k from rfl, Fin.sum_univ_add, Fin.sum_univ_add]
  rfl

/-! ## A row of four pieces (128, 128, 1 and 2 columns) read inside each piece -/

section Pieces
variable {α : Type}

theorem cat4_piece0 (x0 x1 : (⟨2, ![800000, 128]⟩ : Shape).Idx → α) (x2 : (⟨2, ![800000, 1]⟩ : Shape).Idx → α)
    (x3 : (⟨2, ![800000, 2]⟩ : Shape).Idx → α)
    (h : Shape.Concatenates [⟨2, ![800000, 128]⟩, ⟨2, ![800000, 128]⟩, ⟨2, ![800000, 1]⟩, ⟨2, ![800000, 2]⟩]
      ⟨2, ![800000, 259]⟩ 1)
    (e : Fin 800000) (c : Fin 259) (k : Fin 128) (hc : c.val = k.val) :
    concatenate ⟨2, ![800000, 259]⟩ 1 [⟨⟨2, ![800000, 128]⟩, x0⟩, ⟨⟨2, ![800000, 128]⟩, x1⟩, ⟨⟨2, ![800000, 1]⟩, x2⟩,
      ⟨⟨2, ![800000, 2]⟩, x3⟩] h (ix2 e c) = x0 (ix2 e k) :=
  concatenate_apply_piece (t := ⟨2, ![800000, 259]⟩) 1
    [⟨⟨2, ![800000, 128]⟩, x0⟩, ⟨⟨2, ![800000, 128]⟩, x1⟩, ⟨⟨2, ![800000, 1]⟩, x2⟩, ⟨⟨2, ![800000, 2]⟩, x3⟩]
    h (ix2 e c) 0 (by simp) ⟨2, ![800000, 128]⟩ x0 rfl rfl 0 rfl (ix2 e k)
    (fun b hb => by match b with | ⟨0, _⟩ => rfl | ⟨1, _⟩ => exact absurd rfl hb)
    (by show 0 + k.val = c.val; omega)

theorem cat4_piece1 (x0 x1 : (⟨2, ![800000, 128]⟩ : Shape).Idx → α) (x2 : (⟨2, ![800000, 1]⟩ : Shape).Idx → α)
    (x3 : (⟨2, ![800000, 2]⟩ : Shape).Idx → α)
    (h : Shape.Concatenates [⟨2, ![800000, 128]⟩, ⟨2, ![800000, 128]⟩, ⟨2, ![800000, 1]⟩, ⟨2, ![800000, 2]⟩]
      ⟨2, ![800000, 259]⟩ 1)
    (e : Fin 800000) (c : Fin 259) (k : Fin 128) (hc : c.val = 128 + k.val) :
    concatenate ⟨2, ![800000, 259]⟩ 1 [⟨⟨2, ![800000, 128]⟩, x0⟩, ⟨⟨2, ![800000, 128]⟩, x1⟩, ⟨⟨2, ![800000, 1]⟩, x2⟩,
      ⟨⟨2, ![800000, 2]⟩, x3⟩] h (ix2 e c) = x1 (ix2 e k) :=
  concatenate_apply_piece (t := ⟨2, ![800000, 259]⟩) 1
    [⟨⟨2, ![800000, 128]⟩, x0⟩, ⟨⟨2, ![800000, 128]⟩, x1⟩, ⟨⟨2, ![800000, 1]⟩, x2⟩, ⟨⟨2, ![800000, 2]⟩, x3⟩]
    h (ix2 e c) 1 (by simp) ⟨2, ![800000, 128]⟩ x1 rfl rfl 128 rfl (ix2 e k)
    (fun b hb => by match b with | ⟨0, _⟩ => rfl | ⟨1, _⟩ => exact absurd rfl hb)
    (by show 128 + k.val = c.val; omega)

theorem cat4_piece2 (x0 x1 : (⟨2, ![800000, 128]⟩ : Shape).Idx → α) (x2 : (⟨2, ![800000, 1]⟩ : Shape).Idx → α)
    (x3 : (⟨2, ![800000, 2]⟩ : Shape).Idx → α)
    (h : Shape.Concatenates [⟨2, ![800000, 128]⟩, ⟨2, ![800000, 128]⟩, ⟨2, ![800000, 1]⟩, ⟨2, ![800000, 2]⟩]
      ⟨2, ![800000, 259]⟩ 1)
    (e : Fin 800000) (c : Fin 259) (k : Fin 1) (hc : c.val = 256 + k.val) :
    concatenate ⟨2, ![800000, 259]⟩ 1 [⟨⟨2, ![800000, 128]⟩, x0⟩, ⟨⟨2, ![800000, 128]⟩, x1⟩, ⟨⟨2, ![800000, 1]⟩, x2⟩,
      ⟨⟨2, ![800000, 2]⟩, x3⟩] h (ix2 e c) = x2 (ix2 e k) :=
  concatenate_apply_piece (t := ⟨2, ![800000, 259]⟩) 1
    [⟨⟨2, ![800000, 128]⟩, x0⟩, ⟨⟨2, ![800000, 128]⟩, x1⟩, ⟨⟨2, ![800000, 1]⟩, x2⟩, ⟨⟨2, ![800000, 2]⟩, x3⟩]
    h (ix2 e c) 2 (by simp) ⟨2, ![800000, 1]⟩ x2 rfl rfl 256 rfl (ix2 e k)
    (fun b hb => by match b with | ⟨0, _⟩ => rfl | ⟨1, _⟩ => exact absurd rfl hb)
    (by show 256 + k.val = c.val; omega)

theorem cat4_piece3 (x0 x1 : (⟨2, ![800000, 128]⟩ : Shape).Idx → α) (x2 : (⟨2, ![800000, 1]⟩ : Shape).Idx → α)
    (x3 : (⟨2, ![800000, 2]⟩ : Shape).Idx → α)
    (h : Shape.Concatenates [⟨2, ![800000, 128]⟩, ⟨2, ![800000, 128]⟩, ⟨2, ![800000, 1]⟩, ⟨2, ![800000, 2]⟩]
      ⟨2, ![800000, 259]⟩ 1)
    (e : Fin 800000) (c : Fin 259) (k : Fin 2) (hc : c.val = 257 + k.val) :
    concatenate ⟨2, ![800000, 259]⟩ 1 [⟨⟨2, ![800000, 128]⟩, x0⟩, ⟨⟨2, ![800000, 128]⟩, x1⟩, ⟨⟨2, ![800000, 1]⟩, x2⟩,
      ⟨⟨2, ![800000, 2]⟩, x3⟩] h (ix2 e c) = x3 (ix2 e k) :=
  concatenate_apply_piece (t := ⟨2, ![800000, 259]⟩) 1
    [⟨⟨2, ![800000, 128]⟩, x0⟩, ⟨⟨2, ![800000, 128]⟩, x1⟩, ⟨⟨2, ![800000, 1]⟩, x2⟩, ⟨⟨2, ![800000, 2]⟩, x3⟩]
    h (ix2 e c) 3 (by simp) ⟨2, ![800000, 2]⟩ x3 rfl rfl 257 rfl (ix2 e k)
    (fun b hb => by match b with | ⟨0, _⟩ => rfl | ⟨1, _⟩ => exact absurd rfl hb)
    (by show 257 + k.val = c.val; omega)

end Pieces

/-- Rows off … off + n − 1 of a table, read at a row of the whole table. -/
theorem rowsFrom_at {R : ℕ} (off n c : ℕ) (h : off + n ≤ R) (W : Tab R c) (k : Fin n) (j : Fin c) (r : Fin R)
    (hr : r.val = off + k.val) : rowsFrom off n c h W (ix2 k j) = W (ix2 r j) := by
  unfold rowsFrom
  exact congrArg W (funext fun a => Fin.ext (by match a with | ⟨0, _⟩ => exact hr.symm | ⟨1, _⟩ => rfl))

/-- The activation as the reference spells it: x · (1 / (1 + exp(−x))), with 1 the f32 word of one. -/
theorem silu_eq (x : EReal) :
    FloatOps.mulf (F := Ideal) (φ := .f32) x
      (FloatOps.hostDivf (FloatOps.ofBits .f32 0x3F800000#32)
        (FloatOps.addf (FloatOps.ofBits .f32 0x3F800000#32) (FloatOps.hostUnary .exp (FloatOps.hostNegf x)))) = silu x := by
  simp only [Ideal.mulf_def, Ideal.hostDivf_def, Ideal.addf_def, Ideal.hostUnary_exp_def, Ideal.hostNegf_def,
    Ideal.negf_def, Ideal.ofBits_def, Ideal.ofBits_one_f32]
  rfl

/-! ## The normalised words as the program computes them (four times: for each endpoint, for each table) -/

section Words
variable (src dst : Ids 800000) (e : Fin 800000)

theorem v4_at : Read.val_main_v4 (F := Ideal) src (ix1 e) = wrapA src (ix1 e) := by
  rw [Read.val_main_v4_apply, Read.val_main_v1_apply, Read.val_main_v3_apply, Read.val_main_v0_apply,
    Read.val_main_v2_apply, Read.val_main_c_apply, Read.val_main_c_0_apply]
  rfl

theorem v11_at : Read.val_main_v11 (F := Ideal) dst (ix1 e) = wrapA dst (ix1 e) := by
  rw [Read.val_main_v11_apply, Read.val_main_v8_apply, Read.val_main_v10_apply, Read.val_main_v7_apply,
    Read.val_main_v9_apply, Read.val_main_c_1_apply, Read.val_main_c_2_apply]
  rfl

theorem v18_at : Read.val_main_v18 (F := Ideal) src (ix1 e) = wrapA src (ix1 e) := by
  rw [Read.val_main_v18_apply, Read.val_main_v15_apply, Read.val_main_v17_apply, Read.val_main_v14_apply,
    Read.val_main_v16_apply, Read.val_main_c_3_apply, Read.val_main_c_4_apply]
  rfl

theorem v25_at : Read.val_main_v25 (F := Ideal) dst (ix1 e) = wrapA dst (ix1 e) := by
  rw [Read.val_main_v25_apply, Read.val_main_v22_apply, Read.val_main_v24_apply, Read.val_main_v21_apply,
    Read.val_main_v23_apply, Read.val_main_c_5_apply, Read.val_main_c_6_apply]
  rfl

/-- The words kept as a column [800000, 1]: entry (e, 0) is word e. -/
theorem v5_at (u : Fin 1) : Read.val_main_v5 (F := Ideal) src (ix2 e u) = wrapA src (ix1 e) := by
  rw [Read.val_main_v5_apply,
    show Read.idx_main_v5 (ix2 e u) = ix1 e from funext fun a => by match a with | ⟨0, _⟩ => rfl]
  exact v4_at src e

theorem v12_at (u : Fin 1) : Read.val_main_v12 (F := Ideal) dst (ix2 e u) = wrapA dst (ix1 e) := by
  rw [Read.val_main_v12_apply,
    show Read.idx_main_v12 (ix2 e u) = ix1 e from funext fun a => by match a with | ⟨0, _⟩ => rfl]
  exact v11_at dst e

theorem v19_at (u : Fin 1) : Read.val_main_v19 (F := Ideal) src (ix2 e u) = wrapA src (ix1 e) := by
  rw [Read.val_main_v19_apply,
    show Read.idx_main_v19 (ix2 e u) = ix1 e from funext fun a => by match a with | ⟨0, _⟩ => rfl]
  exact v18_at src e

theorem v26_at (u : Fin 1) : Read.val_main_v26 (F := Ideal) dst (ix2 e u) = wrapA dst (ix1 e) := by
  rw [Read.val_main_v26_apply,
    show Read.idx_main_v26 (ix2 e u) = ix1 e from funext fun a => by match a with | ⟨0, _⟩ => rfl]
  exact v25_at dst e

end Words

/-! ## The gathered rows -/

section Rows
variable (X : Tab 50000 128) (C : Tab 50000 3) (src dst : Ids 800000) (e : Fin 800000)

/-- Row e of the gathered source features is the feature row the source word addresses. -/
theorem v6_at (k : Fin 128) :
    Read.val_main_v6 (F := Ideal) X src (ix2 e k) = X (ix2 (row (wrapA src (ix1 e))) k) := by
  unfold Read.val_main_v6
  refine (Cert.LibRowGather.gather_rows_apply (N := 50000) (D := 128) (M := 800000) (by decide) _ X
    (Read.val_main_v5 (F := Ideal) src) e k).trans ?_
  refine congrArg X (congrArg (fun r => ix2 r k) (Fin.ext ?_))
  show min (Read.val_main_v5 (F := Ideal) src (ix2 e 0)).toInt.toNat (50000 - 1)
    = min (wrapA src (ix1 e)).toInt.toNat 49999
  rw [v5_at src e 0]

theorem v13_at (k : Fin 128) :
    Read.val_main_v13 (F := Ideal) X dst (ix2 e k) = X (ix2 (row (wrapA dst (ix1 e))) k) := by
  unfold Read.val_main_v13
  refine (Cert.LibRowGather.gather_rows_apply (N := 50000) (D := 128) (M := 800000) (by decide) _ X
    (Read.val_main_v12 (F := Ideal) dst) e k).trans ?_
  refine congrArg X (congrArg (fun r => ix2 r k) (Fin.ext ?_))
  show min (Read.val_main_v12 (F := Ideal) dst (ix2 e 0)).toInt.toNat (50000 - 1)
    = min (wrapA dst (ix1 e)).toInt.toNat 49999
  rw [v12_at dst e 0]

theorem v20_at (a : Fin 3) :
    Read.val_main_v20 (F := Ideal) C src (ix2 e a) = C (ix2 (row (wrapA src (ix1 e))) a) := by
  unfold Read.val_main_v20
  refine (Cert.LibRowGather.gather_rows_apply (N := 50000) (D := 3) (M := 800000) (by decide) _ C
    (Read.val_main_v19 (F := Ideal) src) e a).trans ?_
  refine congrArg C (congrArg (fun r => ix2 r a) (Fin.ext ?_))
  show min (Read.val_main_v19 (F := Ideal) src (ix2 e 0)).toInt.toNat (50000 - 1)
    = min (wrapA src (ix1 e)).toInt.toNat 49999
  rw [v19_at src e 0]

theorem v27_at (a : Fin 3) :
    Read.val_main_v27 (F := Ideal) C dst (ix2 e a) = C (ix2 (row (wrapA dst (ix1 e))) a) := by
  unfold Read.val_main_v27
  refine (Cert.LibRowGather.gather_rows_apply (N := 50000) (D := 3) (M := 800000) (by decide) _ C
    (Read.val_main_v26 (F := Ideal) dst) e a).trans ?_
  refine congrArg C (congrArg (fun r => ix2 r a) (Fin.ext ?_))
  show min (Read.val_main_v26 (F := Ideal) dst (ix2 e 0)).toInt.toNat (50000 - 1)
    = min (wrapA dst (ix1 e)).toInt.toNat 49999
  rw [v26_at dst e 0]

/-! ## The geometry of an edge -/

theorem v28_at (a : Fin 3) :
    Read.val_main_v28 (F := Ideal) C src dst (ix2 e a)
      = diff C (row (wrapA src (ix1 e))) (row (wrapA dst (ix1 e))) a := by
  rw [Read.val_main_v28_apply, v20_at, v27_at]
  rfl

theorem v30_at :
    Read.val_main_v30 (F := Ideal) C src dst (ix1 e)
      = radial C (row (wrapA src (ix1 e))) (row (wrapA dst (ix1 e))) := by
  rw [Read.val_main_v30_apply, Read.val_main_cst_apply]
  simp only [Ideal.ofBits_def, Ideal.ofBits_zero_f32, zero_add]
  unfold radial
  refine Finset.sum_congr rfl fun k _ => ?_
  rw [show Read.idx_main_v30 (ix1 e) k = ix2 e k from
      funext fun a => by match a with | ⟨0, _⟩ => rfl | ⟨1, _⟩ => rfl,
    Read.val_main_v29_apply, v28_at]
  rfl

theorem v31_at (u : Fin 1) :
    Read.val_main_v31 (F := Ideal) C src dst (ix2 e u)
      = radial C (row (wrapA src (ix1 e))) (row (wrapA dst (ix1 e))) := by
  rw [Read.val_main_v31_apply,
    show Read.idx_main_v31 (ix2 e u) = ix1 e from funext fun a => by match a with | ⟨0, _⟩ => rfl]
  exact v30_at C src dst e

theorem v36_at (a : Fin 3) :
    Read.val_main_v36 (F := Ideal) C src dst (ix2 e a)
      = unit C (row (wrapA src (ix1 e))) (row (wrapA dst (ix1 e))) a := by
  rw [Read.val_main_v36_apply, Read.val_main_v35_apply,
    show Read.idx_main_v35 (ix2 e a) = ix2 e (0 : Fin 1) from
      funext fun b => by match b with | ⟨0, _⟩ => rfl | ⟨1, _⟩ => rfl,
    Read.val_main_v34_apply, Read.val_main_v32_apply, Read.val_main_v33_apply, Read.val_main_cst_7_apply,
    v31_at, v28_at]
  rfl

end Rows

/-! ## The joined 259-wide row -/

section Joined
variable (X : Tab 50000 128) (C : Tab 50000 3) (EF : Tab 800000 2) (src dst : Ids 800000) (e : Fin 800000)

theorem v37_src (c : Fin 259) (k : Fin 128) (hc : c.val = k.val) :
    Read.val_main_v37 (F := Ideal) X C EF src dst (ix2 e c) = X (ix2 (row (wrapA src (ix1 e))) k) := by
  unfold Read.val_main_v37
  exact (cat4_piece0 _ _ _ _ _ e c k hc).trans (v6_at X src e k)

theorem v37_dst (c : Fin 259) (k : Fin 128) (hc : c.val = 128 + k.val) :
    Read.val_main_v37 (F := Ideal) X C EF src dst (ix2 e c) = X (ix2 (row (wrapA dst (ix1 e))) k) := by
  unfold Read.val_main_v37
  exact (cat4_piece1 _ _ _ _ _ e c k hc).trans (v13_at X dst e k)

theorem v37_rad (c : Fin 259) (hc : c.val = 256) :
    Read.val_main_v37 (F := Ideal) X C EF src dst (ix2 e c)
      = radial C (row (wrapA src (ix1 e))) (row (wrapA dst (ix1 e))) := by
  unfold Read.val_main_v37
  exact (cat4_piece2 _ _ _ _ _ e c (0 : Fin 1) hc).trans (v31_at C src dst e 0)

theorem v37_ef (c : Fin 259) (u : Fin 2) (hc : c.val = 257 + u.val) :
    Read.val_main_v37 (F := Ideal) X C EF src dst (ix2 e c) = EF (ix2 e u) := by
  unfold Read.val_main_v37
  exact cat4_piece3 _ _ _ _ _ e c u hc

end Joined

/-! ## The layers -/

section Layers
variable (X : Tab 50000 128) (C : Tab 50000 3) (EF : Tab 800000 2) (src dst : Ids 800000)
  (W1 : Tab 259 128) (b1 : Col 128) (W2 : Tab 128 128) (b2 : Col 128)
  (cW1 : Tab 128 128) (cb1 : Col 128) (cW2 : Tab 128 1)

/-- The first layer of edge e before its activation, as the specification writes it. -/
abbrev preE (e : Fin 800000) (j : Fin 128) : EReal :=
  pre1 (fun k => X (ix2 (row (wrapA src (ix1 e))) k)) (fun k => X (ix2 (row (wrapA dst (ix1 e))) k))
    (scal C EF (wrapA src) (wrapA dst) e)
    (rowsFrom 0 128 128 (by decide) W1) (rowsFrom 128 128 128 (by decide) W1) (rowsFrom 256 3 128 (by decide) W1) b1 j

/-- The third group's three inputs: the squared length and the two edge features. -/
theorem v37_scal (e : Fin 800000) (k : Fin 3) :
    Read.val_main_v37 (F := Ideal) X C EF src dst (ix2 e ⟨256 + k.val, by omega⟩)
      = scal C EF (wrapA src) (wrapA dst) e k := by
  match k with
  | ⟨0, _⟩ => exact v37_rad X C EF src dst e _ rfl
  | ⟨1, _⟩ => exact v37_ef X C EF src dst e _ (0 : Fin 2) rfl
  | ⟨2, _⟩ => exact v37_ef X C EF src dst e _ (1 : Fin 2) rfl

theorem v41_at (e : Fin 800000) (j : Fin 128) :
    Read.val_main_v41 (F := Ideal) X C EF src dst W1 b1 (ix2 e j) = preE X C EF src dst W1 b1 e j := by
  rw [Read.val_main_v41_apply, Read.val_main_v38_apply, Read.val_main_v40_apply, Read.val_main_v39_apply,
    show Read.idx_main_v39 (Read.idx_main_v40 (ix2 e j)) = ix1 j from
      funext fun a => by match a with | ⟨0, _⟩ => rfl]
  have hl : ∀ c : Fin 259, Read.lidx_main_v38 (ix2 e j) c = ix2 e c := fun c =>
    funext fun a => by match a with | ⟨0, _⟩ => rfl | ⟨1, _⟩ => rfl
  have hr : ∀ c : Fin 259, Read.ridx_main_v38 (ix2 e j) c = ix2 c j := fun c =>
    funext fun a => by match a with | ⟨0, _⟩ => rfl | ⟨1, _⟩ => rfl
  simp only [hl, hr, Ideal.addf_def]
  rw [sum_259_split]
  refine congrArg₂ (· + ·) (congrArg₂ (· + ·) (congrArg₂ (· + ·) (Finset.sum_congr rfl fun k _ => ?_)
    (Finset.sum_congr rfl fun k _ => ?_)) (Finset.sum_congr rfl fun k _ => ?_)) rfl
  · exact congrArg₂ (· * ·) (v37_src X C EF src dst e _ k rfl)
      (rowsFrom_at 0 128 128 _ W1 k j _ (Nat.zero_add _).symm).symm
  · exact congrArg₂ (· * ·) (v37_dst X C EF src dst e _ k rfl) (rowsFrom_at 128 128 128 _ W1 k j _ rfl).symm
  · exact congrArg₂ (· * ·) (v37_scal X C EF src dst e k) (rowsFrom_at 256 3 128 _ W1 k j _ rfl).symm

theorem v42_at (e : Fin 800000) (j : Fin 128) :
    Read.val_main_v42 (F := Ideal) X C EF src dst W1 b1 (ix2 e j) = silu (preE X C EF src dst W1 b1 e j) := by
  rw [Read.val_main_v42_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, v41_at]
  exact silu_eq _

theorem v46_at (e : Fin 800000) (j : Fin 128) :
    Read.val_main_v46 (F := Ideal) X C EF src dst W1 b1 W2 b2 (ix2 e j)
      = dense (fun k => silu (preE X C EF src dst W1 b1 e k)) W2 b2 j := by
  rw [Read.val_main_v46_apply, Read.val_main_v43_apply, Read.val_main_v45_apply, Read.val_main_v44_apply,
    show Read.idx_main_v44 (Read.idx_main_v45 (ix2 e j)) = ix1 j from
      funext fun a => by match a with | ⟨0, _⟩ => rfl]
  have hl : ∀ c : Fin 128, Read.lidx_main_v43 (ix2 e j) c = ix2 e c := fun c =>
    funext fun a => by match a with | ⟨0, _⟩ => rfl | ⟨1, _⟩ => rfl
  have hr : ∀ c : Fin 128, Read.ridx_main_v43 (ix2 e j) c = ix2 c j := fun c =>
    funext fun a => by match a with | ⟨0, _⟩ => rfl | ⟨1, _⟩ => rfl
  simp only [hl, hr, Ideal.addf_def, v42_at]
  rfl

/-- THE MESSAGE of edge e. -/
theorem v47_apply (e : Fin 800000) (j : Fin 128) :
    Read.val_main_v47 (F := Ideal) X C EF src dst W1 b1 W2 b2 (ix2 e j)
      = edgeH X C EF (wrapA src) (wrapA dst) W1 b1 W2 b2 e j := by
  rw [Read.val_main_v47_apply, Read.val_main_call1_v5_apply, Read.val_main_call1_v4_apply,
    Read.val_main_call1_cst_0_apply, Read.val_main_call1_v3_apply, Read.val_main_call1_v2_apply,
    Read.val_main_call1_cst_apply, Read.val_main_call1_v1_apply, Read.val_main_call1_v0_apply, v46_at]
  exact silu_eq _

theorem v51_at (e : Fin 800000) (j : Fin 128) :
    Read.val_main_v51 (F := Ideal) X C EF src dst W1 b1 W2 b2 cW1 cb1 (ix2 e j)
      = dense (edgeH X C EF (wrapA src) (wrapA dst) W1 b1 W2 b2 e) cW1 cb1 j := by
  rw [Read.val_main_v51_apply, Read.val_main_v48_apply, Read.val_main_v50_apply, Read.val_main_v49_apply,
    show Read.idx_main_v49 (Read.idx_main_v50 (ix2 e j)) = ix1 j from
      funext fun a => by match a with | ⟨0, _⟩ => rfl]
  have hl : ∀ c : Fin 128, Read.lidx_main_v48 (ix2 e j) c = ix2 e c := fun c =>
    funext fun a => by match a with | ⟨0, _⟩ => rfl | ⟨1, _⟩ => rfl
  have hr : ∀ c : Fin 128, Read.ridx_main_v48 (ix2 e j) c = ix2 c j := fun c =>
    funext fun a => by match a with | ⟨0, _⟩ => rfl | ⟨1, _⟩ => rfl
  simp only [hl, hr, Ideal.addf_def, v47_apply]
  rfl

theorem v52_at (e : Fin 800000) (j : Fin 128) :
    Read.val_main_v52 (F := Ideal) X C EF src dst W1 b1 W2 b2 cW1 cb1 (ix2 e j)
      = silu (dense (edgeH X C EF (wrapA src) (wrapA dst) W1 b1 W2 b2 e) cW1 cb1 j) := by
  rw [Read.val_main_v52_apply, Read.val_main_call2_v5_apply, Read.val_main_call2_v4_apply,
    Read.val_main_call2_cst_0_apply, Read.val_main_call2_v3_apply, Read.val_main_call2_v2_apply,
    Read.val_main_call2_cst_apply, Read.val_main_call2_v1_apply, Read.val_main_call2_v0_apply, v51_at]
  exact silu_eq _

theorem v53_at (e : Fin 800000) (u : Fin 1) :
    Read.val_main_v53 (F := Ideal) X C EF src dst W1 b1 W2 b2 cW1 cb1 cW2 (ix2 e u)
      = coef (edgeH X C EF (wrapA src) (wrapA dst) W1 b1 W2 b2 e) cW1 cb1 cW2 := by
  rw [Read.val_main_v53_apply]
  have hl : ∀ c : Fin 128, Read.lidx_main_v53 (ix2 e u) c = ix2 e c := fun c =>
    funext fun a => by match a with | ⟨0, _⟩ => rfl | ⟨1, _⟩ => rfl
  have hr : ∀ c : Fin 128, Read.ridx_main_v53 (ix2 e u) c = ix2 c (0 : Fin 1) := fun c =>
    funext fun a => Fin.ext (by match a with | ⟨0, _⟩ => rfl | ⟨1, _⟩ => exact Nat.lt_one_iff.mp u.isLt)
  simp only [hl, hr, v52_at]
  rfl

/-- THE COORDINATE MESSAGE of edge e. -/
theorem v55_apply (e : Fin 800000) (a : Fin 3) :
    Read.val_main_v55 (F := Ideal) X C EF src dst W1 b1 W2 b2 cW1 cb1 cW2 (ix2 e a)
      = edgeX X C EF (wrapA src) (wrapA dst) W1 b1 W2 b2 cW1 cb1 cW2 e a := by
  rw [Read.val_main_v55_apply, Read.val_main_v54_apply,
    show Read.idx_main_v54 (ix2 e a) = ix2 e (0 : Fin 1) from
      funext fun b => by match b with | ⟨0, _⟩ => rfl | ⟨1, _⟩ => rfl,
    v53_at, v36_at]
  unfold edgeX
  refine congrArg₂ (· * ·) rfl ?_
  match a with
  | ⟨0, _⟩ => rfl
  | ⟨1, _⟩ => rfl
  | ⟨2, _⟩ => rfl

end Layers

end Cert.ReferenceIdeal.RefEdge

end
-- ==== Proof.RefValue.lean ====
/-
  The reference's two results are the specification's layer.

  The reference normalises every endpoint word w to w + 50000 when w is negative as a signed integer before it
  addresses a table with it, and accumulates at the destination words as they stand.  A per-edge message reads the two
  index columns only at its own edge, so it is unchanged when a column is replaced by one that agrees with it at that
  edge.  The source words are non-negative by hypothesis, so normalising leaves them as they are.  An edge that
  contributes to node n has destination word equal to n's number, which is non-negative, so its destination word is left
  as it is too; nothing is needed of the destination words of edges that contribute nowhere.  Hence each node's sums
  of messages are the specification's, and so are the node update and the coordinate update built on them.
-/
import proofs.«425882_j23055384445177_3_alg».proof.Proof.RefNode
import proofs.«425882_j23055384445177_3_alg».proof.Proof.RefEdge

noncomputable section

namespace Cert.ReferenceIdeal.RefValue

open Cert.ReferenceIdeal Cert.Egnn Idealize.ShloMosaic Idealize.ShloMosaic.ValueIdx
open Cert.ReferenceIdeal.RefEdge (wrapW wrapA wrapW_of_nonneg)
open scoped BigOperators

/-! ## A per-edge message depends on the index columns only at its own edge -/

section Congr

variable (X : Tab 50000 128) (C : Tab 50000 3) (EF : Tab 800000 2) (s s' d d' : Ids 800000)
  (W1 : Tab 259 128) (b1 : Col 128) (W2 : Tab 128 128) (b2 : Col 128)
  (cW1 : Tab 128 128) (cb1 : Col 128) (cW2 : Tab 128 1)

/-- The six per-edge scalars of edge e agree for two pairs of columns that agree at e. -/
theorem meta6_congr (e : Fin 800000) (h3 : s' (ix1 e) = s (ix1 e)) (h4 : d' (ix1 e) = d (ix1 e)) :
    meta6 C EF s' d' e = meta6 C EF s d e := by
  unfold meta6
  rw [h3, h4]

/-- Edge e's message agrees for two pairs of columns that agree at e. -/
theorem edgeH_congr (e : Fin 800000) (h3 : s' (ix1 e) = s (ix1 e)) (h4 : d' (ix1 e) = d (ix1 e)) :
    edgeH X C EF s' d' W1 b1 W2 b2 e = edgeH X C EF s d W1 b1 W2 b2 e := by
  funext j
  unfold edgeH scal
  rw [meta6_congr C EF s s' d d' e h3 h4, h3, h4]

/-- Edge e's coordinate message agrees for two pairs of columns that agree at e. -/
theorem edgeX_congr (e : Fin 800000) (h3 : s' (ix1 e) = s (ix1 e)) (h4 : d' (ix1 e) = d (ix1 e)) (a : Fin 3) :
    edgeX X C EF s' d' W1 b1 W2 b2 cW1 cb1 cW2 e a = edgeX X C EF s d W1 b1 W2 b2 cW1 cb1 cW2 e a := by
  unfold edgeX
  rw [edgeH_congr X C EF s s' d d' W1 b1 W2 b2 e h3 h4, meta6_congr C EF s s' d d' e h3 h4]

end Congr

/-- The destination word of an edge that lands on node n is non-negative: it is n's number. -/
theorem dst_nonneg_of_lands (dst : Ids 800000) (n : Fin 50000) (e : Fin 800000) (he : e ∈ lands dst n) :
    0 ≤ (dst (ix1 e)).toInt := by
  unfold lands at he
  have h := (Finset.mem_filter.mp he).2
  omega

/-! ## The two results -/

/-- The first result is the specification's updated features. -/
theorem ref_outH (x0 : (⟨S50000x128, .f32⟩ : BufTy).Contents (Elt Ideal)) (x1 : (⟨S50000x3, .f32⟩ : BufTy).Contents (Elt Ideal)) (x2 : (⟨S800000x2, .f32⟩ : BufTy).Contents (Elt Ideal)) (x3 x4 : (⟨S800000, .i32⟩ : BufTy).Contents (Elt Ideal)) (x5 : (⟨S259x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal))
    (hsrc : ∀ e : Fin 800000, 0 ≤ (x3 (ix1 e)).toInt) :
    Read.val_main_v80 (F := Ideal) x0 x1 x2 x3 x4 x5 x6 x7 x8 x9 x10 x11 x12 = outH x0 x1 x2 x3 x4 x5 x6 x7 x8 x9 x10 x11 x12 := by
  funext i
  obtain ⟨n, j, rfl⟩ : ∃ n j, i = ix2 n j := ⟨i 0, i 1, eq_ix2 i⟩
  have hO : outH x0 x1 x2 x3 x4 x5 x6 x7 x8 x9 x10 x11 x12 (ix2 n j)
      = nodeOut (fun k => x0 (ix2 n k)) (fun k => aggH x0 x1 x2 x3 x4 x5 x6 x7 x8 n k) x9 x10 x11 x12 j := rfl
  rw [RefNode.v80_apply, hO]
  refine congrArg (fun hn => nodeOut (fun k => x0 (ix2 n k)) hn x9 x10 x11 x12 j) (funext fun k => ?_)
  unfold aggH
  refine Finset.sum_congr rfl fun e he => ?_
  rw [RefEdge.v47_apply]
  exact congrFun (edgeH_congr x0 x1 x2 x3 (wrapA x3) x4 (wrapA x4) x5 x6 x7 x8 e
    (wrapW_of_nonneg _ (hsrc e)) (wrapW_of_nonneg _ (dst_nonneg_of_lands x4 n e he))) k

/-- The second result is the specification's updated coordinates. -/
theorem ref_outX (x0 : (⟨S50000x128, .f32⟩ : BufTy).Contents (Elt Ideal)) (x1 : (⟨S50000x3, .f32⟩ : BufTy).Contents (Elt Ideal)) (x2 : (⟨S800000x2, .f32⟩ : BufTy).Contents (Elt Ideal)) (x3 x4 : (⟨S800000, .i32⟩ : BufTy).Contents (Elt Ideal)) (x5 : (⟨S259x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x1, .f32⟩ : BufTy).Contents (Elt Ideal))
    (hsrc : ∀ e : Fin 800000, 0 ≤ (x3 (ix1 e)).toInt) :
    Read.val_main_v81 (F := Ideal) x0 x1 x2 x3 x4 x5 x6 x7 x8 x13 x14 x15 = outX x0 x1 x2 x3 x4 x5 x6 x7 x8 x13 x14 x15 := by
  funext i
  obtain ⟨n, a, rfl⟩ : ∃ n a, i = ix2 n a := ⟨i 0, i 1, eq_ix2 i⟩
  have hO : outX x0 x1 x2 x3 x4 x5 x6 x7 x8 x13 x14 x15 (ix2 n a)
      = x1 (ix2 n a) + Ideal.div (aggX x0 x1 x2 x3 x4 x5 x6 x7 x8 x13 x14 x15 n a) (max (deg x4 n) Cert.Egnn.one) := rfl
  rw [RefNode.v81_apply, hO]
  refine congrArg (fun t => x1 (ix2 n a) + Ideal.div t (max (deg x4 n) Cert.Egnn.one)) ?_
  unfold aggX
  refine Finset.sum_congr rfl fun e he => ?_
  rw [RefEdge.v55_apply]
  exact edgeX_congr x0 x1 x2 x3 (wrapA x3) x4 (wrapA x4) x5 x6 x7 x8 x13 x14 x15 e
    (wrapW_of_nonneg _ (hsrc e)) (wrapW_of_nonneg _ (dst_nonneg_of_lands x4 n e he)) a

end Cert.ReferenceIdeal.RefValue

end
-- ==== Proof.PreDecode.lean ====
/-
  The added precondition says every source index, read as a signed 32-bit integer, is at least 0.  The printed
  predicate is a conjunction (one bit) of sixteen "all" tests; the last conjunct is the "all" of the signed
  comparison src ≥ 0 over the 800000 edges.  If the predicate is 1 then that conjunct is 1, so the comparison is 1
  at every edge, which is the inequality between the two words read signed.
-/
import proofs.«425882_j23055384445177_3_alg».proof.Defs
import Idealize.ShloMosaic.Lib.ReduceAll
import Idealize.ShloMosaic.Lib.Affine
import Idealize.ShloMosaic.Lib.ValueIdx

noncomputable section

namespace Cert.Proof.PreDecode

open Idealize.ShloMosaic Idealize.ShloMosaic.ValueIdx Cert.Pre_finite_inputs

instance : Subsingleton S_.Idx := ⟨fun a b => funext fun d => d.elim0⟩

variable [Cert.Pre_finite_inputs.Facts]
open Cert.Pre_finite_inputs.Facts

/-- The last conjunct alone: the "all" of src ≥ 0 beside anything. -/
theorem nonneg_of_part4 {F : FTy → Type} [FloatOps F] (src : IVec S800000 32) (p q : IVec S_ 1)
    (h : fn_part4 (F := F) src p q = fun _ => 1#1) (e : Fin 800000) : 0 ≤ (src (ix1 e)).toInt := by
  have h0 := congrFun h ix0
  dsimp only [fn_part4] at h0
  have h1 : Host.reduce IntOp.andi (cmpi .sge src (broadcastInDim S800000 ![] bcast_S_S800000 (constantI S_ 32 0#32)))
      (constantI S_ 1 1#1) reducesTo_S800000_S_d0 h_S_ ix0 = 1#1 :=
    (IntOp.andi_eq_one.mp (show IntOp.andi _ _ = 1#1 from h0)).2
  have h2 := Host.reduce_andi_all _ _ _ _ _ h1 (ix1 e)
  exact IntOp.cmpi_sge.mp (show IntOp.cmpi .sge (src (ix1 e)) (0#32) = 1#1 from h2)

/-- The whole printed predicate: when it is 1, every source word is nonnegative read signed. -/
theorem src_nonneg {F : FTy → Type} [FloatOps F] (a0 : FVec F S50000x128 .f32) (a1 : FVec F S50000x3 .f32) (a2 : FVec F S800000x2 .f32) (a3 : IVec S800000 32) (a4 : IVec S800000 32) (a5 : FVec F S259x128 .f32) (a6 : FVec F S128 .f32) (a7 : FVec F S128x128 .f32) (a8 : FVec F S128 .f32) (a9 : FVec F S256x128 .f32) (a10 : FVec F S128 .f32) (a11 : FVec F S128x128 .f32) (a12 : FVec F S128 .f32) (a13 : FVec F S128x128 .f32) (a14 : FVec F S128 .f32) (a15 : FVec F S128x1 .f32)
    (h : fn (F := F) a0 a1 a2 a3 a4 a5 a6 a7 a8 a9 a10 a11 a12 a13 a14 a15 = fun _ => 1#1) (e : Fin 800000) : 0 ≤ (a3 (ix1 e)).toInt := by
  unfold fn fn_part1 fn_part2 fn_part3 at h
  exact nonneg_of_part4 a3 _ _ h e

end Cert.Proof.PreDecode

end
-- ==== Proof.lean ====
/-
  One message-passing layer of a graph network on 50000 nodes and 800000 edges, computed two ways.

  The kernel's program gathers the endpoint rows on the host, pads the edge arrays to 196 blocks of 4096 rows, runs
  the edge network block by block with the 259-wide first product split in its three groups, scatter-adds the padded
  outputs at destination words padded with the out-of-range word 50000 (those rows are dropped), and runs the node
  network on 10 blocks of 5000 rows.  The reference does the same on whole arrays, and normalises a negative index
  word by adding 50000 before it gathers.  Under the precondition that every source word is nonnegative the two
  results agree entry by entry on the extended reals: a gathered destination row can differ only at an edge whose
  destination word is negative, and such an edge lands on no node in either program.
  Both kernels' frames come from their two Pallas calls' body runs; the reference's frame is its host run.
-/
import proofs.«425882_j23055384445177_3_alg».proof.Defs
import proofs.«425882_j23055384445177_3_alg».proof.Proof.Gen.Kernel
import proofs.«425882_j23055384445177_3_alg».proof.Proof.Gen.KernelIdeal
import proofs.«425882_j23055384445177_3_alg».proof.Proof.Gen.ReferenceIdeal
import proofs.«425882_j23055384445177_3_alg».proof.Proof.Gen.Pre_finite_inputs
import proofs.«425882_j23055384445177_3_alg».proof.Proof.KernelRun
import proofs.«425882_j23055384445177_3_alg».proof.Proof.KernelIdealRun
import proofs.«425882_j23055384445177_3_alg».proof.Proof.KernelValue
import proofs.«425882_j23055384445177_3_alg».proof.Proof.RefSide
import proofs.«425882_j23055384445177_3_alg».proof.Proof.RefValue
import proofs.«425882_j23055384445177_3_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

variable [hK : Cert.Kernel.Facts] [hKI : Cert.KernelIdeal.Facts] [hR : Cert.ReferenceIdeal.Facts] [hP : Cert.Pre_finite_inputs.Facts]

theorem frame_kernel : Cert.frame_Kernel := fun m ρ _ => Cert.Kernel.Run.frame m ρ
theorem frame_kernelIdeal : Cert.frame_KernelIdeal := fun m ρ _ => Cert.KernelIdeal.Run.frame m ρ
theorem frame_reference : Cert.frame_ReferenceIdeal := Cert.Proof.RefSide.frame_ref

/-- An unscoped reference of the core is among those the final state is read at. -/
theorem mem_uc (b : Ref Cert.KernelIdeal.sig .tc)
    (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- The two idealized programs, from memories that agree on the sixteen arguments, end with the same two results:
    the specification's updated features and updated coordinates of the arguments. -/
theorem algebraic : Cert.algebraic_KernelIdeal_ReferenceIdeal := by
  intro m ρ m' ρ' hpre hagree
  have hsrc : ∀ (c : Dev Cert.KernelIdeal.nD) (e : Fin 800000),
      0 ≤ ((m ((c.tc : Thread Cert.KernelIdeal.nD Cert.KernelIdeal.τ).loc Cert.KernelIdeal.main_arg3) : Cert.Pre_finite_inputs.S800000.Idx → BitVec 32) (ix1 e)).toInt :=
    fun c e => Cert.Proof.PreDecode.src_nonneg (F := Ideal) _ _ _ _ _ _ _ _ _ _ _ _ _ _ _ _ (hpre c) e
  refine ⟨fun c => Cert.KernelIdeal.Gen.V17 m (Cert.KernelIdeal.Run.outs m) c Cert.KernelIdeal.main_v38,
    fun c => Cert.KernelIdeal.Gen.V17 m (Cert.KernelIdeal.Run.outs m) c Cert.KernelIdeal.main_v39, ?_, ?_⟩
  · refine (θ_run Cert.KernelIdeal.defs _ _).mono (fun r h c => ⟨h c (Proc.devRef .tc Cert.KernelIdeal.main_v38) (mem_uc Cert.KernelIdeal.main_v38 (by decide)), h c (Proc.devRef .tc Cert.KernelIdeal.main_v39) (mem_uc Cert.KernelIdeal.main_v39 (by decide)),
      (h c (Proc.devRef .tc Cert.KernelIdeal.main_arg0) (mem_uc Cert.KernelIdeal.main_arg0 (by decide))).trans (Cert.KernelIdeal.Gen.V17_main_arg0 m _ c),
      (h c (Proc.devRef .tc Cert.KernelIdeal.main_arg1) (mem_uc Cert.KernelIdeal.main_arg1 (by decide))).trans (Cert.KernelIdeal.Gen.V17_main_arg1 m _ c),
      (h c (Proc.devRef .tc Cert.KernelIdeal.main_arg2) (mem_uc Cert.KernelIdeal.main_arg2 (by decide))).trans (Cert.KernelIdeal.Gen.V17_main_arg2 m _ c),
      (h c (Proc.devRef .tc Cert.KernelIdeal.main_arg3) (mem_uc Cert.KernelIdeal.main_arg3 (by decide))).trans (Cert.KernelIdeal.Gen.V17_main_arg3 m _ c),
      (h c (Proc.devRef .tc Cert.KernelIdeal.main_arg4) (mem_uc Cert.KernelIdeal.main_arg4 (by decide))).trans (Cert.KernelIdeal.Gen.V17_main_arg4 m _ c),
      (h c (Proc.devRef .tc Cert.KernelIdeal.main_arg5) (mem_uc Cert.KernelIdeal.main_arg5 (by decide))).trans (Cert.KernelIdeal.Gen.V17_main_arg5 m _ c),
      (h c (Proc.devRef .tc Cert.KernelIdeal.main_arg6) (mem_uc Cert.KernelIdeal.main_arg6 (by decide))).trans (Cert.KernelIdeal.Gen.V17_main_arg6 m _ c),
      (h c (Proc.devRef .tc Cert.KernelIdeal.main_arg7) (mem_uc Cert.KernelIdeal.main_arg7 (by decide))).trans (Cert.KernelIdeal.Gen.V17_main_arg7 m _ c),
      (h c (Proc.devRef .tc Cert.KernelIdeal.main_arg8) (mem_uc Cert.KernelIdeal.main_arg8 (by decide))).trans (Cert.KernelIdeal.Gen.V17_main_arg8 m _ c),
      (h c (Proc.devRef .tc Cert.KernelIdeal.main_arg9) (mem_uc Cert.KernelIdeal.main_arg9 (by decide))).trans (Cert.KernelIdeal.Gen.V17_main_arg9 m _ c),
      (h c (Proc.devRef .tc Cert.KernelIdeal.main_arg10) (mem_uc Cert.KernelIdeal.main_arg10 (by decide))).trans (Cert.KernelIdeal.Gen.V17_main_arg10 m _ c),
      (h c (Proc.devRef .tc Cert.KernelIdeal.main_arg11) (mem_uc Cert.KernelIdeal.main_arg11 (by decide))).trans (Cert.KernelIdeal.Gen.V17_main_arg11 m _ c),
      (h c (Proc.devRef .tc Cert.KernelIdeal.main_arg12) (mem_uc Cert.KernelIdeal.main_arg12 (by decide))).trans (Cert.KernelIdeal.Gen.V17_main_arg12 m _ c),
      (h c (Proc.devRef .tc Cert.KernelIdeal.main_arg13) (mem_uc Cert.KernelIdeal.main_arg13 (by decide))).trans (Cert.KernelIdeal.Gen.V17_main_arg13 m _ c),
      (h c (Proc.devRef .tc Cert.KernelIdeal.main_arg14) (mem_uc Cert.KernelIdeal.main_arg14 (by decide))).trans (Cert.KernelIdeal.Gen.V17_main_arg14 m _ c),
      (h c (Proc.devRef .tc Cert.KernelIdeal.main_arg15) (mem_uc Cert.KernelIdeal.main_arg15 (by decide))).trans (Cert.KernelIdeal.Gen.V17_main_arg15 m _ c)⟩)
      (Cert.KernelIdeal.Run.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15⟩ := hagree c
      rw [Cert.ReferenceIdeal.Read.val_main_v80_eq, h0, h1, h2, h3, h4, h5, h6, h7, h8, h9, h10, h11, h12]
      exact (Cert.ReferenceIdeal.RefValue.ref_outH _ _ _ _ _ _ _ _ _ _ _ _ _ (hsrc c)).trans (Cert.KernelIdeal.Result.v38_eq_outH m c).symm
    · obtain ⟨h0, h1, h2, h3, h4, h5, h6, h7, h8, h9, h10, h11, h12, h13, h14, h15⟩ := hagree c
      rw [Cert.ReferenceIdeal.Read.val_main_v81_eq, h0, h1, h2, h3, h4, h5, h6, h7, h8, h13, h14, h15]
      exact (Cert.ReferenceIdeal.RefValue.ref_outX _ _ _ _ _ _ _ _ _ _ _ _ (hsrc c)).trans (Cert.KernelIdeal.Result.v39_eq_outX m c).symm

end Cert.Proof

namespace Cert.Proof

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
